-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S_ : Shape := ⟨0, ![]⟩

class Facts : Prop where
  bcast_S_S64x64x64x64 : S_.BroadcastsInDim S64x64x64x64 (![] : Fin 0 → Fin S64x64x64x64.rank)
  reducesTo_S64x64x64x64_S_d0_1_2_3 : S64x64x64x64.ReducesTo [0, 1, 2, 3] S_
  h_S_ : 0 < S_.numel
  bcast_S_S64x64x5x1 : S_.BroadcastsInDim S64x64x5x1 (![] : Fin 0 → Fin S64x64x5x1.rank)
  reducesTo_S64x64x5x1_S_d0_1_2_3 : S64x64x5x1.ReducesTo [0, 1, 2, 3] S_
  bcast_S_S64 : S_.BroadcastsInDim S64 (![] : Fin 0 → Fin S64.rank)
  reducesTo_S64_S_d0 : S64.ReducesTo [0] S_
  bcast_S_S64x64x1x5 : S_.BroadcastsInDim S64x64x1x5 (![] : Fin 0 → Fin S64x64x1x5.rank)
  reducesTo_S64x64x1x5_S_d0_1_2_3 : S64x64x1x5.ReducesTo [0, 1, 2, 3] S_

variable [Facts]

def fn_part2 {F : FTy → Type} [FloatOps F] (main_arg7 : FVec F S64x64x5x1 .f32) (main_arg8 : FVec F S64 .f32) (main_v33 : IVec S_ 1) : IVec S_ 1 :=
  let main_v34 : FVec F S64x64x5x1 .f32 := Host.absf main_arg7
  let main_cst_12 : FVec F S_ .f32 := constant S_ .f32 0x7F800000#32
  let main_v35 : FVec F S64x64x5x1 .f32 := broadcastInDim S64x64x5x1 ![] bcast_S_S64x64x5x1 main_cst_12
  let main_v36 : IVec S64x64x5x1 1 := cmpf .olt main_v34 main_v35
  let main_c_13 : IVec S_ 1 := constantI S_ 1 1#1
  let main_v37 : IVec S_ 1 := (fun x v => Host.reduce IntOp.andi x v reducesTo_S64x64x5x1_S_d0_1_2_3 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64x1x5 .f32) (main_arg6 : FVec F S64 .f32) (main_arg7 : FVec F S64x64x5x1 .f32) (main_arg8 : FVec F S64 .f32) (main_v13 : IVec S_ 1) (main_v16 : IVec S64x64x1x5 1) : IVec S_ 1 :=
  let main_c_5 : IVec S_ 1 := constantI S_ 1 1#1
  let main_v17 : IVec S_ 1 := (fun x v => Host.reduce IntOp.andi x v reducesTo_S64x64x1x5_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64x1x5 .f32 := Host.absf main_arg5
  let main_cst_8 : FVec F S_ .f32 := constant S_ .f32 0x7F800000#32
  let main_v25 : FVec F S64x64x1x5 .f32 := broadcastInDim S64x64x1x5 ![] bcast_S_S64x64x1x5 main_cst_8
  let main_v26 : IVec S64x64x1x5 1 := cmpf .olt main_v24 main_v25
  let main_c_9 : IVec S_ 1 := constantI S_ 1 1#1
  let main_v27 : IVec S_ 1 := (fun x v => Host.reduce IntOp.andi x v reducesTo_S64x64x1x5_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S64x64x64x64 .f32) (main_arg1 : FVec F S64x64x5x1 .f32) (main_arg2 : FVec F S64 .f32) (main_arg3 : FVec F S64x64x1x5 .f32) (main_arg4 : FVec F S64 .f32) (main_arg5 : FVec F S64x64x1x5 .f32) (main_arg6 : FVec F S64 .f32) (main_arg7 : FVec F S64x64x5x1 .f32) (main_arg8 : FVec F S64 .f32) : IVec S_ 1 :=
  let main_v0 : FVec F S64x64x64x64 .f32 := Host.absf main_arg0
  let main_cst : FVec F S_ .f32 := constant S_ .f32 0x7F800000#32
  let main_v1 : FVec F S64x64x64x64 .f32 := broadcastInDim S64x64x64x64 ![] bcast_S_S64x64x64x64 main_cst
  let main_v2 : IVec S64x64x64x64 1 := cmpf .olt main_v0 main_v1
  let main_c : IVec S_ 1 := constantI S_ 1 1#1
  let main_v3 : IVec S_ 1 := (fun x v => Host.reduce IntOp.andi x v reducesTo_S64x64x64x64_S_d0_1_2_3 h_S_) main_v2 main_c
  let main_v4 : FVec F S64x64x5x1 .f32 := Host.absf main_arg1
  let main_cst_0 : FVec F S_ .f32 := constant S_ .f32 0x7F800000#32
  let main_v5 : FVec F S64x64x5x1 .f32 := broadcastInDim S64x64x5x1 ![] bcast_S_S64x64x5x1 main_cst_0
  let main_v6 : IVec S64x64x5x1 1 := cmpf .olt main_v4 main_v5
  let main_c_1 : IVec S_ 1 := constantI S_ 1 1#1
  let main_v7 : IVec S_ 1 := (fun x v => Host.reduce IntOp.andi x v reducesTo_S64x64x5x1_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x1x5 .f32 := Host.absf main_arg3
  let main_cst_4 : FVec F S_ .f32 := constant S_ .f32 0x7F800000#32
  let main_v15 : FVec F S64x64x1x5 .f32 := broadcastInDim S64x64x1x5 ![] bcast_S_S64x64x1x5 main_cst_4
  let main_v16 : IVec S64x64x1x5 1 := cmpf .olt main_v14 main_v15
  fn_part1 (F := F) main_arg4 main_arg5 main_arg6 main_arg7 main_arg8 main_v13 main_v16
-- ==== Kernel.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S64x64x5 : Shape := ⟨3, ![64, 64, 5]⟩
abbrev S64x5x64 : Shape := ⟨3, ![64, 5, 64]⟩
abbrev S64x320 : Shape := ⟨2, ![64, 320]⟩
abbrev S64x640 : Shape := ⟨2, ![64, 640]⟩
abbrev S64x1 : Shape := ⟨2, ![64, 1]⟩
abbrev S4352 : Shape := ⟨1, ![4352]⟩
abbrev S_ : Shape := ⟨0, ![]⟩
abbrev S1x4352 : Shape := ⟨2, ![1, 4352]⟩
abbrev S4624 : Shape := ⟨1, ![4624]⟩
abbrev S1x4624 : Shape := ⟨2, ![1, 4624]⟩
abbrev S64x64x68x68 : Shape := ⟨4, ![64, 64, 68, 68]⟩
abbrev S64x64x4624 : Shape := ⟨3, ![64, 64, 4624]⟩
abbrev S64x64x4628 : Shape := ⟨3, ![64, 64, 4628]⟩
abbrev S64x64x4352 : Shape := ⟨3, ![64, 64, 4352]⟩
abbrev S64x64x64x68 : Shape := ⟨4, ![64, 64, 64, 68]⟩
abbrev S1x64x4628 : Shape := ⟨3, ![1, 64, 4628]⟩
abbrev S1x64x4352 : Shape := ⟨3, ![1, 64, 4352]⟩
abbrev S64x4356 : Shape := ⟨2, ![64, 4356]⟩
abbrev S64x4624 : Shape := ⟨2, ![64, 4624]⟩
abbrev S64x4628 : Shape := ⟨2, ![64, 4628]⟩
abbrev S64x4352 : Shape := ⟨2, ![64, 4352]⟩
abbrev S320x4352 : Shape := ⟨2, ![320, 4352]⟩
abbrev S64x2 : Shape := ⟨2, ![64, 2]⟩
abbrev S320x4624 : Shape := ⟨2, ![320, 4624]⟩
abbrev S640x4352 : Shape := ⟨2, ![640, 4352]⟩

abbrev nBuf : Space → Nat
  | .hbm => 101
  | .vmem => 14
  | .smem => 0
  | _ => 0

abbrev bufTy : (tb : Table) → Fin (tcTables nBuf tb) → BufTy
  | .hbm, ⟨0, _⟩ => ⟨S64x64x64x64, .f32⟩
  | .hbm, ⟨1, _⟩ => ⟨S64x64x5x1, .f32⟩
  | .hbm, ⟨2, _⟩ => ⟨S64, .f32⟩
  | .hbm, ⟨3, _⟩ => ⟨S64x64x1x5, .f32⟩
  | .hbm, ⟨4, _⟩ => ⟨S64, .f32⟩
  | .hbm, ⟨5, _⟩ => ⟨S64x64x1x5, .f32⟩
  | .hbm, ⟨6, _⟩ => ⟨S64, .f32⟩
  | .hbm, ⟨7, _⟩ => ⟨S64x64x5x1, .f32⟩
  | .hbm, ⟨8, _⟩ => ⟨S64, .f32⟩
  | .hbm, ⟨9, _⟩ => ⟨S64x64x5, .f32⟩
  | .hbm, ⟨10, _⟩ => ⟨S64x5x64, .f32⟩
  | .hbm, ⟨11, _⟩ => ⟨S64x320, .f32⟩
  | .hbm, ⟨12, _⟩ => ⟨S64x320, .bf16⟩
  | .hbm, ⟨13, _⟩ => ⟨S64x64x5, .f32⟩
  | .hbm, ⟨14, _⟩ => ⟨S64x5x64, .f32⟩
  | .hbm, ⟨15, _⟩ => ⟨S64x320, .f32⟩
  | .hbm, ⟨16, _⟩ => ⟨S64x320, .bf16⟩
  | .hbm, ⟨17, _⟩ => ⟨S64x64x5, .f32⟩
  | .hbm, ⟨18, _⟩ => ⟨S64x5x64, .f32⟩
  | .hbm, ⟨19, _⟩ => ⟨S64x320, .f32⟩
  | .hbm, ⟨20, _⟩ => ⟨S64x320, .bf16⟩
  | .hbm, ⟨21, _⟩ => ⟨S64x64x5, .f32⟩
  | .hbm, ⟨22, _⟩ => ⟨S64x5x64, .f32⟩
  | .hbm, ⟨23, _⟩ => ⟨S64x320, .f32⟩
  | .hbm, ⟨24, _⟩ => ⟨S64x320, .bf16⟩
  | .hbm, ⟨25, _⟩ => ⟨S64x640, .bf16⟩
  | .hbm, ⟨26, _⟩ => ⟨S64x1, .f32⟩
  | .hbm, ⟨27, _⟩ => ⟨S64x1, .f32⟩
  | .hbm, ⟨28, _⟩ => ⟨S64, .f32⟩
  | .hbm, ⟨29, _⟩ => ⟨S64x1, .f32⟩
  | .hbm, ⟨30, _⟩ => ⟨S4352, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S4352, .i32⟩
  | .hbm, ⟨38, _⟩ => ⟨S4352, .i32⟩
  | .hbm, ⟨39, _⟩ => ⟨S_, .i32⟩
  | .hbm, ⟨40, _⟩ => ⟨S4352, .i32⟩
  | .hbm, ⟨41, _⟩ => ⟨S4352, .i1⟩
  | .hbm, ⟨42, _⟩ => ⟨S_, .i32⟩
  | .hbm, ⟨43, _⟩ => ⟨S4352, .i32⟩
  | .hbm, ⟨44, _⟩ => ⟨S4352, .i1⟩
  | .hbm, ⟨45, _⟩ => ⟨S_, .i32⟩
  | .hbm, ⟨46, _⟩ => ⟨S_, .i1⟩
  | .hbm, ⟨47, _⟩ => ⟨S4352, .i1⟩
  | .hbm, ⟨48, _⟩ => ⟨S4352, .i1⟩
  | .hbm, ⟨49, _⟩ => ⟨S4352, .i1⟩
  | .hbm, ⟨50, _⟩ => ⟨S4352, .i32⟩
  | .hbm, ⟨51, _⟩ => ⟨S4352, .i32⟩
  | .hbm, ⟨52, _⟩ => ⟨S4352, .i32⟩
  | .hbm, ⟨53, _⟩ => ⟨S_, .i32⟩
  | .hbm, ⟨54, _⟩ => ⟨S4352, .i32⟩
  | .hbm, ⟨55, _⟩ => ⟨S4352, .i1⟩
  | .hbm, ⟨56, _⟩ => ⟨S_, .i32⟩
  | .hbm, ⟨57, _⟩ => ⟨S4352, .i32⟩
  | .hbm, ⟨58, _⟩ => ⟨S4352, .i1⟩
  | .hbm, ⟨59, _⟩ => ⟨S4352, .i1⟩
  | .hbm, ⟨60, _⟩ => ⟨S4352, .f32⟩
  | .hbm, ⟨61, _⟩ => ⟨S1x4352, .f32⟩
  | .hbm, ⟨62, _⟩ => ⟨S4624, .i32⟩
  | .hbm, ⟨63, _⟩ => ⟨S_, .i32⟩
  | .hbm, ⟨64, _⟩ => ⟨S_, .i32⟩
  | .hbm, ⟨65, _⟩ => ⟨S4624, .i32⟩
  | .hbm, ⟨66, _⟩ => ⟨S4624, .i32⟩
  | .hbm, ⟨67, _⟩ => ⟨S4624, .i32⟩
  | .hbm, ⟨68, _⟩ => ⟨S_, .i32⟩
  | .hbm, ⟨69, _⟩ => ⟨S4624, .i32⟩
  | .hbm, ⟨70, _⟩ => ⟨S4624, .i1⟩
  | .hbm, ⟨71, _⟩ => ⟨S4624, .i32⟩
  | .hbm, ⟨72, _⟩ => ⟨S4624, .i32⟩
  | .hbm, ⟨73, _⟩ => ⟨S_, .i32⟩
  | .hbm, ⟨74, _⟩ => ⟨S4624, .i32⟩
  | .hbm, ⟨75, _⟩ => ⟨S4624, .i1⟩
  | .hbm, ⟨76, _⟩ => ⟨S4624, .i1⟩
  | .hbm, ⟨77, _⟩ => ⟨S_, .i32⟩
  | .hbm, ⟨78, _⟩ => ⟨S4624, .i32⟩
  | .hbm, ⟨79, _⟩ => ⟨S4624, .i32⟩
  | .hbm, ⟨80, _⟩ => ⟨S4624, .i32⟩
  | .hbm, ⟨81, _⟩ => ⟨S_, .i32⟩
  | .hbm, ⟨82, _⟩ => ⟨S4624, .i32⟩
  | .hbm, ⟨83, _⟩ => ⟨S4624, .i1⟩
  | .hbm, ⟨84, _⟩ => ⟨S_, .i32⟩
  | .hbm, ⟨85, _⟩ => ⟨S4624, .i32⟩
  | .hbm, ⟨86, _⟩ => ⟨S4624, .i1⟩
  | .hbm, ⟨87, _⟩ => ⟨S4624, .i1⟩
  | .hbm, ⟨88, _⟩ => ⟨S4624, .f32⟩
  | .hbm, ⟨89, _⟩ => ⟨S1x4624, .f32⟩
  | .hbm, ⟨90, _⟩ => ⟨S_, .i32⟩
  | .hbm, ⟨91, _⟩ => ⟨S_, .f32⟩
  | .hbm, ⟨92, _⟩ => ⟨S64x64x68x68, .f32⟩
  | .hbm, ⟨93, _⟩ => ⟨S64x64x4624, .f32⟩
  | .hbm, ⟨94, _⟩ => ⟨S_, .i32⟩
  | .hbm, ⟨95, _⟩ => ⟨S_, .f32⟩
  | .hbm, ⟨96, _⟩ => ⟨S64x64x4628, .f32⟩
  | .hbm, ⟨97, _⟩ => ⟨S64x64x4628, .bf16⟩
  | .hbm, ⟨98, _⟩ => ⟨S64x64x4352, .f32⟩
  | .hbm, ⟨99, _⟩ => ⟨S64x64x64x68, .f32⟩
  | .hbm, ⟨100, _⟩ => ⟨S64x64x64x64, .f32⟩
  | .local _ .vmem, ⟨0, _⟩ => ⟨S1x64x4628, .bf16⟩
  | .local _ .vmem, ⟨1, _⟩ => ⟨S1x64x4628, .bf16⟩
  | .local _ .vmem, ⟨2, _⟩ => ⟨S64x320, .bf16⟩
  | .local _ .vmem, ⟨3, _⟩ => ⟨S64x320, .bf16⟩
  | .local _ .vmem, ⟨4, _⟩ => ⟨S64x640, .bf16⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S1x4352, .f32⟩
  | .local _ .vmem, ⟨9, _⟩ => ⟨S1x4624, .f32⟩
  | .local _ .vmem, ⟨10, _⟩ => ⟨S1x64x4352, .f32⟩
  | .local _ .vmem, ⟨11, _⟩ => ⟨S1x64x4352, .f32⟩
  | .local _ .vmem, ⟨12, _⟩ => ⟨S64x4356, .bf16⟩
  | .local _ .vmem, ⟨13, _⟩ => ⟨S64x4624, .bf16⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_c : Ref sig .tc := ⟨.hbm, 31, rfl⟩
abbrev main_call0_call0_v0 : Ref sig .tc := ⟨.hbm, 32, rfl⟩
abbrev main_call0_call0_c : Ref sig .tc := ⟨.hbm, 33, rfl⟩
abbrev main_call0_call0_v1 : Ref sig .tc := ⟨.hbm, 34, rfl⟩
abbrev main_call0_call0_c_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_c_1 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_c_2 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_c_3 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_v13 : Ref sig .tc := ⟨.hbm, 50, rfl⟩
abbrev main_call0_call0_v14 : Ref sig .tc := ⟨.hbm, 51, rfl⟩
abbrev main_call0_v22 : Ref sig .tc := ⟨.hbm, 52, rfl⟩
abbrev main_call0_c_0 : Ref sig .tc := ⟨.hbm, 53, rfl⟩
abbrev main_call0_v23 : Ref sig .tc := ⟨.hbm, 54, rfl⟩
abbrev main_call0_v24 : Ref sig .tc := ⟨.hbm, 55, rfl⟩
abbrev main_call0_c_1 : Ref sig .tc := ⟨.hbm, 56, rfl⟩
abbrev main_call0_v25 : Ref sig .tc := ⟨.hbm, 57, rfl⟩
abbrev main_call0_v26 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_c_2 : Ref sig .tc := ⟨.hbm, 63, rfl⟩
abbrev main_call0_call1_v0 : Ref sig .tc := ⟨.hbm, 64, rfl⟩
abbrev main_call0_call1_v1 : Ref sig .tc := ⟨.hbm, 65, rfl⟩
abbrev main_call0_call1_v2 : Ref sig .tc := ⟨.hbm, 66, rfl⟩
abbrev main_call0_call1_v3 : Ref sig .tc := ⟨.hbm, 67, rfl⟩
abbrev main_call0_call1_v4 : Ref sig .tc := ⟨.hbm, 68, rfl⟩
abbrev main_call0_call1_v5 : Ref sig .tc := ⟨.hbm, 69, rfl⟩
abbrev main_call0_call1_v6 : Ref sig .tc := ⟨.hbm, 70, rfl⟩
abbrev main_call0_call1_v7 : Ref sig .tc := ⟨.hbm, 71, rfl⟩
abbrev main_call0_call1_v8 : Ref sig .tc := ⟨.hbm, 72, rfl⟩
abbrev main_call0_call1_c : Ref sig .tc := ⟨.hbm, 73, rfl⟩
abbrev main_call0_call1_v9 : Ref sig .tc := ⟨.hbm, 74, rfl⟩
abbrev main_call0_call1_v10 : Ref sig .tc := ⟨.hbm, 75, rfl⟩
abbrev main_call0_call1_v11 : Ref sig .tc := ⟨.hbm, 76, rfl⟩
abbrev main_call0_call1_c_0 : Ref sig .tc := ⟨.hbm, 77, rfl⟩
abbrev main_call0_call1_v12 : Ref sig .tc := ⟨.hbm, 78, rfl⟩
abbrev main_call0_call1_v13 : Ref sig .tc := ⟨.hbm, 79, rfl⟩
abbrev main_call0_v31 : Ref sig .tc := ⟨.hbm, 80, rfl⟩
abbrev main_call0_c_3 : Ref sig .tc := ⟨.hbm, 81, rfl⟩
abbrev main_call0_v32 : Ref sig .tc := ⟨.hbm, 82, rfl⟩
abbrev main_call0_v33 : Ref sig .tc := ⟨.hbm, 83, rfl⟩
abbrev main_call0_c_4 : Ref sig .tc := ⟨.hbm, 84, rfl⟩
abbrev main_call0_v34 : Ref sig .tc := ⟨.hbm, 85, rfl⟩
abbrev main_call0_v35 : Ref sig .tc := ⟨.hbm, 86, rfl⟩
abbrev main_call0_v36 : Ref sig .tc := ⟨.hbm, 87, rfl⟩
abbrev main_call0_v37 : Ref sig .tc := ⟨.hbm, 88, rfl⟩
abbrev main_call0_v38 : Ref sig .tc := ⟨.hbm, 89, rfl⟩
abbrev main_call0_c_5 : Ref sig .tc := ⟨.hbm, 90, rfl⟩
abbrev main_call0_call2_v0 : Ref sig .tc := ⟨.hbm, 91, rfl⟩
abbrev main_call0_v39 : Ref sig .tc := ⟨.hbm, 92, rfl⟩
abbrev main_call0_v40 : Ref sig .tc := ⟨.hbm, 93, rfl⟩
abbrev main_call0_c_6 : Ref sig .tc := ⟨.hbm, 94, rfl⟩
abbrev main_call0_call3_v0 : Ref sig .tc := ⟨.hbm, 95, rfl⟩
abbrev main_call0_v41 : Ref sig .tc := ⟨.hbm, 96, rfl⟩
abbrev main_call0_v42 : Ref sig .tc := ⟨.hbm, 97, rfl⟩
abbrev main_call0_v43 : Ref sig .tc := ⟨.hbm, 98, rfl⟩
abbrev main_call0_v44 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4628 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4624 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x4352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x64x5x1_S64x64x5 : S64x64x5x1.ShapeCasts S64x64x5
  transposes_S64x64x5_S64x5x64_0_2_1 : S64x64x5.Transposes [0, 2, 1] S64x5x64
  shapeCasts_S64x5x64_S64x320 : S64x5x64.ShapeCasts S64x320
  bitsLt_bf16_f32 : FTy.bits .bf16 < FTy.bits .f32
  shapeCasts_S64x64x1x5_S64x64x5 : S64x64x1x5.ShapeCasts S64x64x5
  concatenates_S64x320_S64x320_S64x640_d1 : Shape.Concatenates [S64x320, S64x320] S64x640 1
  bcast_S64_S64x1_0 : S64.BroadcastsInDim S64x1 (![0] : Fin 1 → Fin S64x1.rank)
  bcast_S_S4352 : S_.BroadcastsInDim S4352 (![] : Fin 0 → Fin S4352.rank)
  bcast_S4352_S1x4352_1 : S4352.BroadcastsInDim S1x4352 (![1] : Fin 1 → Fin S1x4352.rank)
  bcast_S_S4624 : S_.BroadcastsInDim S4624 (![] : Fin 0 → Fin S4624.rank)
  bcast_S4624_S1x4624_1 : S4624.BroadcastsInDim S1x4624 (![1] : Fin 1 → Fin S1x4624.rank)
  pads_S64x64x64x64_S64x64x68x68_000_000_220_220 : S64x64x64x64.Pads (![0, 0, 2, 2] : Fin 4 → Nat) ![0, 0, 2, 2] ![0, 0, 0, 0] S64x64x68x68
  h_S_ : 0 < S_.numel
  shapeCasts_S64x64x68x68_S64x64x4624 : S64x64x68x68.ShapeCasts S64x64x4624
  pads_S64x64x4624_S64x64x4628_000_000_220 : S64x64x4624.Pads (![0, 0, 2] : Fin 3 → Nat) ![0, 0, 2] ![0, 0, 0] S64x64x4628
  shapeCasts_S64x64x4352_S64x64x64x68 : S64x64x4352.ShapeCasts S64x64x64x68
  slices_S64x64x64x68_S64x64x64x64_0_0_0_2 : S64x64x64x68.Slices ![0, 0, 0, 2] S64x64x64x64
  inb_S1x64x4628_S1x64x4628_0_0_0 : ∀ a, (![0, 0, 0] : Fin 3 → Nat) a + S1x64x4628.size a ≤ S1x64x4628.size a
  h_S1x64x4628 : 0 < S1x64x4628.numel
  shapeCasts_S1x64x4628_S64x4628 : S1x64x4628.ShapeCasts S64x4628
  slices_S64x4628_o0_2_S64x4352 : S64x4628.Slices ![0, 2] S64x4352
  slices_S64x4628_o0_70_S64x4352 : S64x4628.Slices ![0, 70] S64x4352
  slices_S64x4628_o0_138_S64x4352 : S64x4628.Slices ![0, 138] S64x4352
  slices_S64x4628_o0_206_S64x4352 : S64x4628.Slices ![0, 206] S64x4352
  slices_S64x4628_o0_274_S64x4352 : S64x4628.Slices ![0, 274] S64x4352
  concatenates_S64x4352_S64x4352_S64x4352_S64x4352_S64x4352_S320x4352_d0 : Shape.Concatenates [S64x4352, S64x4352, S64x4352, S64x4352, S64x4352] S320x4352 0
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x4352_S1x4352_0_0 : ∀ a, (![0, 0] : Fin 2 → Nat) a + S1x4352.size a ≤ S1x4352.size a
  h_S1x4352 : 0 < S1x4352.numel
  shapeCasts_S1x4352_S1x4352 : S1x4352.ShapeCasts S1x4352
  broadcasts_S64x1_S64x4352 : S64x1.Broadcasts S64x4352
  broadcasts_S1x4352_S64x4352 : S1x4352.Broadcasts S64x4352
  inb_S64x4356_S64x2_0_0 : ∀ a, (![0, 0] : Fin 2 → Nat) a + S64x2.size a ≤ S64x4356.size a
  h_S64x2 : 0 < S64x2.numel
  shapeCasts_S64x2_S64x2 : S64x2.ShapeCasts S64x2
  packedbf16_S64x4356_S64x2_0_0 : (Rect.unit (s := S64x4356) ![0, 0] S64x2.size inb_S64x4356_S64x2_0_0).PackedRows (EltTy.packing .bf16)
  inb_S64x4356_S64x4352_0_2 : ∀ a, (![0, 2] : Fin 2 → Nat) a + S64x4352.size a ≤ S64x4356.size a
  h_S64x4352 : 0 < S64x4352.numel
  shapeCasts_S64x4352_S64x4352 : S64x4352.ShapeCasts S64x4352
  packedbf16_S64x4356_S64x4352_0_2 : (Rect.unit (s := S64x4356) ![0, 2] S64x4352.size inb_S64x4356_S64x4352_0_2).PackedRows (EltTy.packing .bf16)
  inb_S64x4356_S64x2_0_4354 : ∀ a, (![0, 4354] : Fin 2 → Nat) a + S64x2.size a ≤ S64x4356.size a
  packedbf16_S64x4356_S64x2_0_4354 : (Rect.unit (s := S64x4356) ![0, 4354] S64x2.size inb_S64x4356_S64x2_0_4354).PackedRows (EltTy.packing .bf16)
  slices_S64x4628_o0_0_S64x4624 : S64x4628.Slices ![0, 0] S64x4624
  slices_S64x4628_o0_1_S64x4624 : S64x4628.Slices ![0, 1] S64x4624
  slices_S64x4628_o0_2_S64x4624 : S64x4628.Slices ![0, 2] S64x4624
  slices_S64x4628_o0_3_S64x4624 : S64x4628.Slices ![0, 3] S64x4624
  slices_S64x4628_o0_4_S64x4624 : S64x4628.Slices ![0, 4] S64x4624
  concatenates_S64x4624_S64x4624_S64x4624_S64x4624_S64x4624_S320x4624_d0 : Shape.Concatenates [S64x4624, S64x4624, S64x4624, S64x4624, S64x4624] S320x4624 0
  inb_S1x4624_S1x4624_0_0 : ∀ a, (![0, 0] : Fin 2 → Nat) a + S1x4624.size a ≤ S1x4624.size a
  h_S1x4624 : 0 < S1x4624.numel
  shapeCasts_S1x4624_S1x4624 : S1x4624.ShapeCasts S1x4624
  broadcasts_S64x1_S64x4624 : S64x1.Broadcasts S64x4624
  broadcasts_S1x4624_S64x4624 : S1x4624.Broadcasts S64x4624
  inb_S64x4624_S64x4624_0_0 : ∀ a, (![0, 0] : Fin 2 → Nat) a + S64x4624.size a ≤ S64x4624.size a
  h_S64x4624 : 0 < S64x4624.numel
  shapeCasts_S64x4624_S64x4624 : S64x4624.ShapeCasts S64x4624
  packedbf16_S64x4624_S64x4624_0_0 : (Rect.unit (s := S64x4624) ![0, 0] S64x4624.size inb_S64x4624_S64x4624_0_0).PackedRows (EltTy.packing .bf16)
  inb_S64x4356_S64x4352_0_0 : ∀ a, (![0, 0] : Fin 2 → Nat) a + S64x4352.size a ≤ S64x4356.size a
  inb_S64x4356_S64x4352_0_1 : ∀ a, (![0, 1] : Fin 2 → Nat) a + S64x4352.size a ≤ S64x4356.size a
  inb_S64x4356_S64x4352_0_3 : ∀ a, (![0, 3] : Fin 2 → Nat) a + S64x4352.size a ≤ S64x4356.size a
  inb_S64x4356_S64x4352_0_4 : ∀ a, (![0, 4] : Fin 2 → Nat) a + S64x4352.size a ≤ S64x4356.size a
  inb_S64x4624_S64x4352_0_0 : ∀ a, (![0, 0] : Fin 2 → Nat) a + S64x4352.size a ≤ S64x4624.size a
  inb_S64x4624_S64x4352_0_68 : ∀ a, (![0, 68] : Fin 2 → Nat) a + S64x4352.size a ≤ S64x4624.size a
  inb_S64x4624_S64x4352_0_136 : ∀ a, (![0, 136] : Fin 2 → Nat) a + S64x4352.size a ≤ S64x4624.size a
  inb_S64x4624_S64x4352_0_204 : ∀ a, (![0, 204] : Fin 2 → Nat) a + S64x4352.size a ≤ S64x4624.size a
  inb_S64x4624_S64x4352_0_272 : ∀ a, (![0, 272] : Fin 2 → Nat) a + S64x4352.size a ≤ S64x4624.size a
  concatenates_S64x4352_S64x4352_S64x4352_S64x4352_S64x4352_S64x4352_S64x4352_S64x4352_S64x4352_S64x4352_S640x4352_d0 : Shape.Concatenates [S64x4352, S64x4352, S64x4352, S64x4352, S64x4352, S64x4352, S64x4352, S64x4352, S64x4352, S64x4352] S640x4352 0
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S1x64x4352_S1x64x4352_0_0_0 : ∀ a, (![0, 0, 0] : Fin 3 → Nat) a + S1x64x4352.size a ≤ S1x64x4352.size a
  h_S1x64x4352 : 0 < S1x64x4352.numel
  shapeCasts_S1x64x4352_S64x4352 : S1x64x4352.ShapeCasts S64x4352
  shapeCasts_S64x4352_S1x64x4352 : S64x4352.ShapeCasts S1x64x4352
  dot_S64x320_S320x4352_S64x4352_1_0_0_1_n_n_wf : DotDims.WF S64x320 S320x4352 S64x4352 [1] [0] [0] [1] [] []
  dot_S64x320_S320x4624_S64x4624_1_0_0_1_n_n_wf : DotDims.WF S64x320 S320x4624 S64x4624 [1] [0] [0] [1] [] []
  dot_S64x640_S640x4352_S64x4352_1_0_0_1_n_n_wf : DotDims.WF S64x640 S640x4352 S64x4352 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4628.size a ≤ S64x64x4628.size a
  hwx0_0 : ∀ i : grid0.Coords, EltTy.bits .bf16 = 32 ∨ (Rect.block (s := S64x64x4628) S1x64x4628.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .bf16 = 32 ∨ (Rect.block (s := S64x320) S64x320.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x320.size a ≤ S64x320.size a
  hwx0_2 : ∀ i : grid0.Coords, EltTy.bits .bf16 = 32 ∨ (Rect.block (s := S64x320) S64x320.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x640.size a ≤ S64x640.size a
  hwx0_3 : ∀ i : grid0.Coords, EltTy.bits .bf16 = 32 ∨ (Rect.block (s := S64x640) S64x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4352.size a ≤ S1x4352.size a
  hwx0_7 : ∀ i : grid0.Coords, EltTy.bits .f32 = 32 ∨ (Rect.block (s := S1x4352) S1x4352.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4624.size a ≤ S1x4624.size a
  hwx0_8 : ∀ i : grid0.Coords, EltTy.bits .f32 = 32 ∨ (Rect.block (s := S1x4624) S1x4624.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x4352.size a ≤ S64x64x4352.size a
  hwx0_9 : ∀ i : grid0.Coords, EltTy.bits .f32 = 32 ∨ (Rect.block (s := S64x64x4352) S1x64x4352.size (cc0_transform_9 i) (hinb0_9 i)).WholeWords (EltTy.packing .f32)

variable [Facts₀]

def dot_S64x320_S320x4352_S64x4352_1_0_0_1_n_n : DotDims S64x320 S320x4352 S64x4352 where
  lhsContracting := [1]
  rhsContracting := [0]
  lhsNonContracting := [0]
  rhsNonContracting := [1]
  lhsBatch := []
  rhsBatch := []
  wf := dot_S64x320_S320x4352_S64x4352_1_0_0_1_n_n_wf
def dot_S64x320_S320x4624_S64x4624_1_0_0_1_n_n : DotDims S64x320 S320x4624 S64x4624 where
  lhsContracting := [1]
  rhsContracting := [0]
  lhsNonContracting := [0]
  rhsNonContracting := [1]
  lhsBatch := []
  rhsBatch := []
  wf := dot_S64x320_S320x4624_S64x4624_1_0_0_1_n_n_wf
def dot_S64x640_S640x4352_S64x4352_1_0_0_1_n_n : DotDims S64x640 S640x4352 S64x4352 where
  lhsContracting := [1]
  rhsContracting := [0]
  lhsNonContracting := [0]
  rhsNonContracting := [1]
  lhsBatch := []
  rhsBatch := []
  wf := dot_S64x640_S640x4352_S64x4352_1_0_0_1_n_n_wf

abbrev win0_0 : Pipeline.Window sig grid0 :=
  Pipeline.Window.ofSpec (Memref.whole main_call0_v42) S1x64x4628.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S64x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S64x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v29) S1x4352.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v38) S1x4624.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v43) S1x64x4352.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S64x64x5 : Shape := ⟨3, ![64, 64, 5]⟩
abbrev S64x5x64 : Shape := ⟨3, ![64, 5, 64]⟩
abbrev S64x320 : Shape := ⟨2, ![64, 320]⟩
abbrev S_ : Shape := ⟨0, ![]⟩
abbrev S64x68 : Shape := ⟨2, ![64, 68]⟩
abbrev S1 : Shape := ⟨1, ![1]⟩
abbrev S64x64 : Shape := ⟨2, ![64, 64]⟩
abbrev S1x4352 : Shape := ⟨2, ![1, 4352]⟩
abbrev S68x68 : Shape := ⟨2, ![68, 68]⟩
abbrev S1x4624 : Shape := ⟨2, ![1, 4624]⟩
abbrev S64x1 : Shape := ⟨2, ![64, 1]⟩
abbrev S64x4352 : Shape := ⟨2, ![64, 4352]⟩
abbrev S64x4624 : Shape := ⟨2, ![64, 4624]⟩
abbrev S64x64x68x68 : Shape := ⟨4, ![64, 64, 68, 68]⟩
abbrev S64x64x4624 : Shape := ⟨3, ![64, 64, 4624]⟩
abbrev S64x64x4628 : Shape := ⟨3, ![64, 64, 4628]⟩
abbrev S64x64x4352 : Shape := ⟨3, ![64, 64, 4352]⟩
abbrev S64x64x64x68 : Shape := ⟨4, ![64, 64, 64, 68]⟩
abbrev S1x64x4628 : Shape := ⟨3, ![1, 64, 4628]⟩
abbrev S1x64x4352 : Shape := ⟨3, ![1, 64, 4352]⟩
abbrev S320x4352 : Shape := ⟨2, ![320, 4352]⟩
abbrev S64x2 : Shape := ⟨2, ![64, 2]⟩
abbrev S1x64x4624 : Shape := ⟨3, ![1, 64, 4624]⟩
abbrev S320x4624 : Shape := ⟨2, ![320, 4624]⟩

abbrev nBuf : Space → Nat
  | .hbm => 57
  | .vmem => 12
  | .smem => 0
  | _ => 0

abbrev bufTy : (tb : Table) → Fin (tcTables nBuf tb) → BufTy
  | .hbm, ⟨0, _⟩ => ⟨S64x64x64x64, .f32⟩
  | .hbm, ⟨1, _⟩ => ⟨S64x64x5x1, .f32⟩
  | .hbm, ⟨2, _⟩ => ⟨S64, .f32⟩
  | .hbm, ⟨3, _⟩ => ⟨S64x64x1x5, .f32⟩
  | .hbm, ⟨4, _⟩ => ⟨S64, .f32⟩
  | .hbm, ⟨5, _⟩ => ⟨S64x64x1x5, .f32⟩
  | .hbm, ⟨6, _⟩ => ⟨S64, .f32⟩
  | .hbm, ⟨7, _⟩ => ⟨S64x64x5x1, .f32⟩
  | .hbm, ⟨8, _⟩ => ⟨S64, .f32⟩
  | .hbm, ⟨9, _⟩ => ⟨S64x64x5, .f32⟩
  | .hbm, ⟨10, _⟩ => ⟨S64x5x64, .f32⟩
  | .hbm, ⟨11, _⟩ => ⟨S64x320, .f32⟩
  | .hbm, ⟨12, _⟩ => ⟨S64x64x5, .f32⟩
  | .hbm, ⟨13, _⟩ => ⟨S64x5x64, .f32⟩
  | .hbm, ⟨14, _⟩ => ⟨S64x320, .f32⟩
  | .hbm, ⟨15, _⟩ => ⟨S64x64x5, .f32⟩
  | .hbm, ⟨16, _⟩ => ⟨S64x5x64, .f32⟩
  | .hbm, ⟨17, _⟩ => ⟨S64x320, .f32⟩
  | .hbm, ⟨18, _⟩ => ⟨S64x64x5, .f32⟩
  | .hbm, ⟨19, _⟩ => ⟨S64x5x64, .f32⟩
  | .hbm, ⟨20, _⟩ => ⟨S64x320, .f32⟩
  | .hbm, ⟨21, _⟩ => ⟨S_, .f32⟩
  | .hbm, ⟨22, _⟩ => ⟨S64x68, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S64x64, .f32⟩
  | .hbm, ⟨27, _⟩ => ⟨S64x68, .f32⟩
  | .hbm, ⟨28, _⟩ => ⟨S1x4352, .f32⟩
  | .hbm, ⟨29, _⟩ => ⟨S_, .f32⟩
  | .hbm, ⟨30, _⟩ => ⟨S68x68, .f32⟩
  | .hbm, ⟨31, _⟩ => ⟨S_, .i32⟩
  | .hbm, ⟨32, _⟩ => ⟨S1, .i32⟩
  | .hbm, ⟨33, _⟩ => ⟨S_, .f32⟩
  | .hbm, ⟨34, _⟩ => ⟨S64x68, .f32⟩
  | .hbm, ⟨35, _⟩ => ⟨S68x68, .f32⟩
  | .hbm, ⟨36, _⟩ => ⟨S1x4624, .f32⟩
  | .hbm, ⟨37, _⟩ => ⟨S64x1, .f32⟩
  | .hbm, ⟨38, _⟩ => ⟨S64x4352, .f32⟩
  | .hbm, ⟨39, _⟩ => ⟨S64x4352, .f32⟩
  | .hbm, ⟨40, _⟩ => ⟨S64x4352, .f32⟩
  | .hbm, ⟨41, _⟩ => ⟨S64x1, .f32⟩
  | .hbm, ⟨42, _⟩ => ⟨S64x4624, .f32⟩
  | .hbm, ⟨43, _⟩ => ⟨S64x4624, .f32⟩
  | .hbm, ⟨44, _⟩ => ⟨S64x4624, .f32⟩
  | .hbm, ⟨45, _⟩ => ⟨S64, .f32⟩
  | .hbm, ⟨46, _⟩ => ⟨S64x1, .f32⟩
  | .hbm, ⟨47, _⟩ => ⟨S_, .i32⟩
  | .hbm, ⟨48, _⟩ => ⟨S_, .f32⟩
  | .hbm, ⟨49, _⟩ => ⟨S64x64x68x68, .f32⟩
  | .hbm, ⟨50, _⟩ => ⟨S64x64x4624, .f32⟩
  | .hbm, ⟨51, _⟩ => ⟨S_, .i32⟩
  | .hbm, ⟨52, _⟩ => ⟨S_, .f32⟩
  | .hbm, ⟨53, _⟩ => ⟨S64x64x4628, .f32⟩
  | .hbm, ⟨54, _⟩ => ⟨S64x64x4352, .f32⟩
  | .hbm, ⟨55, _⟩ => ⟨S64x64x64x68, .f32⟩
  | .hbm, ⟨56, _⟩ => ⟨S64x64x64x64, .f32⟩
  | .local _ .vmem, ⟨0, _⟩ => ⟨S1x64x4628, .f32⟩
  | .local _ .vmem, ⟨1, _⟩ => ⟨S1x64x4628, .f32⟩
  | .local _ .vmem, ⟨2, _⟩ => ⟨S64x320, .f32⟩
  | .local _ .vmem, ⟨3, _⟩ => ⟨S64x320, .f32⟩
  | .local _ .vmem, ⟨4, _⟩ => ⟨S64x320, .f32⟩
  | .local _ .vmem, ⟨5, _⟩ => ⟨S64x320, .f32⟩
  | .local _ .vmem, ⟨6, _⟩ => ⟨S64x4352, .f32⟩
  | .local _ .vmem, ⟨7, _⟩ => ⟨S64x4624, .f32⟩
  | .local _ .vmem, ⟨8, _⟩ => ⟨S64x1, .f32⟩
  | .local _ .vmem, ⟨9, _⟩ => ⟨S1x64x4352, .f32⟩
  | .local _ .vmem, ⟨10, _⟩ => ⟨S1x64x4352, .f32⟩
  | .local _ .vmem, ⟨11, _⟩ => ⟨S64x4624, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst : Ref sig .tc := ⟨.hbm, 21, rfl⟩
abbrev main_call0_v12 : Ref sig .tc := ⟨.hbm, 22, rfl⟩
abbrev main_call0_c : Ref sig .tc := ⟨.hbm, 23, rfl⟩
abbrev main_call0_v13 : Ref sig .tc := ⟨.hbm, 24, rfl⟩
abbrev main_call0_cst_0 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_cst_1 : Ref sig .tc := ⟨.hbm, 29, rfl⟩
abbrev main_call0_v17 : Ref sig .tc := ⟨.hbm, 30, rfl⟩
abbrev main_call0_c_2 : Ref sig .tc := ⟨.hbm, 31, rfl⟩
abbrev main_call0_v18 : Ref sig .tc := ⟨.hbm, 32, rfl⟩
abbrev main_call0_cst_3 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_c_4 : Ref sig .tc := ⟨.hbm, 47, rfl⟩
abbrev main_call0_call0_v0 : Ref sig .tc := ⟨.hbm, 48, rfl⟩
abbrev main_call0_v32 : Ref sig .tc := ⟨.hbm, 49, rfl⟩
abbrev main_call0_v33 : Ref sig .tc := ⟨.hbm, 50, rfl⟩
abbrev main_call0_c_5 : Ref sig .tc := ⟨.hbm, 51, rfl⟩
abbrev main_call0_call1_v0 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4628 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4624 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x64x5x1_S64x64x5 : S64x64x5x1.ShapeCasts S64x64x5
  transposes_S64x64x5_S64x5x64_0_2_1 : S64x64x5.Transposes [0, 2, 1] S64x5x64
  shapeCasts_S64x5x64_S64x320 : S64x5x64.ShapeCasts S64x320
  shapeCasts_S64x64x1x5_S64x64x5 : S64x64x1x5.ShapeCasts S64x64x5
  bcast_S_S64x68 : S_.BroadcastsInDim S64x68 (![] : Fin 0 → Fin S64x68.rank)
  bcast_S_S1 : S_.BroadcastsInDim S1 (![] : Fin 0 → Fin S1.rank)
  bcast_S_S64x64 : S_.BroadcastsInDim S64x64 (![] : Fin 0 → Fin S64x64.rank)
  shapeCasts_S64x68_S1x4352 : S64x68.ShapeCasts S1x4352
  bcast_S_S68x68 : S_.BroadcastsInDim S68x68 (![] : Fin 0 → Fin S68x68.rank)
  shapeCasts_S68x68_S1x4624 : S68x68.ShapeCasts S1x4624
  bcast_S64_S64x1_0 : S64.BroadcastsInDim S64x1 (![0] : Fin 1 → Fin S64x1.rank)
  bcast_S64x1_S64x4352_0_1 : S64x1.BroadcastsInDim S64x4352 (![0, 1] : Fin 2 → Fin S64x4352.rank)
  bcast_S1x4352_S64x4352_0_1 : S1x4352.BroadcastsInDim S64x4352 (![0, 1] : Fin 2 → Fin S64x4352.rank)
  bcast_S64x1_S64x4624_0_1 : S64x1.BroadcastsInDim S64x4624 (![0, 1] : Fin 2 → Fin S64x4624.rank)
  bcast_S1x4624_S64x4624_0_1 : S1x4624.BroadcastsInDim S64x4624 (![0, 1] : Fin 2 → Fin S64x4624.rank)
  pads_S64x64x64x64_S64x64x68x68_000_000_220_220 : S64x64x64x64.Pads (![0, 0, 2, 2] : Fin 4 → Nat) ![0, 0, 2, 2] ![0, 0, 0, 0] S64x64x68x68
  h_S_ : 0 < S_.numel
  shapeCasts_S64x64x68x68_S64x64x4624 : S64x64x68x68.ShapeCasts S64x64x4624
  pads_S64x64x4624_S64x64x4628_000_000_220 : S64x64x4624.Pads (![0, 0, 2] : Fin 3 → Nat) ![0, 0, 2] ![0, 0, 0] S64x64x4628
  shapeCasts_S64x64x4352_S64x64x64x68 : S64x64x4352.ShapeCasts S64x64x64x68
  slices_S64x64x64x68_S64x64x64x64_0_0_0_2 : S64x64x64x68.Slices ![0, 0, 0, 2] S64x64x64x64
  inb_S1x64x4628_S1x64x4352_0_0_2 : ∀ a, (![0, 0, 2] : Fin 3 → Nat) a + S1x64x4352.size a ≤ S1x64x4628.size a
  h_S1x64x4352 : 0 < S1x64x4352.numel
  shapeCasts_S1x64x4352_S64x4352 : S1x64x4352.ShapeCasts S64x4352
  inb_S1x64x4628_S1x64x4352_0_0_70 : ∀ a, (![0, 0, 70] : Fin 3 → Nat) a + S1x64x4352.size a ≤ S1x64x4628.size a
  inb_S1x64x4628_S1x64x4352_0_0_138 : ∀ a, (![0, 0, 138] : Fin 3 → Nat) a + S1x64x4352.size a ≤ S1x64x4628.size a
  inb_S1x64x4628_S1x64x4352_0_0_206 : ∀ a, (![0, 0, 206] : Fin 3 → Nat) a + S1x64x4352.size a ≤ S1x64x4628.size a
  inb_S1x64x4628_S1x64x4352_0_0_274 : ∀ a, (![0, 0, 274] : Fin 3 → Nat) a + S1x64x4352.size a ≤ S1x64x4628.size a
  concatenates_S64x4352_S64x4352_S64x4352_S64x4352_S64x4352_S320x4352_d0 : Shape.Concatenates [S64x4352, S64x4352, S64x4352, S64x4352, S64x4352] S320x4352 0
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S64x4352_S64x4352_0_0 : ∀ a, (![0, 0] : Fin 2 → Nat) a + S64x4352.size a ≤ S64x4352.size a
  h_S64x4352 : 0 < S64x4352.numel
  shapeCasts_S64x4352_S64x4352 : S64x4352.ShapeCasts S64x4352
  inb_S64x4624_S64x2_0_0 : ∀ a, (![0, 0] : Fin 2 → Nat) a + S64x2.size a ≤ S64x4624.size a
  h_S64x2 : 0 < S64x2.numel
  shapeCasts_S64x2_S64x2 : S64x2.ShapeCasts S64x2
  inb_S64x4624_S64x4352_0_2 : ∀ a, (![0, 2] : Fin 2 → Nat) a + S64x4352.size a ≤ S64x4624.size a
  inb_S64x4624_S64x2_0_4354 : ∀ a, (![0, 4354] : Fin 2 → Nat) a + S64x2.size a ≤ S64x4624.size a
  inb_S64x4624_S64x4352_0_0 : ∀ a, (![0, 0] : Fin 2 → Nat) a + S64x4352.size a ≤ S64x4624.size a
  inb_S64x4624_S64x4352_0_1 : ∀ a, (![0, 1] : Fin 2 → Nat) a + S64x4352.size a ≤ S64x4624.size a
  inb_S64x4624_S64x4352_0_3 : ∀ a, (![0, 3] : Fin 2 → Nat) a + S64x4352.size a ≤ S64x4624.size a
  inb_S64x4624_S64x4352_0_4 : ∀ a, (![0, 4] : Fin 2 → Nat) a + S64x4352.size a ≤ S64x4624.size a
  inb_S1x64x4628_S1x64x4624_0_0_0 : ∀ a, (![0, 0, 0] : Fin 3 → Nat) a + S1x64x4624.size a ≤ S1x64x4628.size a
  h_S1x64x4624 : 0 < S1x64x4624.numel
  shapeCasts_S1x64x4624_S64x4624 : S1x64x4624.ShapeCasts S64x4624
  inb_S1x64x4628_S1x64x4624_0_0_1 : ∀ a, (![0, 0, 1] : Fin 3 → Nat) a + S1x64x4624.size a ≤ S1x64x4628.size a
  inb_S1x64x4628_S1x64x4624_0_0_2 : ∀ a, (![0, 0, 2] : Fin 3 → Nat) a + S1x64x4624.size a ≤ S1x64x4628.size a
  inb_S1x64x4628_S1x64x4624_0_0_3 : ∀ a, (![0, 0, 3] : Fin 3 → Nat) a + S1x64x4624.size a ≤ S1x64x4628.size a
  inb_S1x64x4628_S1x64x4624_0_0_4 : ∀ a, (![0, 0, 4] : Fin 3 → Nat) a + S1x64x4624.size a ≤ S1x64x4628.size a
  concatenates_S64x4624_S64x4624_S64x4624_S64x4624_S64x4624_S320x4624_d0 : Shape.Concatenates [S64x4624, S64x4624, S64x4624, S64x4624, S64x4624] S320x4624 0
  inb_S64x4624_S64x4624_0_0 : ∀ a, (![0, 0] : Fin 2 → Nat) a + S64x4624.size a ≤ S64x4624.size a
  h_S64x4624 : 0 < S64x4624.numel
  shapeCasts_S64x4624_S64x4624 : S64x4624.ShapeCasts S64x4624
  inb_S64x4624_S64x4352_0_68 : ∀ a, (![0, 68] : Fin 2 → Nat) a + S64x4352.size a ≤ S64x4624.size a
  inb_S64x4624_S64x4352_0_136 : ∀ a, (![0, 136] : Fin 2 → Nat) a + S64x4352.size a ≤ S64x4624.size a
  inb_S64x4624_S64x4352_0_204 : ∀ a, (![0, 204] : Fin 2 → Nat) a + S64x4352.size a ≤ S64x4624.size a
  inb_S64x4624_S64x4352_0_272 : ∀ a, (![0, 272] : Fin 2 → Nat) a + S64x4352.size a ≤ S64x4624.size a
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4352 : S64x1.Broadcasts S64x4352
  inb_S1x64x4352_S1x64x4352_0_0_0 : ∀ a, (![0, 0, 0] : Fin 3 → Nat) a + S1x64x4352.size a ≤ S1x64x4352.size a
  shapeCasts_S64x4352_S1x64x4352 : S64x4352.ShapeCasts S1x64x4352
  scatter_S64x68_S1_S64x64_01_n_1_0_wf : ScatterDims.WF S64x68 S1 S64x64 [0, 1] [] [1] 0
  scatter_S68x68_S1_S64x68_01_n_0_0_wf : ScatterDims.WF S68x68 S1 S64x68 [0, 1] [] [0] 0
  dot_S64x320_S320x4352_S64x4352_1_0_0_1_n_n_wf : DotDims.WF S64x320 S320x4352 S64x4352 [1] [0] [0] [1] [] []
  dot_S64x320_S320x4624_S64x4624_1_0_0_1_n_n_wf : DotDims.WF S64x320 S320x4624 S64x4624 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4628.size a ≤ S64x64x4628.size a
  hwx0_0 : ∀ i : grid0.Coords, EltTy.bits .f32 = 32 ∨ (Rect.block (s := S64x64x4628) S1x64x4628.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .f32 = 32 ∨ (Rect.block (s := S64x320) S64x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x320.size a ≤ S64x320.size a
  hwx0_2 : ∀ i : grid0.Coords, EltTy.bits .f32 = 32 ∨ (Rect.block (s := S64x320) S64x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x320.size a ≤ S64x320.size a
  hwx0_3 : ∀ i : grid0.Coords, EltTy.bits .f32 = 32 ∨ (Rect.block (s := S64x320) S64x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x320.size a ≤ S64x320.size a
  hwx0_4 : ∀ i : grid0.Coords, EltTy.bits .f32 = 32 ∨ (Rect.block (s := S64x320) S64x320.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4352.size a ≤ S64x4352.size a
  hwx0_5 : ∀ i : grid0.Coords, EltTy.bits .f32 = 32 ∨ (Rect.block (s := S64x4352) S64x4352.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x4624.size a ≤ S64x4624.size a
  hwx0_6 : ∀ i : grid0.Coords, EltTy.bits .f32 = 32 ∨ (Rect.block (s := S64x4624) S64x4624.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x4352.size a ≤ S64x64x4352.size a
  hwx0_8 : ∀ i : grid0.Coords, EltTy.bits .f32 = 32 ∨ (Rect.block (s := S64x64x4352) S1x64x4352.size (cc0_transform_8 i) (hinb0_8 i)).WholeWords (EltTy.packing .f32)

variable [Facts₀]

def scatter_S64x68_S1_S64x64_01_n_1_0 : ScatterDims S64x68 S1 S64x64 where
  updateWindowDims := [0, 1]
  insertedWindowDims := []
  scatterDimsToOperandDims := [1]
  indexVectorDim := 0
  wf := scatter_S64x68_S1_S64x64_01_n_1_0_wf
def scatter_S68x68_S1_S64x68_01_n_0_0 : ScatterDims S68x68 S1 S64x68 where
  updateWindowDims := [0, 1]
  insertedWindowDims := []
  scatterDimsToOperandDims := [0]
  indexVectorDim := 0
  wf := scatter_S68x68_S1_S64x68_01_n_0_0_wf
def dot_S64x320_S320x4352_S64x4352_1_0_0_1_n_n : DotDims S64x320 S320x4352 S64x4352 where
  lhsContracting := [1]
  rhsContracting := [0]
  lhsNonContracting := [0]
  rhsNonContracting := [1]
  lhsBatch := []
  rhsBatch := []
  wf := dot_S64x320_S320x4352_S64x4352_1_0_0_1_n_n_wf
def dot_S64x320_S320x4624_S64x4624_1_0_0_1_n_n : DotDims S64x320 S320x4624 S64x4624 where
  lhsContracting := [1]
  rhsContracting := [0]
  lhsNonContracting := [0]
  rhsNonContracting := [1]
  lhsBatch := []
  rhsBatch := []
  wf := dot_S64x320_S320x4624_S64x4624_1_0_0_1_n_n_wf

abbrev win0_0 : Pipeline.Window sig grid0 :=
  Pipeline.Window.ofSpec (Memref.whole main_call0_v34) S1x64x4628.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S64x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S64x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S64x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S64x4352.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v29) S64x4624.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v31) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v35) S1x64x4352.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Spec.lean ====
/-
  The mathematics both programs compute, on one image (one grid point), as functions of plain coordinates.

  A 64-channel image is kept FLAT: its zero-padded 68 x 68 planes are laid row after row (4624 entries) with two
  more zeros before and after (4628 entries), so that a spatial shift is a shift of the flat index. Two separable
  convolution branches are summed:
    * branch L: a 5-tap convolution down the rows (shift 68 per tap), read on the 64 inner rows (4352 flat
      positions), plus a bias plane; that result, with two zeros before and after it (4356 entries), is convolved
      by 5 taps along the row (shift 1 per tap);
    * branch R: a 5-tap convolution along the row on all 68 rows (4624 positions), plus a bias plane; that result
      is convolved by 5 taps down the rows (shift 68 per tap).
  A contraction index k < 320 carries the tap k / 64 and the input channel k % 64. The two second convolutions
  are added, a per-channel bias is added, and a leaky rectifier (slope one tenth below zero) is applied.
  Everything is over the extended reals; the laws used between the two programs are the associativity and
  commutativity of finite sums only, so no finiteness is needed.
-/
import Idealize.ShloMosaic.PureOps.Ideal
import Idealize.ShloMosaic.Lib.ValueIdx

noncomputable section

namespace SepConv

open Idealize.ShloMosaic

/-- The input channel a contraction index carries. -/
def chan (k : Fin 320) : Fin 64 := ⟨k.val % 64, Nat.mod_lt _ (by decide)⟩

/-- The tap a contraction index carries (below 5). -/
def tap (k : Fin 320) : ℕ := k.val / 64

theorem tap_le (k : Fin 320) : tap k ≤ 4 := by unfold tap; have := k.isLt; omega

/-- Branch L, first convolution (down the rows), with its bias plane: channel `r`, flat position `p` of the 64 x 68 grid. -/
def yL (X : Fin 64 → Fin 4628 → EReal) (W : Fin 64 → Fin 320 → EReal) (P : Fin 64 → Fin 4352 → EReal)
    (r : Fin 64) (p : Fin 4352) : EReal :=
  (∑ k : Fin 320, W r k * X (chan k) ⟨2 + tap k * 68 + p.val, by have := tap_le k; have := p.isLt; omega⟩) + P r p

/-- The same with two zeros before and two after: what the second convolution of branch L slides over. -/
def sL (X : Fin 64 → Fin 4628 → EReal) (W : Fin 64 → Fin 320 → EReal) (P : Fin 64 → Fin 4352 → EReal)
    (r : Fin 64) (j : Fin 4356) : EReal :=
  if h2 : j.val < 2 then 0
  else if h : j.val < 4354 then yL X W P r ⟨j.val - 2, by omega⟩
  else 0

/-- Branch R, first convolution (along the row), with its bias plane: channel `r`, flat position `q` of the 68 x 68 grid. -/
def yR (X : Fin 64 → Fin 4628 → EReal) (W : Fin 64 → Fin 320 → EReal) (P : Fin 64 → Fin 4624 → EReal)
    (r : Fin 64) (q : Fin 4624) : EReal :=
  (∑ k : Fin 320, W r k * X (chan k) ⟨tap k + q.val, by have := tap_le k; have := q.isLt; omega⟩) + P r q

/-- The two second convolutions, added. -/
def acc (X : Fin 64 → Fin 4628 → EReal) (W1L W1R W2L W2R : Fin 64 → Fin 320 → EReal)
    (PL : Fin 64 → Fin 4352 → EReal) (PR : Fin 64 → Fin 4624 → EReal) (oc : Fin 64) (p : Fin 4352) : EReal :=
  (∑ k : Fin 320, W2L oc k * sL X W1L PL (chan k) ⟨tap k + p.val, by have := tap_le k; have := p.isLt; omega⟩)
  + (∑ k : Fin 320, W2R oc k * yR X W1R PR (chan k) ⟨tap k * 68 + p.val, by have := tap_le k; have := p.isLt; omega⟩)

/-- The leaky rectifier as both programs spell it: `a` where `a ≥ 0`, one tenth of `a` elsewhere (the literal is the
    same word in both programs and is never evaluated). -/
def leaky (a : EReal) : EReal :=
  Scalar.select (FloatOps.cmpf (F := Ideal) .oge a (Scalar.ofBits (F := Ideal) .f32 0x00000000#32)) a
    ((Scalar.ofBits (F := Ideal) .f32 0x3DCCCCCD#32 : EReal) * a)

/-- One image's result: output channel `oc`, flat position `p` of the 64 x 68 grid. -/
def out (X : Fin 64 → Fin 4628 → EReal) (W1L W1R W2L W2R : Fin 64 → Fin 320 → EReal)
    (PL : Fin 64 → Fin 4352 → EReal) (PR : Fin 64 → Fin 4624 → EReal) (B2 : Fin 64 → EReal)
    (oc : Fin 64) (p : Fin 4352) : EReal :=
  leaky (acc X W1L W1R W2L W2R PL PR oc p + B2 oc)

/-- `out` depends on its arguments only through their values. -/
theorem out_congr {X X' : Fin 64 → Fin 4628 → EReal} {W1L W1L' W1R W1R' W2L W2L' W2R W2R' : Fin 64 → Fin 320 → EReal}
    {PL PL' : Fin 64 → Fin 4352 → EReal} {PR PR' : Fin 64 → Fin 4624 → EReal} {B2 B2' : Fin 64 → EReal}
    (hX : ∀ ch j, X ch j = X' ch j) (h1L : ∀ r k, W1L r k = W1L' r k) (h1R : ∀ r k, W1R r k = W1R' r k)
    (h2L : ∀ r k, W2L r k = W2L' r k) (h2R : ∀ r k, W2R r k = W2R' r k) (hPL : ∀ r q, PL r q = PL' r q)
    (hPR : ∀ r q, PR r q = PR' r q) (hB : ∀ r, B2 r = B2' r) (oc : Fin 64) (p : Fin 4352) :
    out X W1L W1R W2L W2R PL PR B2 oc p = out X' W1L' W1R' W2L' W2R' PL' PR' B2' oc p := by
  obtain rfl : X = X' := funext fun a => funext fun b => hX a b
  obtain rfl : W1L = W1L' := funext fun a => funext fun b => h1L a b
  obtain rfl : W1R = W1R' := funext fun a => funext fun b => h1R a b
  obtain rfl : W2L = W2L' := funext fun a => funext fun b => h2L a b
  obtain rfl : W2R = W2R' := funext fun a => funext fun b => h2R a b
  obtain rfl : PL = PL' := funext fun a => funext fun b => hPL a b
  obtain rfl : PR = PR' := funext fun a => funext fun b => hPR a b
  obtain rfl : B2 = B2' := funext fun a => hB a
  rfl

/-- The bias mask of branch L on the 64 x 68 grid, flat: one on the 64 inner columns of each row of 68, zero on the two
    padding columns at either end. -/
def maskW (p : Fin 4352) : EReal := if 2 ≤ p.val % 68 ∧ p.val % 68 < 66 then 1 else 0

/-- The bias mask of branch R on the 68 x 68 grid, flat: one on the 64 inner rows, zero on the two padding rows at
    either end. -/
def maskH (q : Fin 4624) : EReal := if 2 ≤ q.val / 68 ∧ q.val / 68 < 66 then 1 else 0

/-- A sum over 640 = 320 + 320 contraction positions is the sum of its two halves: what joins one fused product
    with the two separate ones. -/
theorem sum_640 {M : Type*} [AddCommMonoid M] (f : Fin 640 → M) :
    ∑ k : Fin 640, f k = (∑ k : Fin 320, f ⟨k.val, by have := k.isLt; omega⟩) + (∑ k : Fin 320, f ⟨320 + k.val, by have := k.isLt; omega⟩) := by
  have h := Fin.sum_univ_add (M := M) (a := 320) (b := 320) (fun i => f i)
  exact h

end SepConv

end
-- ==== Proof.LibMatmul.lean ====
/-
  A plain matrix product at the ideal instance, read at an index.

  For a contraction record over shapes [M, K] x [K, N] -> [M, N] that contracts the left operand's axis 1 with the
  right operand's axis 0 and has no batch axis, the product into the zero accumulator at (r, c) is the sum over
  k < K of the left entry (r, k) times the right entry (k, c): the operand indices the record computes are those
  two pairs (each coordinate is decided by which of the record's lists the axis stands in), and the one-axis
  contraction index ranges over Fin K.
-/
import Idealize.ShloMosaic.PureOps.Ideal.Laws
import Idealize.ShloMosaic.Lib.ValueIdx

noncomputable section

namespace SepConv

open Idealize.ShloMosaic Idealize.ShloMosaic.ValueIdx

variable {M K N : ℕ} (d : DotDims ⟨2, ![M, K]⟩ ⟨2, ![K, N]⟩ ⟨2, ![M, N]⟩)

/-- The left operand's row is the result's row. -/
theorem lhs_axis0 (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column is the result's column. -/
theorem rhs_axis1 (hrn : d.rhsNonContracting = [1]) (hrb : d.rhsBatch = []) (hln : d.lhsNonContracting = [0]) (hlb : d.lhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product into the zero accumulator, at `(r, c)`, is the sum over the contraction. -/
theorem matmul2_apply (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (A : FVec Ideal ⟨2, ![M, K]⟩ φ₁) (B : FVec Ideal ⟨2, ![K, N]⟩ φ₂) (r : Fin M) (c : Fin N) :
    FloatOps.matmul d prec A B (constant ⟨2, ![M, N]⟩ .f32 0x00000000#32) (ix2 r c) = ∑ k : Fin K, A (ix2 r k) * B (ix2 k c) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  rw [Ideal.matmul_constant_zero_apply]
  refine (Equiv.sum_comp (contrEquiv1 d K hr hs).symm _).symm.trans ?_
  refine Finset.sum_congr rfl fun k _ => ?_
  have hl : d.lhsIdx (ix2 r c) ((contrEquiv1 d K hr hs).symm k) = ix2 r k := by
    funext a
    match a with
    | ⟨0, _⟩ => exact Fin.ext (lhs_axis0 d hln hlb _ _)
    | ⟨1, _⟩ => exact Fin.ext ((d.lhsIdx_val_of_single hlc _ _).trans (contrEquiv1_symm_val d K hr hs k))
  have hrr : d.rhsIdx (ix2 r c) ((contrEquiv1 d K hr hs).symm k) = ix2 k c := by
    funext a
    match a with
    | ⟨0, _⟩ => exact Fin.ext ((d.rhsIdx_val_of_single hrc _ _).trans (contrEquiv1_symm_val d K hr hs k))
    | ⟨1, _⟩ => exact Fin.ext (rhs_axis1 d hrn hrb hln hlb _ _)
  rw [hl, hrr]

end SepConv

end
-- ==== Proof.BodyK.lean ====
/-
  One grid point of the fused kernel, read at an index: output channel `oc`, flat position `p`.

  The body keeps two scratch planes. Branch L's holds two zero columns, the first convolution with its bias plane, and
  two more zero columns; five loads of it, shifted by 0 to 4 columns, are the five taps of the second convolution along
  the row. Branch R's holds its first convolution with its bias plane; five loads of it, shifted by 0, 68, ..., 272, are
  the five taps down the rows. The ten loaded blocks are stacked into one operand of 640 rows (row `k` of a stack of
  five is row `k % 64` of piece `k / 64`), so that one product with the fused 64 x 640 weights is the sum of the two
  second convolutions; the bias column is added and the rectifier applied.
-/
import proofs.«172729_g2000302748725897_pallasbulk_1061_2_alg».proof.Proof.Gen.KernelIdeal.Frame
import proofs.«172729_g2000302748725897_pallasbulk_1061_2_alg».proof.Proof.Spec
import proofs.«172729_g2000302748725897_pallasbulk_1061_2_alg».proof.Proof.LibMatmul
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

set_option maxRecDepth 16384

noncomputable section

namespace Cert.KernelIdeal.BodyValue

open Idealize.ShloMosaic Idealize.ShloMosaic.TcCoe Idealize.ShloMosaic.ValueIdx Cert.KernelIdeal Cert.KernelIdeal.Gen
open Idealize.ShloMosaic.Tactic

/-! ## Pieces of a buffer read at an index -/

section Pieces
variable {Val : EltTy → Type} [∀ e, Nonempty (Val e)] {s : Shape} {e : EltTy}

/-- Under the newest unit-stride piece, at the position `x` of the index within it, the contents are its payload. -/
theorem canon_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off the newest unit-stride piece on axis `a`, the contents are what the earlier pieces left. -/
theorem canon_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L fun hm => ?_
  have hm' : y ∈ (Rect.unit off size inb).set := hm
  have := (Rect.mem_set_unit (inb := inb)).mp hm' a
  omega

end Pieces

/-- The index a unit-stride window of a matrix, starting at column `o`, gives position `(r, p)`. -/
theorem unit_idx_ix2 {n0 n1 m0 m1 : ℕ} (o : ℕ)
    (inb : ∀ a, (![0, o] : Fin 2 → ℕ) a + (![m0, m1] : Fin 2 → ℕ) a ≤ (⟨2, ![n0, n1]⟩ : Shape).size a)
    (r : Fin m0) (p : Fin m1) (r' : Fin n0) (p' : Fin n1) (hr : r'.val = r.val) (hp : p'.val = o + p.val) :
    (Rect.unit (s := ⟨2, ![n0, n1]⟩) ![0, o] ![m0, m1] inb).toLoadRect.idx (ix2 r p) = ix2 r' p' := by
  funext a
  refine Fin.ext ?_
  match a with
  | ⟨0, _⟩ => show 0 + 1 * r.val = r'.val; omega
  | ⟨1, _⟩ => show o + 1 * p.val = p'.val; omega

/-! ## Layout operations at an index -/

/-- A column `[a, 1]` broadcast to `[a, b]` reads, at `(r, c)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- One piece of a stack of `[64, N]` matrices along the rows: row `t * 64 + r` of the stack is row `r` of piece `t`. -/
theorem stack_piece {α : Type} {N T : ℕ} (xs : List ((s : Shape) × (s.Idx → α)))
    (h : Shape.Concatenates (xs.map (·.1)) ⟨2, ![T, N]⟩ 0) (k : Fin T) (p : Fin N) (t : ℕ) (ht : t < xs.length)
    (x₁ : (⟨2, ![64, N]⟩ : Shape).Idx → α) (hx : xs[t] = ⟨⟨2, ![64, N]⟩, x₁⟩)
    (hpre : (((xs.take t).map (·.1)).map fun s : Shape =>
      if h : s.rank = (⟨2, ![T, N]⟩ : Shape).rank then s.size ((0 : Fin 2).cast h.symm) else 0).sum = t * 64)
    (r : Fin 64) (hk : k.val = t * 64 + r.val) :
    concatenate ⟨2, ![T, N]⟩ 0 xs h (ix2 k p) = x₁ (ix2 r p) := by
  refine concatenate_apply_piece (0 : Fin 2) xs h (ix2 k p) t ht _ x₁ hx rfl (t * 64) hpre (ix2 r p) (fun b hb => ?_) ?_
  · match b with
    | ⟨0, _⟩ => exact absurd rfl hb
    | ⟨1, _⟩ => rfl
  · show t * 64 + r.val = k.val
    omega

open SepConv in
/-- Five `[64, N]` matrices stacked along the rows: row `k` of the stack is row `chan k` of piece `tap k`. -/
theorem stack5_apply {α : Type} {N : ℕ} (v0 v1 v2 v3 v4 : (⟨2, ![64, N]⟩ : Shape).Idx → α)
    (h : Shape.Concatenates ([(⟨⟨2, ![64, N]⟩, v0⟩ : (s : Shape) × (s.Idx → α)), ⟨⟨2, ![64, N]⟩, v1⟩, ⟨⟨2, ![64, N]⟩, v2⟩,
      ⟨⟨2, ![64, N]⟩, v3⟩, ⟨⟨2, ![64, N]⟩, v4⟩].map (·.1)) ⟨2, ![320, N]⟩ 0)
    (g : (t : ℕ) → t ≤ 4 → Fin 64 → Fin N → α)
    (h0 : ∀ r p, v0 (ix2 r p) = g 0 (by omega) r p) (h1 : ∀ r p, v1 (ix2 r p) = g 1 (by omega) r p)
    (h2 : ∀ r p, v2 (ix2 r p) = g 2 (by omega) r p) (h3 : ∀ r p, v3 (ix2 r p) = g 3 (by omega) r p)
    (h4 : ∀ r p, v4 (ix2 r p) = g 4 (by omega) r p) (k : Fin 320) (p : Fin N) :
    concatenate ⟨2, ![320, N]⟩ 0 [⟨⟨2, ![64, N]⟩, v0⟩, ⟨⟨2, ![64, N]⟩, v1⟩, ⟨⟨2, ![64, N]⟩, v2⟩, ⟨⟨2, ![64, N]⟩, v3⟩,
      ⟨⟨2, ![64, N]⟩, v4⟩] h (ix2 k p) = g (tap k) (tap_le k) (chan k) p := by
  have hk : k.val = tap k * 64 + (chan k).val := by
    show k.val = k.val / 64 * 64 + k.val % 64
    omega
  have key : ∀ (t : ℕ) (ht : t ≤ 4), k.val = t * 64 + (chan k).val →
      concatenate ⟨2, ![320, N]⟩ 0 [⟨⟨2, ![64, N]⟩, v0⟩, ⟨⟨2, ![64, N]⟩, v1⟩, ⟨⟨2, ![64, N]⟩, v2⟩, ⟨⟨2, ![64, N]⟩, v3⟩,
        ⟨⟨2, ![64, N]⟩, v4⟩] h (ix2 k p) = g t ht (chan k) p := by
    intro t ht hkt
    match t, ht, hkt with
    | 0, _, hkt => exact (stack_piece _ h k p 0 (by simp) v0 rfl rfl (chan k) hkt).trans (h0 _ _)
    | 1, _, hkt => exact (stack_piece _ h k p 1 (by simp) v1 rfl rfl (chan k) hkt).trans (h1 _ _)
    | 2, _, hkt => exact (stack_piece _ h k p 2 (by simp) v2 rfl rfl (chan k) hkt).trans (h2 _ _)
    | 3, _, hkt => exact (stack_piece _ h k p 3 (by simp) v3 rfl rfl (chan k) hkt).trans (h3 _ _)
    | 4, _, hkt => exact (stack_piece _ h k p 4 (by simp) v4 rfl rfl (chan k) hkt).trans (h4 _ _)
    | t + 5, ht, _ => exact absurd ht (by omega)
  exact key _ (tap_le k) hk

open SepConv in
/-- Ten `[64, N]` matrices stacked along the rows, read in the two halves of five. -/
theorem stack10_apply {α : Type} {N : ℕ} (v0 v1 v2 v3 v4 v5 v6 v7 v8 v9 : (⟨2, ![64, N]⟩ : Shape).Idx → α)
    (h : Shape.Concatenates ([(⟨⟨2, ![64, N]⟩, v0⟩ : (s : Shape) × (s.Idx → α)), ⟨⟨2, ![64, N]⟩, v1⟩, ⟨⟨2, ![64, N]⟩, v2⟩,
      ⟨⟨2, ![64, N]⟩, v3⟩, ⟨⟨2, ![64, N]⟩, v4⟩, ⟨⟨2, ![64, N]⟩, v5⟩, ⟨⟨2, ![64, N]⟩, v6⟩, ⟨⟨2, ![64, N]⟩, v7⟩,
      ⟨⟨2, ![64, N]⟩, v8⟩, ⟨⟨2, ![64, N]⟩, v9⟩].map (·.1)) ⟨2, ![640, N]⟩ 0)
    (gL gR : (t : ℕ) → t ≤ 4 → Fin 64 → Fin N → α)
    (h0 : ∀ r p, v0 (ix2 r p) = gL 0 (by omega) r p) (h1 : ∀ r p, v1 (ix2 r p) = gL 1 (by omega) r p)
    (h2 : ∀ r p, v2 (ix2 r p) = gL 2 (by omega) r p) (h3 : ∀ r p, v3 (ix2 r p) = gL 3 (by omega) r p)
    (h4 : ∀ r p, v4 (ix2 r p) = gL 4 (by omega) r p)
    (h5 : ∀ r p, v5 (ix2 r p) = gR 0 (by omega) r p) (h6 : ∀ r p, v6 (ix2 r p) = gR 1 (by omega) r p)
    (h7 : ∀ r p, v7 (ix2 r p) = gR 2 (by omega) r p) (h8 : ∀ r p, v8 (ix2 r p) = gR 3 (by omega) r p)
    (h9 : ∀ r p, v9 (ix2 r p) = gR 4 (by omega) r p) (k : Fin 320) (p : Fin N) :
    concatenate ⟨2, ![640, N]⟩ 0 [⟨⟨2, ![64, N]⟩, v0⟩, ⟨⟨2, ![64, N]⟩, v1⟩, ⟨⟨2, ![64, N]⟩, v2⟩, ⟨⟨2, ![64, N]⟩, v3⟩,
        ⟨⟨2, ![64, N]⟩, v4⟩, ⟨⟨2, ![64, N]⟩, v5⟩, ⟨⟨2, ![64, N]⟩, v6⟩, ⟨⟨2, ![64, N]⟩, v7⟩, ⟨⟨2, ![64, N]⟩, v8⟩,
        ⟨⟨2, ![64, N]⟩, v9⟩] h (ix2 (⟨k.val, by have := k.isLt; omega⟩ : Fin 640) p) = gL (tap k) (tap_le k) (chan k) p
    ∧ concatenate ⟨2, ![640, N]⟩ 0 [⟨⟨2, ![64, N]⟩, v0⟩, ⟨⟨2, ![64, N]⟩, v1⟩, ⟨⟨2, ![64, N]⟩, v2⟩, ⟨⟨2, ![64, N]⟩, v3⟩,
        ⟨⟨2, ![64, N]⟩, v4⟩, ⟨⟨2, ![64, N]⟩, v5⟩, ⟨⟨2, ![64, N]⟩, v6⟩, ⟨⟨2, ![64, N]⟩, v7⟩, ⟨⟨2, ![64, N]⟩, v8⟩,
        ⟨⟨2, ![64, N]⟩, v9⟩] h (ix2 (⟨320 + k.val, by have := k.isLt; omega⟩ : Fin 640) p) = gR (tap k) (tap_le k) (chan k) p := by
  have hk : k.val = tap k * 64 + (chan k).val := by
    show k.val = k.val / 64 * 64 + k.val % 64
    omega
  have key : ∀ (t : ℕ) (ht : t ≤ 4), k.val = t * 64 + (chan k).val →
      concatenate ⟨2, ![640, N]⟩ 0 [⟨⟨2, ![64, N]⟩, v0⟩, ⟨⟨2, ![64, N]⟩, v1⟩, ⟨⟨2, ![64, N]⟩, v2⟩, ⟨⟨2, ![64, N]⟩, v3⟩,
        ⟨⟨2, ![64, N]⟩, v4⟩, ⟨⟨2, ![64, N]⟩, v5⟩, ⟨⟨2, ![64, N]⟩, v6⟩, ⟨⟨2, ![64, N]⟩, v7⟩, ⟨⟨2, ![64, N]⟩, v8⟩,
        ⟨⟨2, ![64, N]⟩, v9⟩] h (ix2 (⟨k.val, by have := k.isLt; omega⟩ : Fin 640) p) = gL t ht (chan k) p
      ∧ concatenate ⟨2, ![640, N]⟩ 0 [⟨⟨2, ![64, N]⟩, v0⟩, ⟨⟨2, ![64, N]⟩, v1⟩, ⟨⟨2, ![64, N]⟩, v2⟩, ⟨⟨2, ![64, N]⟩, v3⟩,
        ⟨⟨2, ![64, N]⟩, v4⟩, ⟨⟨2, ![64, N]⟩, v5⟩, ⟨⟨2, ![64, N]⟩, v6⟩, ⟨⟨2, ![64, N]⟩, v7⟩, ⟨⟨2, ![64, N]⟩, v8⟩,
        ⟨⟨2, ![64, N]⟩, v9⟩] h (ix2 (⟨320 + k.val, by have := k.isLt; omega⟩ : Fin 640) p) = gR t ht (chan k) p := by
    intro t ht hkt
    match t, ht, hkt with
    | 0, _, hkt => exact ⟨(stack_piece _ h _ p 0 (by simp) v0 rfl rfl (chan k) hkt).trans (h0 _ _),
        (stack_piece _ h _ p 5 (by simp) v5 rfl rfl (chan k) (by show 320 + k.val = _; omega)).trans (h5 _ _)⟩
    | 1, _, hkt => exact ⟨(stack_piece _ h _ p 1 (by simp) v1 rfl rfl (chan k) hkt).trans (h1 _ _),
        (stack_piece _ h _ p 6 (by simp) v6 rfl rfl (chan k) (by show 320 + k.val = _; omega)).trans (h6 _ _)⟩
    | 2, _, hkt => exact ⟨(stack_piece _ h _ p 2 (by simp) v2 rfl rfl (chan k) hkt).trans (h2 _ _),
        (stack_piece _ h _ p 7 (by simp) v7 rfl rfl (chan k) (by show 320 + k.val = _; omega)).trans (h7 _ _)⟩
    | 3, _, hkt => exact ⟨(stack_piece _ h _ p 3 (by simp) v3 rfl rfl (chan k) hkt).trans (h3 _ _),
        (stack_piece _ h _ p 8 (by simp) v8 rfl rfl (chan k) (by show 320 + k.val = _; omega)).trans (h8 _ _)⟩
    | 4, _, hkt => exact ⟨(stack_piece _ h _ p 4 (by simp) v4 rfl rfl (chan k) hkt).trans (h4 _ _),
        (stack_piece _ h _ p 9 (by simp) v9 rfl rfl (chan k) (by show 320 + k.val = _; omega)).trans (h9 _ _)⟩
    | t + 5, ht, _ => exact absurd ht (by omega)
  exact key _ (tap_le k) hk

/-- The sixteen-bit zero word is the extended real zero. -/
theorem ofBits_zero_bf16 : Ideal.ofBits .bf16 0x0000#16 = 0 := by simp [Ideal.ofBits, Ideal.ieee]

/-- The zero columns the body stores before the first convolution of branch L. -/
theorem pay3_apply (x : S64x2.Idx) : k0_pay3 (F := Ideal) x = 0 := by
  unfold k0_pay3
  show shapeCast S64x2 (broadcast S64x2 (Scalar.ofBits (F := Ideal) .bf16 0x0000#16)) shapeCasts_S64x2_S64x2 x = 0
  rw [shapeCast_self]
  exact ofBits_zero_bf16

/-- The zero columns the body stores after it. -/
theorem pay5_apply (x : S64x2.Idx) : k0_pay5 (F := Ideal) x = 0 := by
  unfold k0_pay5
  show shapeCast S64x2 (broadcast S64x2 (Scalar.ofBits (F := Ideal) .bf16 0x0000#16)) shapeCasts_S64x2_S64x2 x = 0
  rw [shapeCast_self]
  exact ofBits_zero_bf16

/-- The scratch of branch L at `(r, j)`: zero on the two columns at either end, the stored plane between. -/
theorem scratchL_apply (P4 : FVec Ideal S64x4352 .bf16) (r : Fin 64) (j : Fin 4356) :
    View.canon (Val := Elt Ideal)
        [(⟨Rect.unit (s := S64x4356) ![0, 4354] S64x2.size inb_S64x4356_S64x2_0_4354, k0_pay5 (F := Ideal)⟩ : View.Piece (Elt Ideal) S64x4356 .bf16),
          ⟨Rect.unit (s := S64x4356) ![0, 2] S64x4352.size inb_S64x4356_S64x4352_0_2, P4⟩,
          ⟨Rect.unit (s := S64x4356) ![0, 0] S64x2.size inb_S64x4356_S64x2_0_0, k0_pay3 (F := Ideal)⟩] (ix2 r j)
      = if h2 : j.val < 2 then 0 else if h : j.val < 4354 then P4 (ix2 r ⟨j.val - 2, by omega⟩) else 0 := by
  by_cases h2 : j.val < 2
  · rw [dif_pos h2,
      canon_unit_of_not_mem _ _ _ _ 1 (Or.inl (by show j.val < 4354; omega)),
      canon_unit_of_not_mem _ _ _ _ 1 (Or.inl (by show j.val < 2; omega)),
      canon_unit_of_mem _ _ _ _ (ix2 r ⟨j.val, h2⟩) (fun a => by
        match a with
        | ⟨0, _⟩ => show r.val = 0 + r.val; omega
        | ⟨1, _⟩ => show j.val = 0 + j.val; omega)]
    exact pay3_apply _
  · rw [dif_neg h2]
    by_cases h : j.val < 4354
    · rw [dif_pos h,
        canon_unit_of_not_mem _ _ _ _ 1 (Or.inl (by show j.val < 4354; omega)),
        canon_unit_of_mem _ _ _ _ (ix2 r ⟨j.val - 2, by omega⟩) (fun a => by
          match a with
          | ⟨0, _⟩ => show r.val = 0 + r.val; omega
          | ⟨1, _⟩ => show j.val = 2 + (j.val - 2); omega)]
    · rw [dif_neg h,
        canon_unit_of_mem _ _ _ _ (ix2 r ⟨j.val - 4354, by have := j.isLt; omega⟩) (fun a => by
          match a with
          | ⟨0, _⟩ => show r.val = 0 + r.val; omega
          | ⟨1, _⟩ => show j.val = 4354 + (j.val - 4354); omega)]
      exact pay5_apply _

/-! ## The payloads at an index -/

/-- The staged image with its unit axis dropped. -/
theorem pay2_apply (x0 : Vec Ideal S1x64x4628 .bf16) (r : Fin 64) (j : Fin 4628) :
    k0_pay2 x0 (ix2 r j) = x0 (ix3 0 r j) := by
  unfold k0_pay2
  exact shapeCast_1ab_ab_apply _ _ r j

/-- A bias column times a mask row, at `(r, q)`. -/
theorem biasPlane_apply {N : ℕ} (col : FVec Ideal ⟨2, ![64, 1]⟩ .f32) (row : FVec Ideal ⟨2, ![1, N]⟩ .f32)
    (hc : (⟨2, ![64, 1]⟩ : Shape).ShapeCasts ⟨2, ![64, 1]⟩) (hr : (⟨2, ![1, N]⟩ : Shape).ShapeCasts ⟨2, ![1, N]⟩)
    (hbc : (⟨2, ![64, 1]⟩ : Shape).Broadcasts ⟨2, ![64, N]⟩) (hbr : (⟨2, ![1, N]⟩ : Shape).Broadcasts ⟨2, ![64, N]⟩)
    (r : Fin 64) (q : Fin N) :
    mulf (broadcastTo ⟨2, ![64, N]⟩ (shapeCast ⟨2, ![64, 1]⟩ col hc) hbc)
        (broadcastTo ⟨2, ![64, N]⟩ (shapeCast ⟨2, ![1, N]⟩ row hr) hbr) (ix2 r q)
      = col (ix2 r 0) * row (ix2 0 q) := by
  refine (mulf_apply _ _ _).trans ?_
  rw [shapeCast_self, shapeCast_self]
  exact congrArg₂ (· * ·) (broadcastTo_a1_ab_apply _ _ r q) (broadcastTo_1b_ab_apply _ _ r q)

/-- The first convolution of branch L with its bias plane, as the body stores it in the scratch. -/
theorem pay4_apply (x0 : Vec Ideal S1x64x4628 .bf16) (x1 : Vec Ideal S64x320 .bf16) (x4 : Vec Ideal S64x1 .f32)
    (x7 : Vec Ideal S1x4352 .f32) (r : Fin 64) (p : Fin 4352) :
    k0_pay4 x0 x1 x4 x7 (ix2 r p)
      = SepConv.yL (fun ch j => x0 (ix3 0 ch j)) (fun r k => x1 (ix2 r k)) (fun r q => x4 (ix2 r 0) * x7 (ix2 0 q)) r p := by
  unfold k0_pay4 SepConv.yL
  dsimp only
  rw [shapeCast_self]
  refine Eq.trans (truncf_apply (ψ := .bf16) (φ := .f32) _ bitsLt_bf16_f32 _) ?_
  refine (addf_apply _ _ _).trans ?_
  refine congrArg₂ (· + ·) ?_ (biasPlane_apply _ _ _ _ _ _ r p)
  refine (SepConv.matmul2_apply dot_S64x320_S320x4352_S64x4352_1_0_0_1_n_n rfl rfl rfl rfl rfl rfl none _ _ r p).trans ?_
  refine Finset.sum_congr rfl fun k _ => ?_
  rw [shapeCast_self]
  refine congrArg (x1 (ix2 r k) * ·) ?_
  exact stack5_apply _ _ _ _ _ _ (fun t ht ch q => x0 (ix3 0 ch ⟨2 + t * 68 + q.val, by have := q.isLt; omega⟩))
    (fun ch q => (slice2_axis1_apply 2 _ _ ch q _ rfl).trans (pay2_apply x0 _ _))
    (fun ch q => (slice2_axis1_apply 70 _ _ ch q _ (by show 2 + 1 * 68 + q.val = 70 + q.val; omega)).trans (pay2_apply x0 _ _))
    (fun ch q => (slice2_axis1_apply 138 _ _ ch q _ (by show 2 + 2 * 68 + q.val = 138 + q.val; omega)).trans (pay2_apply x0 _ _))
    (fun ch q => (slice2_axis1_apply 206 _ _ ch q _ (by show 2 + 3 * 68 + q.val = 206 + q.val; omega)).trans (pay2_apply x0 _ _))
    (fun ch q => (slice2_axis1_apply 274 _ _ ch q _ (by show 2 + 4 * 68 + q.val = 274 + q.val; omega)).trans (pay2_apply x0 _ _))
    k p

/-- The first convolution of branch R with its bias plane, as the body stores it in the scratch. -/
theorem pay7_apply (x0 : Vec Ideal S1x64x4628 .bf16) (x2 : Vec Ideal S64x320 .bf16) (x5 : Vec Ideal S64x1 .f32)
    (x8 : Vec Ideal S1x4624 .f32) (r : Fin 64) (q : Fin 4624) :
    k0_pay7 (k0_pay6 x0) x2 x5 x8 (ix2 r q)
      = SepConv.yR (fun ch j => x0 (ix3 0 ch j)) (fun r k => x2 (ix2 r k)) (fun r q => x5 (ix2 r 0) * x8 (ix2 0 q)) r q := by
  unfold k0_pay7 k0_pay6 SepConv.yR
  dsimp only
  rw [shapeCast_self]
  refine Eq.trans (truncf_apply (ψ := .bf16) (φ := .f32) _ bitsLt_bf16_f32 _) ?_
  refine (addf_apply _ _ _).trans ?_
  refine congrArg₂ (· + ·) ?_ (biasPlane_apply _ _ _ _ _ _ r q)
  refine (SepConv.matmul2_apply dot_S64x320_S320x4624_S64x4624_1_0_0_1_n_n rfl rfl rfl rfl rfl rfl none _ _ r q).trans ?_
  refine Finset.sum_congr rfl fun k _ => ?_
  rw [shapeCast_self]
  refine congrArg (x2 (ix2 r k) * ·) ?_
  exact stack5_apply _ _ _ _ _ _ (fun t ht ch q => x0 (ix3 0 ch ⟨t + q.val, by have := q.isLt; omega⟩))
    (fun ch q => (slice2_axis1_apply 0 _ _ ch q _ rfl).trans (pay2_apply x0 _ _))
    (fun ch q => (slice2_axis1_apply 1 _ _ ch q _ rfl).trans (pay2_apply x0 _ _))
    (fun ch q => (slice2_axis1_apply 2 _ _ ch q _ rfl).trans (pay2_apply x0 _ _))
    (fun ch q => (slice2_axis1_apply 3 _ _ ch q _ rfl).trans (pay2_apply x0 _ _))
    (fun ch q => (slice2_axis1_apply 4 _ _ ch q _ rfl).trans (pay2_apply x0 _ _))
    k q

/-- The rectifier as the body spells it on a whole block, at an index. -/
theorem leaky_vec_apply {s : Shape} (v : FVec Ideal s .f32) (i : s.Idx) :
    select (cmpf .oge v (broadcast s (Scalar.ofBits (F := Ideal) .f32 0x00000000#32))) v
        (mulf (broadcast s (Scalar.ofBits (F := Ideal) .f32 0x3DCCCCCD#32)) v) i = SepConv.leaky (v i) := rfl

/-- The output block at `(0, oc, p)`: the fused product over the 640 stacked rows, the bias column, the rectifier. -/
theorem pay1_apply (v62 : FVec Ideal S640x4352 .bf16) (v64 : FVec Ideal S64x640 .bf16) (v66 : Vec Ideal S64x1 .f32)
    (oc : Fin 64) (p : Fin 4352) :
    k0_pay1 v62 v64 (constant S64x4352 .f32 0x00000000#32) v66 (ix3 0 oc p)
      = SepConv.leaky ((∑ k : Fin 640, v64 (ix2 oc k) * v62 (ix2 k p)) + v66 (ix2 oc 0)) := by
  unfold k0_pay1
  refine (shapeCast_ab_1ab_apply _ _ 0 oc p).trans ?_
  refine (leaky_vec_apply _ _).trans ?_
  refine congrArg SepConv.leaky ?_
  refine (addf_apply _ _ _).trans ?_
  refine congrArg₂ (· + ·) ?_ ?_
  · exact SepConv.matmul2_apply dot_S64x640_S640x4352_S64x4352_1_0_0_1_n_n rfl rfl rfl rfl rfl rfl none _ _ oc p
  · rw [shapeCast_self]
    exact broadcastTo_a1_ab_apply _ _ oc p

/-! ## The two scratch buffers read back -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A load from the scratch of branch L starting `o` columns in, at `(r, p)`: the padded first convolution at column
    `o + p`. -/
theorem readL_apply (v : View sig .tc .vmem S64x4356 .bf16) (x0 : Vec Ideal S1x64x4628 .bf16) (x1 : Vec Ideal S64x320 .bf16)
    (x4 : Vec Ideal S64x1 .f32) (x7 : Vec Ideal S1x4352 .f32) (o : ℕ) (ho : o ≤ 4)
    (inb : ∀ a, (![0, o] : Fin 2 → ℕ) a + S64x4352.size a ≤ S64x4356.size a) (r : Fin 64) (p : Fin 4352) :
    v.readCov (Val := Elt Ideal)
        [(⟨Rect.unit (s := S64x4356) ![0, 4354] S64x2.size inb_S64x4356_S64x2_0_4354, k0_pay5 (F := Ideal)⟩ : View.Piece (Elt Ideal) S64x4356 .bf16),
          ⟨Rect.unit (s := S64x4356) ![0, 2] S64x4352.size inb_S64x4356_S64x4352_0_2, k0_pay4 x0 x1 x4 x7⟩,
          ⟨Rect.unit (s := S64x4356) ![0, 0] S64x2.size inb_S64x4356_S64x2_0_0, k0_pay3 (F := Ideal)⟩]
        (Rect.unit (s := S64x4356) ![0, o] S64x4352.size inb).toLoadRect (ix2 r p)
      = SepConv.sL (fun ch j => x0 (ix3 0 ch j)) (fun r k => x1 (ix2 r k)) (fun r q => x4 (ix2 r 0) * x7 (ix2 0 q)) r
          ⟨o + p.val, by have := p.isLt; omega⟩ := by
  rw [View.readCov_eq_canon']
  show View.canon _ ((Rect.unit (s := S64x4356) ![0, o] S64x4352.size inb).toLoadRect.idx (ix2 r p)) = _
  rw [unit_idx_ix2 o inb r p r ⟨o + p.val, by have := p.isLt; omega⟩ rfl rfl, scratchL_apply]
  unfold SepConv.sL
  by_cases h2 : o + p.val < 2
  · rw [dif_pos h2, dif_pos h2]
  · rw [dif_neg h2, dif_neg h2]
    by_cases h : o + p.val < 4354
    · rw [dif_pos h, dif_pos h]
      exact pay4_apply x0 x1 x4 x7 r _
    · rw [dif_neg h, dif_neg h]

/-- A load from the scratch of branch R starting `t` rows of 68 in, at `(r, p)`: the first convolution at flat position
    `t * 68 + p`. -/
theorem readR_apply (v : View sig .tc .vmem S64x4624 .bf16) (x0 : Vec Ideal S1x64x4628 .bf16) (x2 : Vec Ideal S64x320 .bf16)
    (x5 : Vec Ideal S64x1 .f32) (x8 : Vec Ideal S1x4624 .f32) (o t : ℕ) (ht : t ≤ 4) (ho : o = t * 68)
    (inb : ∀ a, (![0, o] : Fin 2 → ℕ) a + S64x4352.size a ≤ S64x4624.size a) (r : Fin 64) (p : Fin 4352) :
    v.readCov (Val := Elt Ideal)
        [(⟨Rect.unit (s := S64x4624) ![0, 0] S64x4624.size inb_S64x4624_S64x4624_0_0, k0_pay7 (k0_pay6 x0) x2 x5 x8⟩ : View.Piece (Elt Ideal) S64x4624 .bf16)]
        (Rect.unit (s := S64x4624) ![0, o] S64x4352.size inb).toLoadRect (ix2 r p)
      = SepConv.yR (fun ch j => x0 (ix3 0 ch j)) (fun r k => x2 (ix2 r k)) (fun r q => x5 (ix2 r 0) * x8 (ix2 0 q)) r
          ⟨t * 68 + p.val, by have := p.isLt; omega⟩ := by
  rw [View.readCov_eq_canon', View.canon_unit_zero (S := S64x4624) zeros2]
  show k0_pay7 (k0_pay6 x0) x2 x5 x8 ((Rect.unit (s := S64x4624) ![0, o] S64x4352.size inb).toLoadRect.idx (ix2 r p)) = _
  rw [unit_idx_ix2 o inb r p r ⟨t * 68 + p.val, by have := p.isLt; omega⟩ rfl (by show t * 68 + p.val = o + p.val; omega)]
  exact pay7_apply x0 x2 x5 x8 r _

open SepConv in
/-- The ten loaded blocks stacked for the fused product, read in the two halves of five. -/
theorem pay8_apply (v0 v1 v2 v3 v4 v5 v6 v7 v8 v9 : Vec Ideal S64x4352 .bf16)
    (gL gR : (t : ℕ) → t ≤ 4 → Fin 64 → Fin 4352 → EReal)
    (h0 : ∀ r p, v0 (ix2 r p) = gL 0 (by omega) r p) (h1 : ∀ r p, v1 (ix2 r p) = gL 1 (by omega) r p)
    (h2 : ∀ r p, v2 (ix2 r p) = gL 2 (by omega) r p) (h3 : ∀ r p, v3 (ix2 r p) = gL 3 (by omega) r p)
    (h4 : ∀ r p, v4 (ix2 r p) = gL 4 (by omega) r p)
    (h5 : ∀ r p, v5 (ix2 r p) = gR 0 (by omega) r p) (h6 : ∀ r p, v6 (ix2 r p) = gR 1 (by omega) r p)
    (h7 : ∀ r p, v7 (ix2 r p) = gR 2 (by omega) r p) (h8 : ∀ r p, v8 (ix2 r p) = gR 3 (by omega) r p)
    (h9 : ∀ r p, v9 (ix2 r p) = gR 4 (by omega) r p) (k : Fin 320) (p : Fin 4352) :
    k0_pay8 v0 v1 v2 v3 v4 v5 v6 v7 v8 v9 (ix2 (⟨k.val, by have := k.isLt; omega⟩ : Fin 640) p) = gL (tap k) (tap_le k) (chan k) p
    ∧ k0_pay8 v0 v1 v2 v3 v4 v5 v6 v7 v8 v9 (ix2 (⟨320 + k.val, by have := k.isLt; omega⟩ : Fin 640) p) = gR (tap k) (tap_le k) (chan k) p := by
  unfold k0_pay8
  exact stack10_apply _ _ _ _ _ _ _ _ _ _ _ gL gR h0 h1 h2 h3 h4 h5 h6 h7 h8 h9 k p

/-- What the body leaves in its output block, at `(0, oc, p)`: the two-branch separable convolution of the staged
    blocks — the fused 640-deep product read as its two 320-deep halves, each bias plane the product of the bias
    column and the mask row. -/
theorem out_apply (c : Dev nD) (i : grid0.Coords) (arg1 : Memref sig .tc .vmem S1x64x4628 .bf16) (harg1 : arg1.IsWhole) (arg2 : Memref sig .tc .vmem S64x320 .bf16) (harg2 : arg2.IsWhole) (arg3 : Memref sig .tc .vmem S64x320 .bf16) (harg3 : arg3.IsWhole) (arg4 : Memref sig .tc .vmem S64x640 .bf16) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S1x4352 .f32) (harg8 : arg8.IsWhole) (arg9 : Memref sig .tc .vmem S1x4624 .f32) (harg9 : arg9.IsWhole) (arg10 : Memref sig .tc .vmem S1x64x4352 .f32) (harg10 : arg10.IsWhole) (arg11 : Memref sig .tc .vmem S64x4356 .bf16) (harg11 : arg11.IsWhole) (arg12 : Memref sig .tc .vmem S64x4624 .bf16) (harg12 : arg12.IsWhole)
    (x0 : Vec Ideal S1x64x4628 .bf16) (x1 : Vec Ideal S64x320 .bf16) (x2 : Vec Ideal S64x320 .bf16) (x3 : Vec Ideal S64x640 .bf16) (x4 : Vec Ideal S64x1 .f32) (x5 : Vec Ideal S64x1 .f32) (x6 : Vec Ideal S64x1 .f32) (x7 : Vec Ideal S1x4352 .f32) (x8 : Vec Ideal S1x4624 .f32)
    (oc : Fin 64) (p : Fin 4352) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix3 0 oc p)
      = SepConv.out (fun ch j => x0 (ix3 0 ch j)) (fun r k => x1 (ix2 r k)) (fun r k => x2 (ix2 r k))
          (fun r k => x3 (ix2 r ⟨k.val, by have := k.isLt; omega⟩)) (fun r k => x3 (ix2 r ⟨320 + k.val, by have := k.isLt; omega⟩))
          (fun r q => x4 (ix2 r 0) * x7 (ix2 0 q)) (fun r q => x5 (ix2 r 0) * x8 (ix2 0 q)) (fun r => x6 (ix2 r 0)) oc p := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero (S := S1x64x4352) zeros3]
  simp only [View.readAt_eq_ld, harg1.read_unread, harg2.read_unread, harg3.read_unread, harg4.read_unread,
    harg5.read_unread, harg6.read_unread, harg7.read_unread, harg8.read_unread, harg9.read_unread,
    View.ld_unit_zero (S := S1x64x4628) zeros3, View.ld_unit_zero (S := S64x320) zeros2, View.ld_unit_zero (S := S64x640) zeros2,
    View.ld_unit_zero (S := S64x1) zeros2, View.ld_unit_zero (S := S1x4352) zeros2, View.ld_unit_zero (S := S1x4624) zeros2]
  refine (pay1_apply _ _ _ oc p).trans ?_
  unfold SepConv.out SepConv.acc
  refine congrArg SepConv.leaky ?_
  refine congrArg₂ (· + ·) ?_ rfl
  rw [SepConv.sum_640]
  have hstack := fun k : Fin 320 => pay8_apply _ _ _ _ _ _ _ _ _ _
    (fun t ht r p => SepConv.sL (fun ch j => x0 (ix3 0 ch j)) (fun r k => x1 (ix2 r k))
      (fun r q => x4 (ix2 r 0) * x7 (ix2 0 q)) r ⟨t + p.val, by have := p.isLt; omega⟩)
    (fun t ht r p => SepConv.yR (fun ch j => x0 (ix3 0 ch j)) (fun r k => x2 (ix2 r k))
      (fun r q => x5 (ix2 r 0) * x8 (ix2 0 q)) r ⟨t * 68 + p.val, by have := p.isLt; omega⟩)
    (readL_apply arg11.view x0 x1 x4 x7 0 (by omega) inb_S64x4356_S64x4352_0_0)
    (readL_apply arg11.view x0 x1 x4 x7 1 (by omega) inb_S64x4356_S64x4352_0_1)
    (readL_apply arg11.view x0 x1 x4 x7 2 (by omega) inb_S64x4356_S64x4352_0_2)
    (readL_apply arg11.view x0 x1 x4 x7 3 (by omega) inb_S64x4356_S64x4352_0_3)
    (readL_apply arg11.view x0 x1 x4 x7 4 (by omega) inb_S64x4356_S64x4352_0_4)
    (readR_apply arg12.view x0 x2 x5 x8 0 0 (by omega) rfl inb_S64x4624_S64x4352_0_0)
    (readR_apply arg12.view x0 x2 x5 x8 68 1 (by omega) rfl inb_S64x4624_S64x4352_0_68)
    (readR_apply arg12.view x0 x2 x5 x8 136 2 (by omega) rfl inb_S64x4624_S64x4352_0_136)
    (readR_apply arg12.view x0 x2 x5 x8 204 3 (by omega) rfl inb_S64x4624_S64x4352_0_204)
    (readR_apply arg12.view x0 x2 x5 x8 272 4 (by omega) rfl inb_S64x4624_S64x4352_0_272) k p
  refine congrArg₂ (· + ·) (Finset.sum_congr rfl fun k _ => ?_) (Finset.sum_congr rfl fun k _ => ?_)
  · refine congrArg₂ (· * ·) ?_ (hstack k).1
    unfold k0_pay9
    rw [shapeCast_self]
  · refine congrArg₂ (· * ·) ?_ (hstack k).2
    unfold k0_pay9
    rw [shapeCast_self]

end Cert.KernelIdeal.BodyValue

end
-- ==== Proof.ArrayK.lean ====
/-
  From grid points to the whole result of the fused kernel's program.

  The pallas call runs once per image n < 64. Its image window stages rows (n, *, *) of the flat padded input; every
  other input window stages its whole array at every point; its output window writes back rows (n, *, *) of a
  64 x 64 x 4352 array. So that array ends holding, at (n, oc, p), the two-branch convolution `SepConv.out` of image n
  (the blocks tile it: image n's block is the one point n writes), and the program's result is that array reshaped to
  64 x 64 x 64 x 68 with the two padding columns at either end of each row of 68 cut off.
-/
import proofs.«172729_g2000302748725897_pallasbulk_1061_2_alg».proof.Proof.Gen.KernelIdeal.Frame
import proofs.«172729_g2000302748725897_pallasbulk_1061_2_alg».proof.Proof.Spec
import proofs.«172729_g2000302748725897_pallasbulk_1061_2_alg».proof.Proof.BodyK
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, at their literal types -/

abbrev aX (c : Dev nD) : S64x64x4628.Idx → EReal := V m c main_call0_v42
abbrev aW1L (c : Dev nD) : S64x320.Idx → EReal := V m c main_call0_v3
abbrev aW1R (c : Dev nD) : S64x320.Idx → EReal := V m c main_call0_v7
abbrev aW2 (c : Dev nD) : S64x640.Idx → EReal := V m c main_call0_v16
abbrev aB1L (c : Dev nD) : S64x1.Idx → EReal := V m c main_call0_v17
abbrev aB1R (c : Dev nD) : S64x1.Idx → EReal := V m c main_call0_v18
abbrev aB2 (c : Dev nD) : S64x1.Idx → EReal := V m c main_call0_v20
abbrev aMW (c : Dev nD) : S1x4352.Idx → EReal := V m c main_call0_v29
abbrev aMH (c : Dev nD) : S1x4624.Idx → EReal := V m c main_call0_v38

/-- The pallas call's output array at image n, channel oc, flat position p: the convolution of image n. -/
def Gat (c : Dev nD) (n oc : Fin 64) (p : Fin 4352) : EReal :=
  SepConv.out (fun ch j => aX m c (ix3 n ch j)) (fun r k => aW1L m c (ix2 r k)) (fun r k => aW1R m c (ix2 r k))
    (fun r k => aW2 m c (ix2 r ⟨k.val, by have := k.isLt; omega⟩)) (fun r k => aW2 m c (ix2 r ⟨320 + k.val, by have := k.isLt; omega⟩))
    (fun r q => aB1L m c (ix2 r 0) * aMW m c (ix2 0 q)) (fun r q => aB1R m c (ix2 r 0) * aMH m c (ix2 0 q))
    (fun r => aB2 m c (ix2 r 0)) oc p

/-- The pallas call's output array as ONE function of the arrays the region finds. -/
def G (c : Dev nD) : S64x64x4352.Idx → EReal := fun i => Gat m c (i 0) (i 1) (i 2)

/-! ## The index maps, decided over the 64 points -/

/-- The image window and the output window move with the point along axis 0; every other window stays at block 0. -/
theorem idx_facts : ∀ t : Fin cfg0.N,
    (win0_0.index t (0 : Fin 3) = t.val ∧ win0_0.index t (1 : Fin 3) = 0 ∧ win0_0.index t (2 : Fin 3) = 0)
    ∧ (win0_9.index t (0 : Fin 3) = t.val ∧ win0_9.index t (1 : Fin 3) = 0 ∧ win0_9.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A point is an image number. -/
abbrev img (t : Fin cfg0.N) : Fin 64 := ⟨t.val, by have h : cfg0.N = 64 := N_0; have := t.isLt; omega⟩

/-! ## What each input window's block is -/

/-- The image window's block at point t is image t of the flat padded input. -/
theorem blk0 (c : Dev nD) (t : Fin cfg0.N) (ch : Fin 64) (j : Fin 4628) :
    (iblk m c 0 t : S1x64x4628.Idx → EReal) (ix3 0 ch j) = aX m c (ix3 (img t) ch j) := by
  show aX m c (((cfg0.win 0).blk t).view.emb (ix3 0 ch j)) = _
  have e : ((cfg0.win 0).blk t).view.emb (ix3 0 ch j) = ix3 (img t) ch j := by
    obtain ⟨⟨e0, e1, e2⟩, -⟩ := idx_facts t
    funext a; apply Fin.ext
    match a with
    | ⟨0, _⟩ => show win0_0.index t (0 : Fin 3) * 1 + 1 * 0 = t.val; omega
    | ⟨1, _⟩ => show win0_0.index t (1 : Fin 3) * 64 + 1 * ch.val = ch.val; omega
    | ⟨2, _⟩ => show win0_0.index t (2 : Fin 3) * 4628 + 1 * j.val = j.val; omega
  rw [e]

theorem blk1 (c : Dev nD) (t : Fin cfg0.N) : (iblk m c 1 t : S64x320.Idx → EReal) = aW1L m c := by
  funext y
  show aW1L m c (((cfg0.win 1).blk t).view.emb y) = _
  have e : ((cfg0.win 1).blk t).view.emb y = y := by
    obtain ⟨-, -, ⟨e0, e1⟩, -⟩ := idx_facts t
    funext a; apply Fin.ext
    match a with
    | ⟨0, _⟩ => show win0_1.index t (0 : Fin 2) * 64 + 1 * (y 0).val = (y 0).val; omega
    | ⟨1, _⟩ => show win0_1.index t (1 : Fin 2) * 320 + 1 * (y 1).val = (y 1).val; omega
  rw [e]

theorem blk2 (c : Dev nD) (t : Fin cfg0.N) : (iblk m c 2 t : S64x320.Idx → EReal) = aW1R m c := by
  funext y
  show aW1R m c (((cfg0.win 2).blk t).view.emb y) = _
  have e : ((cfg0.win 2).blk t).view.emb y = y := by
    obtain ⟨-, -, -, ⟨e0, e1⟩, -⟩ := idx_facts t
    funext a; apply Fin.ext
    match a with
    | ⟨0, _⟩ => show win0_2.index t (0 : Fin 2) * 64 + 1 * (y 0).val = (y 0).val; omega
    | ⟨1, _⟩ => show win0_2.index t (1 : Fin 2) * 320 + 1 * (y 1).val = (y 1).val; omega
  rw [e]

theorem blk3 (c : Dev nD) (t : Fin cfg0.N) : (iblk m c 3 t : S64x640.Idx → EReal) = aW2 m c := by
  funext y
  show aW2 m c (((cfg0.win 3).blk t).view.emb y) = _
  have e : ((cfg0.win 3).blk t).view.emb y = y := by
    obtain ⟨-, -, -, -, ⟨e0, e1⟩, -⟩ := idx_facts t
    funext a; apply Fin.ext
    match a with
    | ⟨0, _⟩ => show win0_3.index t (0 : Fin 2) * 64 + 1 * (y 0).val = (y 0).val; omega
    | ⟨1, _⟩ => show win0_3.index t (1 : Fin 2) * 640 + 1 * (y 1).val = (y 1).val; omega
  rw [e]

theorem blk4 (c : Dev nD) (t : Fin cfg0.N) : (iblk m c 4 t : S64x1.Idx → EReal) = aB1L m c := by
  funext y
  show aB1L m c (((cfg0.win 4).blk t).view.emb y) = _
  have e : ((cfg0.win 4).blk t).view.emb y = y := by
    obtain ⟨-, -, -, -, -, ⟨e0, e1⟩, -⟩ := idx_facts t
    funext a; apply Fin.ext
    match a with
    | ⟨0, _⟩ => show win0_4.index t (0 : Fin 2) * 64 + 1 * (y 0).val = (y 0).val; omega
    | ⟨1, _⟩ => show win0_4.index t (1 : Fin 2) * 1 + 1 * (y 1).val = (y 1).val; omega
  rw [e]

theorem blk5 (c : Dev nD) (t : Fin cfg0.N) : (iblk m c 5 t : S64x1.Idx → EReal) = aB1R m c := by
  funext y
  show aB1R m c (((cfg0.win 5).blk t).view.emb y) = _
  have e : ((cfg0.win 5).blk t).view.emb y = y := by
    obtain ⟨-, -, -, -, -, -, ⟨e0, e1⟩, -⟩ := idx_facts t
    funext a; apply Fin.ext
    match a with
    | ⟨0, _⟩ => show win0_5.index t (0 : Fin 2) * 64 + 1 * (y 0).val = (y 0).val; omega
    | ⟨1, _⟩ => show win0_5.index t (1 : Fin 2) * 1 + 1 * (y 1).val = (y 1).val; omega
  rw [e]

theorem blk6 (c : Dev nD) (t : Fin cfg0.N) : (iblk m c 6 t : S64x1.Idx → EReal) = aB2 m c := by
  funext y
  show aB2 m c (((cfg0.win 6).blk t).view.emb y) = _
  have e : ((cfg0.win 6).blk t).view.emb y = y := by
    obtain ⟨-, -, -, -, -, -, -, ⟨e0, e1⟩, -⟩ := idx_facts t
    funext a; apply Fin.ext
    match a with
    | ⟨0, _⟩ => show win0_6.index t (0 : Fin 2) * 64 + 1 * (y 0).val = (y 0).val; omega
    | ⟨1, _⟩ => show win0_6.index t (1 : Fin 2) * 1 + 1 * (y 1).val = (y 1).val; omega
  rw [e]

theorem blk7 (c : Dev nD) (t : Fin cfg0.N) : (iblk m c 7 t : S1x4352.Idx → EReal) = aMW m c := by
  funext y
  show aMW m c (((cfg0.win 7).blk t).view.emb y) = _
  have e : ((cfg0.win 7).blk t).view.emb y = y := by
    obtain ⟨-, -, -, -, -, -, -, -, ⟨e0, e1⟩, -⟩ := idx_facts t
    funext a; apply Fin.ext
    match a with
    | ⟨0, _⟩ => show win0_7.index t (0 : Fin 2) * 1 + 1 * (y 0).val = (y 0).val; omega
    | ⟨1, _⟩ => show win0_7.index t (1 : Fin 2) * 4352 + 1 * (y 1).val = (y 1).val; omega
  rw [e]

theorem blk8 (c : Dev nD) (t : Fin cfg0.N) : (iblk m c 8 t : S1x4624.Idx → EReal) = aMH m c := by
  funext y
  show aMH m c (((cfg0.win 8).blk t).view.emb y) = _
  have e : ((cfg0.win 8).blk t).view.emb y = y := by
    obtain ⟨-, -, -, -, -, -, -, -, -, e0, e1⟩ := idx_facts t
    funext a; apply Fin.ext
    match a with
    | ⟨0, _⟩ => show win0_8.index t (0 : Fin 2) * 1 + 1 * (y 0).val = (y 0).val; omega
    | ⟨1, _⟩ => show win0_8.index t (1 : Fin 2) * 4624 + 1 * (y 1).val = (y 1).val; omega
  rw [e]

/-! ## What each point writes back, and the array after the region -/

/-- Where the output window's block at point t sits in the array: rows (t, *, *). -/
theorem emb9 (t : Fin cfg0.N) (oc : Fin 64) (p : Fin 4352) :
    ((cfg0.win 9).blk t).view.emb (ix3 0 oc p) = ix3 (img t) oc p := by
  obtain ⟨-, ⟨e0, e1, e2⟩, -⟩ := idx_facts t
  funext a; apply Fin.ext
  match a with
  | ⟨0, _⟩ => show win0_9.index t (0 : Fin 3) * 1 + 1 * 0 = t.val; omega
  | ⟨1, _⟩ => show win0_9.index t (1 : Fin 3) * 64 + 1 * oc.val = oc.val; omega
  | ⟨2, _⟩ => show win0_9.index t (2 : Fin 3) * 4352 + 1 * p.val = p.val; omega

/-- A product of equal factors. -/
theorem mul_congr {a a' b b' : EReal} (h1 : a = a') (h2 : b = b') : a * b = a' * b' := by rw [h1, h2]

/-- What the body leaves at point t, at (0, oc, p), is the array function at image t. -/
theorem outs_apply (c : Dev nD) (t : Fin cfg0.N) (oc : Fin 64) (p : Fin 4352) :
    (outsAt0 m c t : S1x64x4352.Idx → EReal) (ix3 0 oc p) = Gat m c (img t) oc p := by
  unfold outsAt0
  exact (BodyValue.out_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) (iblk m c 0 t) (iblk m c 1 t) (iblk m c 2 t) (iblk m c 3 t)
    (iblk m c 4 t) (iblk m c 5 t) (iblk m c 6 t) (iblk m c 7 t) (iblk m c 8 t) oc p).trans
    (SepConv.out_congr (fun ch j => blk0 m c t ch j) (fun r k => congrFun (blk1 m c t) (ix2 r k))
      (fun r k => congrFun (blk2 m c t) (ix2 r k)) (fun r k => congrFun (blk3 m c t) (ix2 r _))
      (fun r k => congrFun (blk3 m c t) (ix2 r _))
      (fun r q => mul_congr (congrFun (blk4 m c t) (ix2 r 0)) (congrFun (blk7 m c t) (ix2 0 q)))
      (fun r q => mul_congr (congrFun (blk5 m c t) (ix2 r 0)) (congrFun (blk8 m c t) (ix2 0 q)))
      (fun r => congrFun (blk6 m c t) (ix2 r 0)) oc p)

/-- What the body leaves at point t, as a function on the block. -/
theorem outs_eq (c : Dev nD) (t : Fin cfg0.N) :
    (outsAt0 m c t : S1x64x4352.Idx → EReal) = fun y => Gat m c (img t) (y 1) (y 2) := by
  funext y
  obtain ⟨a, oc, p, rfl⟩ : ∃ (a : Fin 1) (oc : Fin 64) (p : Fin 4352), y = ix3 a oc p := ⟨y 0, y 1, y 2, eq_ix3 y⟩
  obtain rfl : a = 0 := Subsingleton.elim _ _
  exact outs_apply m c t oc p

/-- The array function at an index given by its coordinates. -/
theorem G_ix3 (c : Dev nD) (n oc : Fin 64) (p : Fin 4352) : G m c (ix3 n oc p) = Gat m c n oc p := rfl

omit m in
/-- Block t of ANY function on the array, at (0, oc, p), is that function at (t, oc, p). -/
theorem read_blk9_apply (t : Fin cfg0.N) (f : S64x64x4352.Idx → EReal) (oc : Fin 64) (p : Fin 4352) :
    (((cfg0.win 9).blk t).view.read (Elt Ideal) f : S1x64x4352.Idx → EReal) (ix3 0 oc p) = f (ix3 (img t) oc p) := by
  show f (((cfg0.win 9).blk t).view.emb (ix3 0 oc p)) = _
  rw [emb9]

/-- Block t of `G`, as a function on the block. -/
theorem read_blk_G (c : Dev nD) (t : Fin cfg0.N) :
    (((cfg0.win 9).blk t).view.read (Elt Ideal) (G m c) : S1x64x4352.Idx → EReal) = fun y => Gat m c (img t) (y 1) (y 2) := by
  funext y
  obtain ⟨a, oc, p, rfl⟩ : ∃ (a : Fin 1) (oc : Fin 64) (p : Fin 4352), y = ix3 a oc p := ⟨y 0, y 1, y 2, eq_ix3 y⟩
  obtain rfl : a = 0 := Subsingleton.elim _ _
  exact (read_blk9_apply t (G m c) oc p).trans (G_ix3 m c (img t) oc p)

/-- WHAT POINT t WRITES BACK is block t of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  exact (outs_eq m c t).trans (read_blk_G m c t).symm

/-- An index of the array is in point t's block iff each coordinate is in the block's range on its axis. -/
theorem mem_blk9 (t : Fin cfg0.N) (i : S64x64x4352.Idx) :
    i ∈ ((cfg0.win 9).blk t).view.set ↔ ∀ a : Fin 3, win0_9.index t a * S1x64x4352.size a ≤ (i a).val ∧ (i a).val < win0_9.index t a * S1x64x4352.size a + S1x64x4352.size a := by
  show i ∈ ((View.whole main_call0_v43).slice (win0_9.rect t)).set ↔ _
  rw [View.set_slice_whole, Rect.mem_set_unit]
  exact Iff.rfl

/-- The blocks tile the array: index (n, oc, p) is in point n's block. -/
theorem cover9 (i : S64x64x4352.Idx) : ∃ t : Fin cfg0.N, (cfg0.win 9).flush t = true ∧ i ∈ ((cfg0.win 9).blk t).view.set := by
  have h0 : (i 0).val < 64 := (i 0).isLt
  have h1 : (i 1).val < 64 := (i 1).isLt
  have h2 : (i 2).val < 4352 := (i 2).isLt
  have hN : cfg0.N = 64 := N_0
  refine ⟨⟨(i 0).val, by omega⟩, flush0_9 _, ?_⟩
  rw [mem_blk9]
  obtain ⟨-, ⟨e0, e1, e2⟩, -⟩ := idx_facts ⟨(i 0).val, by omega⟩
  intro a
  match a with
  | ⟨0, _⟩ => exact ⟨by show win0_9.index _ (0 : Fin 3) * 1 ≤ (i 0).val; rw [e0]; exact Nat.le_of_eq (Nat.mul_one _), by show (i 0).val < win0_9.index _ (0 : Fin 3) * 1 + 1; rw [e0]; exact Nat.lt_succ_of_le (Nat.le_of_eq (Nat.mul_one _).symm)⟩
  | ⟨1, _⟩ => exact ⟨by show win0_9.index _ (1 : Fin 3) * 64 ≤ (i 1).val; rw [e1]; exact Nat.zero_le _, by show (i 1).val < win0_9.index _ (1 : Fin 3) * 64 + 64; rw [e1]; exact h1⟩
  | ⟨2, _⟩ => exact ⟨by show win0_9.index _ (2 : Fin 3) * 4352 ≤ (i 2).val; rw [e2]; exact Nat.zero_le _, by show (i 2).val < win0_9.index _ (2 : Fin 3) * 4352 + 4352; rw [e2]; exact h2⟩

/-- THE ARRAY after the region is `G`. -/
theorem final (c : Dev nD) : (dats m 0 c).arrAt 9 cfg0.N = G m c :=
  (dats m 0 c).arrAt_eq_of_cover 9 (G m c) (fun t _ => flushed_eq m c t) cover9

/-! ## The program's result -/

/-- The lines after the region: the array seen as 64 x 64 x 64 rows of 68, each row's 64 inner entries kept. -/
def tail (A : S64x64x4352.Idx → EReal) : S64x64x64x64.Idx → EReal :=
  extractStridedSlice S64x64x64x64 ![0, 0, 0, 2] (shapeCast S64x64x64x68 A shapeCasts_S64x64x4352_S64x64x64x68) slices_S64x64x64x68_S64x64x64x64_0_0_0_2

/-- The lines after the region, from ANY contents: the result buffer is the crop of what the output array's buffer
    holds (the contents are a variable, so nothing of what came before the region is looked at). -/
theorem tail_of (W : Valuation τ sig (Elt Ideal)) :
    StableHlo.after hostOps1 W (Proc.devRef .tc main_v0) = tail (W (Proc.devRef .tc main_call0_v43)) := by
  after_results
  rfl

/-- The result buffer after the lines that follow the region. -/
theorem result_eq (c : Dev nD) :
    Pipeline.afterTail₀ cfgs (dats m) 0 (V0 m) [hostOps1] c main_v0 = tail (G m c) := by
  unfold Pipeline.afterTail₀
  show StableHlo.after hostOps1 _ (Proc.devRef .tc main_v0) = _
  rw [tail_of]
  exact congrArg tail ((Pipeline.withArrays_arr spec0 launch0.win.arr_inj c _ _ 9).trans (final m c))

/-- The run, read: the result buffer at `tail (G m c)`, the arguments unchanged. -/
theorem run : θ_run defs (onTc (τ := τ) (main (F := Ideal))) ⟨m, fun _ => 0, ρ⟩ fun r => ∀ c : Dev nD,
      r.2.mem ((c.tc : Thread nD τ).loc main_v0) = tail (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.ArrayValue

end
-- ==== Proof.BodyR.lean ====
/-
  One grid point of the reference kernel, read at an index: output channel `oc`, flat position `p`.

  The body keeps one scratch block of 64 x 4624. For branch L it holds two zero columns, the first convolution
  (columns 2 to 4353), two zero columns; five loads of 4352 columns at column offsets 0 to 4 are the five taps of the
  second convolution along the row. It is then overwritten whole with branch R's first convolution, and five loads at
  column offsets 0, 68, 136, 204, 272 are the five taps of the second convolution down the rows. Each convolution is
  one product of a 64 x 320 weight block with the stack of its five shifted operands: row `k` of the stack is row
  `k % 64` of operand `k / 64`.
-/
import proofs.«172729_g2000302748725897_pallasbulk_1061_2_alg».proof.Proof.Gen.ReferenceIdeal.Frame
import proofs.«172729_g2000302748725897_pallasbulk_1061_2_alg».proof.Proof.Spec
import proofs.«172729_g2000302748725897_pallasbulk_1061_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.BodyValue

open Idealize.ShloMosaic Idealize.ShloMosaic.TcCoe Idealize.ShloMosaic.ValueIdx Cert.ReferenceIdeal Cert.ReferenceIdeal.Gen
open Idealize.ShloMosaic.Tactic

/-- Of five things, the one a tap names. -/
def sel5 {β : Type} (a0 a1 a2 a3 a4 : β) (t : ℕ) : β :=
  if t = 0 then a0 else if t = 1 then a1 else if t = 2 then a2 else if t = 3 then a3 else a4

/-- Five blocks of 64 rows stacked: row `k` of the stack is row `k % 64` of block `k / 64`. -/
theorem concat5_apply {α : Type} {N : ℕ} (v0 v1 v2 v3 v4 : (⟨2, ![64, N]⟩ : Shape).Idx → α)
    (h : Shape.Concatenates (([⟨⟨2, ![64, N]⟩, v0⟩, ⟨⟨2, ![64, N]⟩, v1⟩, ⟨⟨2, ![64, N]⟩, v2⟩, ⟨⟨2, ![64, N]⟩, v3⟩, ⟨⟨2, ![64, N]⟩, v4⟩] : List ((s : Shape) × (s.Idx → α))).map (·.1)) ⟨2, ![320, N]⟩ 0)
    (k : Fin 320) (p : Fin N) :
    concatenate ⟨2, ![320, N]⟩ 0 [⟨⟨2, ![64, N]⟩, v0⟩, ⟨⟨2, ![64, N]⟩, v1⟩, ⟨⟨2, ![64, N]⟩, v2⟩, ⟨⟨2, ![64, N]⟩, v3⟩, ⟨⟨2, ![64, N]⟩, v4⟩] h (ix2 k p)
      = sel5 v0 v1 v2 v3 v4 (SepConv.tap k) (ix2 (SepConv.chan k) p) := by
  have hk := k.isLt
  have hi : ∀ b : Fin 2, b.cast (rfl : (2 : ℕ) = 2) ≠ (0 : Fin 2) → ((ix2 (SepConv.chan k) p : (⟨2, ![64, N]⟩ : Shape).Idx) b).val = ((ix2 k p : (⟨2, ![320, N]⟩ : Shape).Idx) (b.cast rfl)).val := fun b hb => by
    match b with
    | ⟨0, _⟩ => exact absurd rfl hb
    | ⟨1, _⟩ => rfl
  unfold sel5
  by_cases h0 : SepConv.tap k = 0
  · rw [if_pos h0]
    exact concatenate_apply_piece 0 _ h (ix2 k p) 0 (by show 0 < 5; omega) _ v0 rfl rfl 0 rfl (ix2 (SepConv.chan k) p) hi
      (by show 0 + k.val % 64 = k.val; unfold SepConv.tap at h0; omega)
  rw [if_neg h0]
  by_cases h1 : SepConv.tap k = 1
  · rw [if_pos h1]
    exact concatenate_apply_piece 0 _ h (ix2 k p) 1 (by show 1 < 5; omega) _ v1 rfl rfl 64 rfl (ix2 (SepConv.chan k) p) hi
      (by show 64 + k.val % 64 = k.val; unfold SepConv.tap at h1; omega)
  rw [if_neg h1]
  by_cases h2 : SepConv.tap k = 2
  · rw [if_pos h2]
    exact concatenate_apply_piece 0 _ h (ix2 k p) 2 (by show 2 < 5; omega) _ v2 rfl rfl 128 rfl (ix2 (SepConv.chan k) p) hi
      (by show 128 + k.val % 64 = k.val; unfold SepConv.tap at h2; omega)
  rw [if_neg h2]
  by_cases h3 : SepConv.tap k = 3
  · rw [if_pos h3]
    exact concatenate_apply_piece 0 _ h (ix2 k p) 3 (by show 3 < 5; omega) _ v3 rfl rfl 192 rfl (ix2 (SepConv.chan k) p) hi
      (by show 192 + k.val % 64 = k.val; unfold SepConv.tap at h3; omega)
  rw [if_neg h3]
  exact concatenate_apply_piece 0 _ h (ix2 k p) 4 (by show 4 < 5; omega) _ v4 rfl rfl 256 rfl (ix2 (SepConv.chan k) p) hi
    (by show 256 + k.val % 64 = k.val; unfold SepConv.tap at h0 h1 h2 h3; omega)

theorem sel5_apply {β γ : Type} (f0 f1 f2 f3 f4 : β → γ) (t : ℕ) (x : β) :
    sel5 f0 f1 f2 f3 f4 t x = sel5 (f0 x) (f1 x) (f2 x) (f3 x) (f4 x) t := by
  unfold sel5; split_ifs <;> rfl

/-- The one of five a tap names, when each of the five is the value the tap's number gives. -/
theorem sel5_of {β : Type} {a0 a1 a2 a3 a4 b : β} {t : ℕ} (ht : t ≤ 4) (h0 : t = 0 → a0 = b) (h1 : t = 1 → a1 = b)
    (h2 : t = 2 → a2 = b) (h3 : t = 3 → a3 = b) (h4 : t = 4 → a4 = b) : sel5 a0 a1 a2 a3 a4 t = b := by
  unfold sel5
  split_ifs with e0 e1 e2 e3
  · exact h0 e0
  · exact h1 e1
  · exact h2 e2
  · exact h3 e3
  · exact h4 (by omega)

/-- The second convolution of branch L, as the body spells it: one product of the weights with the stack of the five
    shifted loads. -/
theorem pay6_apply (a0 a1 a2 a3 a4 : Vec Ideal S64x4352 .f32) (w : Vec Ideal S64x320 .f32) (r : Fin 64) (p : Fin 4352) :
    k0_pay6 (F := Ideal) a0 a1 a2 a3 a4 w (ix2 r p)
      = ∑ k : Fin 320, w (ix2 r k) * sel5 (a0 (ix2 (SepConv.chan k) p)) (a1 (ix2 (SepConv.chan k) p)) (a2 (ix2 (SepConv.chan k) p))
          (a3 (ix2 (SepConv.chan k) p)) (a4 (ix2 (SepConv.chan k) p)) (SepConv.tap k) := by
  unfold k0_pay6
  refine (SepConv.matmul2_apply dot_S64x320_S320x4352_S64x4352_1_0_0_1_n_n rfl rfl rfl rfl rfl rfl none _ _ r p).trans ?_
  refine Finset.sum_congr rfl fun k _ => ?_
  rw [shapeCast_self]
  exact congrArg _ ((concat5_apply a0 a1 a2 a3 a4 _ k p).trans (sel5_apply _ _ _ _ _ _ _))

/-- The first convolution of branch L with its bias plane, as the body spells it. -/
theorem pay4_apply (v0 v2 v4 v6 v8 : Vec Ideal S1x64x4352 .f32) (w : Vec Ideal S64x320 .f32) (b : Vec Ideal S64x4352 .f32)
    (r : Fin 64) (p : Fin 4352) :
    k0_pay4 (F := Ideal) v0 v2 v4 v6 v8 w b (ix2 r p)
      = (∑ k : Fin 320, w (ix2 r k) * sel5 (v0 (ix3 0 (SepConv.chan k) p)) (v2 (ix3 0 (SepConv.chan k) p)) (v4 (ix3 0 (SepConv.chan k) p))
          (v6 (ix3 0 (SepConv.chan k) p)) (v8 (ix3 0 (SepConv.chan k) p)) (SepConv.tap k)) + b (ix2 r p) := by
  unfold k0_pay4
  rw [shapeCast_self, addf_apply, shapeCast_self, shapeCast_self]
  congr 1
  refine (SepConv.matmul2_apply dot_S64x320_S320x4352_S64x4352_1_0_0_1_n_n rfl rfl rfl rfl rfl rfl none _ _ r p).trans ?_
  refine Finset.sum_congr rfl fun k _ => ?_
  refine congrArg _ ((concat5_apply _ _ _ _ _ _ k p).trans ((sel5_apply _ _ _ _ _ _ _).trans ?_))
  rw [shapeCast_1ab_ab_apply, shapeCast_1ab_ab_apply, shapeCast_1ab_ab_apply, shapeCast_1ab_ab_apply, shapeCast_1ab_ab_apply]

/-- The first convolution of branch R with its bias plane, as the body spells it. -/
theorem pay7_apply (v0 v2 v4 v6 v8 : Vec Ideal S1x64x4624 .f32) (w : Vec Ideal S64x320 .f32) (b : Vec Ideal S64x4624 .f32)
    (r : Fin 64) (q : Fin 4624) :
    k0_pay7 (F := Ideal) v0 v2 v4 v6 v8 w b (ix2 r q)
      = (∑ k : Fin 320, w (ix2 r k) * sel5 (v0 (ix3 0 (SepConv.chan k) q)) (v2 (ix3 0 (SepConv.chan k) q)) (v4 (ix3 0 (SepConv.chan k) q))
          (v6 (ix3 0 (SepConv.chan k) q)) (v8 (ix3 0 (SepConv.chan k) q)) (SepConv.tap k)) + b (ix2 r q) := by
  unfold k0_pay7
  rw [addf_apply, shapeCast_self, shapeCast_self]
  congr 1
  refine (SepConv.matmul2_apply dot_S64x320_S320x4624_S64x4624_1_0_0_1_n_n rfl rfl rfl rfl rfl rfl none _ _ r q).trans ?_
  refine Finset.sum_congr rfl fun k _ => ?_
  refine congrArg _ ((concat5_apply _ _ _ _ _ _ k q).trans ((sel5_apply _ _ _ _ _ _ _).trans ?_))
  rw [shapeCast_1ab_ab_apply, shapeCast_1ab_ab_apply, shapeCast_1ab_ab_apply, shapeCast_1ab_ab_apply, shapeCast_1ab_ab_apply]

/-- The two zero columns the scratch is edged with. -/
theorem pay3_apply (j : S64x2.Idx) : k0_pay3 (F := Ideal) j = 0 := by
  unfold k0_pay3
  rw [shapeCast_self]
  exact Ideal.ofBits_zero_f32

theorem pay5_apply (j : S64x2.Idx) : k0_pay5 (F := Ideal) j = 0 := by
  unfold k0_pay5
  rw [shapeCast_self]
  exact Ideal.ofBits_zero_f32

/-- A column of 64 biases spread over the positions of a row. -/
theorem bcol_apply {α : Type} {N : ℕ} (v : (⟨2, ![64, 1]⟩ : Shape).Idx → α) (h : (⟨2, ![64, 1]⟩ : Shape).Broadcasts ⟨2, ![64, N]⟩)
    (r : Fin 64) (p : Fin N) : broadcastTo ⟨2, ![64, N]⟩ v h (ix2 r p) = v (ix2 r (0 : Fin 1)) := by
  refine broadcastTo_apply v h (ix2 r p) (ix2 r (0 : Fin 1)) fun ax => ?_
  match ax with
  | ⟨0, _⟩ => rfl
  | ⟨1, _⟩ => rfl

/-- The rectifier over a whole block, read at an index. -/
theorem leaky_vec (v : FVec Ideal S64x4352 .f32) (i : S64x4352.Idx) :
    select (cmpf .oge v (broadcast S64x4352 (Scalar.ofBits (F := Ideal) .f32 0x00000000#32))) v
      (mulf (broadcast S64x4352 (Scalar.ofBits (F := Ideal) .f32 0x3DCCCCCD#32)) v) i = SepConv.leaky (v i) := rfl

/-- The output block, as the body spells it: the second convolution of branch R added to that of branch L, the bias
    column, the rectifier. -/
theorem pay2_apply (v36 : FVec Ideal S64x4352 .f32) (b0 b1 b2 b3 b4 : Vec Ideal S64x4352 .f32) (w : Vec Ideal S64x320 .f32)
    (bc : Vec Ideal S64x1 .f32) (oc : Fin 64) (p : Fin 4352) :
    k0_pay2 (F := Ideal) v36 b0 b1 b2 b3 b4 w bc (ix3 0 oc p)
      = SepConv.leaky ((v36 (ix2 oc p) + ∑ k : Fin 320, w (ix2 oc k) * sel5 (b0 (ix2 (SepConv.chan k) p)) (b1 (ix2 (SepConv.chan k) p))
          (b2 (ix2 (SepConv.chan k) p)) (b3 (ix2 (SepConv.chan k) p)) (b4 (ix2 (SepConv.chan k) p)) (SepConv.tap k)) + bc (ix2 oc 0)) := by
  unfold k0_pay2
  rw [shapeCast_ab_1ab_apply, leaky_vec]
  congr 1
  rw [addf_apply, addf_apply, bcol_apply, shapeCast_self, shapeCast_self]
  congr 2
  refine (SepConv.matmul2_apply dot_S64x320_S320x4352_S64x4352_1_0_0_1_n_n rfl rfl rfl rfl rfl rfl none _ _ oc p).trans ?_
  refine Finset.sum_congr rfl fun k _ => ?_
  exact congrArg _ ((concat5_apply b0 b1 b2 b3 b4 _ k p).trans (sel5_apply _ _ _ _ _ _ _))

/-- A load of the image block through a window of its flat axis: position `p` of the window is position `o + p`. -/
theorem ld3_apply {n N : ℕ} (X : Vec Ideal ⟨3, ![1, 64, n]⟩ .f32) (o : ℕ)
    (inb : ∀ a, (![0, 0, o] : Fin 3 → ℕ) a + (⟨3, ![1, 64, N]⟩ : Shape).size a ≤ (⟨3, ![1, 64, n]⟩ : Shape).size a)
    (ch : Fin 64) (p : Fin N) (hp : o + p.val < n) :
    View.ld (Val := Elt Ideal) X (Rect.unit ![0, 0, o] (⟨3, ![1, 64, N]⟩ : Shape).size inb) (ix3 0 ch p) = X (ix3 0 ch ⟨o + p.val, hp⟩) := by
  show X _ = X _
  congr 1
  funext a
  match a with
  | ⟨0, _⟩ => exact Fin.ext (by show 0 + 1 * 0 = 0; rfl)
  | ⟨1, _⟩ => exact Fin.ext (by show 0 + 1 * ch.val = ch.val; omega)
  | ⟨2, _⟩ => exact Fin.ext (by show o + 1 * p.val = o + p.val; omega)

/-- A window of the scratch's columns: column `q` of the window is column `o + q`. -/
theorem emb2_apply {N : ℕ} (o : ℕ) (inb : ∀ a, (![0, o] : Fin 2 → ℕ) a + (⟨2, ![64, N]⟩ : Shape).size a ≤ S64x4624.size a)
    (r : Fin 64) (q : Fin N) (h : o + q.val < 4624) :
    (Rect.unit (s := S64x4624) ![0, o] (⟨2, ![64, N]⟩ : Shape).size inb).emb (ix2 r q) = ix2 r ⟨o + q.val, h⟩ := by
  funext a
  match a with
  | ⟨0, _⟩ => exact Fin.ext (by show 0 + 1 * r.val = r.val; omega)
  | ⟨1, _⟩ => exact Fin.ext (by show o + 1 * q.val = o + q.val; omega)

/-- The scratch after branch L's first convolution is stored between its two pairs of zero columns, read at a column
    below 4356: zero, the convolution two columns to the left, zero. -/
theorem scratchL_apply (P4 : FVec Ideal S64x4352 .f32) (r : Fin 64) (j : Fin 4624) (hj : j.val < 4356) :
    View.canon (Val := Elt Ideal) (s := S64x4624) (e := .f32)
      [⟨Rect.unit ![0, 4354] S64x2.size inb_S64x4624_S64x2_0_4354, k0_pay5 (F := Ideal)⟩,
       ⟨Rect.unit ![0, 2] S64x4352.size inb_S64x4624_S64x4352_0_2, P4⟩,
       ⟨Rect.unit ![0, 0] S64x2.size inb_S64x4624_S64x2_0_0, k0_pay3 (F := Ideal)⟩] (ix2 r j)
      = if h2 : j.val < 2 then 0 else if h : j.val < 4354 then P4 (ix2 r ⟨j.val - 2, by omega⟩) else 0 := by
  by_cases h2 : j.val < 2
  · rw [dif_pos h2,
      View.canon_cons_of_not_mem _ _ (by
        rw [Rect.mem_set_unit]; intro hm; have h := (hm 1).1; change 4354 ≤ j.val at h; omega),
      View.canon_cons_of_not_mem _ _ (by
        rw [Rect.mem_set_unit]; intro hm; have h := (hm 1).1; change 2 ≤ j.val at h; omega)]
    have e := emb2_apply (N := 2) 0 inb_S64x4624_S64x2_0_0 r ⟨j.val, h2⟩ (by show 0 + j.val < 4624; omega)
    have e' : (ix2 r j : S64x4624.Idx) = ix2 r ⟨0 + j.val, by omega⟩ :=
      congrArg (fun q : Fin 4624 => (ix2 r q : S64x4624.Idx)) (Fin.ext (by show j.val = 0 + j.val; omega))
    rw [e', ← e, View.canon_cons_emb, pay3_apply]
  · rw [dif_neg h2]
    by_cases h : j.val < 4354
    · rw [dif_pos h,
        View.canon_cons_of_not_mem _ _ (by
          rw [Rect.mem_set_unit]; intro hm; have h := (hm 1).1; change 4354 ≤ j.val at h; omega)]
      have e := emb2_apply (N := 4352) 2 inb_S64x4624_S64x4352_0_2 r ⟨j.val - 2, by omega⟩ (by show 2 + (j.val - 2) < 4624; omega)
      have e' : (ix2 r j : S64x4624.Idx) = ix2 r ⟨2 + (j.val - 2), by omega⟩ :=
        congrArg (fun q : Fin 4624 => (ix2 r q : S64x4624.Idx)) (Fin.ext (by show j.val = 2 + (j.val - 2); omega))
      rw [e', ← e, View.canon_cons_emb]
    · rw [dif_neg h]
      have e := emb2_apply (N := 2) 4354 inb_S64x4624_S64x2_0_4354 r ⟨j.val - 4354, by omega⟩ (by show 4354 + (j.val - 4354) < 4624; omega)
      have e' : (ix2 r j : S64x4624.Idx) = ix2 r ⟨4354 + (j.val - 4354), by omega⟩ :=
        congrArg (fun q : Fin 4624 => (ix2 r q : S64x4624.Idx)) (Fin.ext (by show j.val = 4354 + (j.val - 4354); omega))
      rw [e', ← e, View.canon_cons_emb, pay5_apply]

theorem hz2 : (![0, 0] : Fin 2 → ℕ) = fun _ => 0 := funext fun a => by fin_cases a <;> rfl
theorem hz3 : (![0, 0, 0] : Fin 3 → ℕ) = fun _ => 0 := funext fun a => by fin_cases a <;> rfl

/-- The one of five values of `f` at shifted positions a tap names, when the five shifts are what the tap's number gives. -/
theorem sel5_fin {β : Type} {n : ℕ} (f : Fin n → β) (o0 o1 o2 o3 o4 x t o : ℕ) (ht : t ≤ 4)
    (e0 : t = 0 → o0 = o) (e1 : t = 1 → o1 = o) (e2 : t = 2 → o2 = o) (e3 : t = 3 → o3 = o) (e4 : t = 4 → o4 = o)
    (h0 : o0 + x < n) (h1 : o1 + x < n) (h2 : o2 + x < n) (h3 : o3 + x < n) (h4 : o4 + x < n) (h : o + x < n) :
    sel5 (f ⟨o0 + x, h0⟩) (f ⟨o1 + x, h1⟩) (f ⟨o2 + x, h2⟩) (f ⟨o3 + x, h3⟩) (f ⟨o4 + x, h4⟩) t = f ⟨o + x, h⟩ :=
  sel5_of ht (fun e => congrArg f (Fin.ext (by show o0 + x = o + x; rw [e0 e])))
    (fun e => congrArg f (Fin.ext (by show o1 + x = o + x; rw [e1 e])))
    (fun e => congrArg f (Fin.ext (by show o2 + x = o + x; rw [e2 e])))
    (fun e => congrArg f (Fin.ext (by show o3 + x = o + x; rw [e3 e])))
    (fun e => congrArg f (Fin.ext (by show o4 + x = o + x; rw [e4 e])))

/-- A block of 4352 columns with two zero columns before it and two after: what the second convolution of branch L
    slides over. -/
def padL (P4 : FVec Ideal S64x4352 .f32) (r : Fin 64) (j : Fin 4356) : EReal :=
  if h2 : j.val < 2 then 0 else if h : j.val < 4354 then P4 (ix2 r ⟨j.val - 2, by omega⟩) else 0

/-- The pieces the scratch holds once branch L's first convolution is stored between the zero columns (last first). -/
abbrev piecesL (P4 : FVec Ideal S64x4352 .f32) : List (View.Piece (Elt Ideal) S64x4624 .f32) :=
  [⟨Rect.unit ![0, 4354] S64x2.size inb_S64x4624_S64x2_0_4354, k0_pay5 (F := Ideal)⟩,
   ⟨Rect.unit ![0, 2] S64x4352.size inb_S64x4624_S64x4352_0_2, P4⟩,
   ⟨Rect.unit ![0, 0] S64x2.size inb_S64x4624_S64x2_0_0, k0_pay3 (F := Ideal)⟩]

/-- A load of 4352 columns of the scratch from column `o ≤ 4`, in its first use. -/
theorem readL_apply {sig : RefSig} {κ : Kind} {sp : Space} (v : View sig κ sp S64x4624 .f32) (P4 : FVec Ideal S64x4352 .f32) (o : ℕ) (ho : o ≤ 4)
    (inb : ∀ a, (![0, o] : Fin 2 → ℕ) a + S64x4352.size a ≤ S64x4624.size a) (r : Fin 64) (p : Fin 4352) :
    v.readCov (Val := Elt Ideal) (piecesL P4) (Rect.unit (s := S64x4624) ![0, o] S64x4352.size inb).toLoadRect (ix2 r p)
      = padL P4 r ⟨o + p.val, by have := p.isLt; omega⟩ := by
  rw [View.readCov_eq_canon']
  show View.canon _ ((Rect.unit (s := S64x4624) ![0, o] S64x4352.size inb).emb (ix2 r p)) = _
  rw [emb2_apply o inb r p (by have := p.isLt; omega), scratchL_apply P4 r _ (by show o + p.val < 4356; have := p.isLt; omega)]
  rfl

/-- A load of 4352 columns of the scratch from column `o`, in its second use: the last store covered it whole. -/
theorem readR_apply {sig : RefSig} {κ : Kind} {sp : Space} (v : View sig κ sp S64x4624 .f32) (P : FVec Ideal S64x4624 .f32)
    (L : List (View.Piece (Elt Ideal) S64x4624 .f32)) (o : ℕ)
    (inb : ∀ a, (![0, o] : Fin 2 → ℕ) a + S64x4352.size a ≤ S64x4624.size a) (r : Fin 64) (p : Fin 4352) (h : o + p.val < 4624) :
    v.readCov (Val := Elt Ideal) (⟨Rect.unit ![0, 0] S64x4624.size inb_S64x4624_S64x4624_0_0, P⟩ :: L)
        (Rect.unit (s := S64x4624) ![0, o] S64x4352.size inb).toLoadRect (ix2 r p)
      = P (ix2 r ⟨o + p.val, h⟩) := by
  rw [View.readCov_eq_canon', View.canon_cons_unit_zero hz2]
  show P ((Rect.unit (s := S64x4624) ![0, o] S64x4352.size inb).emb (ix2 r p)) = _
  rw [emb2_apply o inb r p h]

/-- Padding a block that is the specification's first convolution gives the specification's padded one. -/
theorem padL_eq (P4 : FVec Ideal S64x4352 .f32) (X : Fin 64 → Fin 4628 → EReal) (W : Fin 64 → Fin 320 → EReal) (P : Fin 64 → Fin 4352 → EReal)
    (h : ∀ r q, P4 (ix2 r q) = SepConv.yL X W P r q) (r : Fin 64) (j : Fin 4356) : padL P4 r j = SepConv.sL X W P r j := by
  unfold padL SepConv.sL
  split_ifs
  · rfl
  · exact h _ _
  · rfl

/-- The output payload over the scratch's two uses, for any first-convolution blocks: the scratch's first use gives the
    padded block of branch L at the taps' shifts by one, its second use the block of branch R at the taps' shifts by 68. -/
theorem core {sig : RefSig} {κ : Kind} {sp : Space} (v : View sig κ sp S64x4624 .f32) (P4 : FVec Ideal S64x4352 .f32)
    (P7 : FVec Ideal S64x4624 .f32) (w2l w2r : Vec Ideal S64x320 .f32) (bc : Vec Ideal S64x1 .f32) (oc : Fin 64) (p : Fin 4352) :
    k0_pay2 (F := Ideal)
      (k0_pay6
        (v.readCov (piecesL P4) (Rect.unit (s := S64x4624) ![0, 0] S64x4352.size inb_S64x4624_S64x4352_0_0).toLoadRect)
        (v.readCov (piecesL P4) (Rect.unit (s := S64x4624) ![0, 1] S64x4352.size inb_S64x4624_S64x4352_0_1).toLoadRect)
        (v.readCov (piecesL P4) (Rect.unit (s := S64x4624) ![0, 2] S64x4352.size inb_S64x4624_S64x4352_0_2).toLoadRect)
        (v.readCov (piecesL P4) (Rect.unit (s := S64x4624) ![0, 3] S64x4352.size inb_S64x4624_S64x4352_0_3).toLoadRect)
        (v.readCov (piecesL P4) (Rect.unit (s := S64x4624) ![0, 4] S64x4352.size inb_S64x4624_S64x4352_0_4).toLoadRect)
        w2l)
      (v.readCov (⟨Rect.unit ![0, 0] S64x4624.size inb_S64x4624_S64x4624_0_0, k0_pay1 P7⟩ :: piecesL P4) (Rect.unit (s := S64x4624) ![0, 0] S64x4352.size inb_S64x4624_S64x4352_0_0).toLoadRect)
      (v.readCov (⟨Rect.unit ![0, 0] S64x4624.size inb_S64x4624_S64x4624_0_0, k0_pay1 P7⟩ :: piecesL P4) (Rect.unit (s := S64x4624) ![0, 68] S64x4352.size inb_S64x4624_S64x4352_0_68).toLoadRect)
      (v.readCov (⟨Rect.unit ![0, 0] S64x4624.size inb_S64x4624_S64x4624_0_0, k0_pay1 P7⟩ :: piecesL P4) (Rect.unit (s := S64x4624) ![0, 136] S64x4352.size inb_S64x4624_S64x4352_0_136).toLoadRect)
      (v.readCov (⟨Rect.unit ![0, 0] S64x4624.size inb_S64x4624_S64x4624_0_0, k0_pay1 P7⟩ :: piecesL P4) (Rect.unit (s := S64x4624) ![0, 204] S64x4352.size inb_S64x4624_S64x4352_0_204).toLoadRect)
      (v.readCov (⟨Rect.unit ![0, 0] S64x4624.size inb_S64x4624_S64x4624_0_0, k0_pay1 P7⟩ :: piecesL P4) (Rect.unit (s := S64x4624) ![0, 272] S64x4352.size inb_S64x4624_S64x4352_0_272).toLoadRect)
      w2r bc (ix3 0 oc p)
    = SepConv.leaky (((∑ k : Fin 320, w2l (ix2 oc k) * padL P4 (SepConv.chan k) ⟨SepConv.tap k + p.val, by have := SepConv.tap_le k; have := p.isLt; omega⟩)
        + ∑ k : Fin 320, w2r (ix2 oc k) * P7 (ix2 (SepConv.chan k) ⟨SepConv.tap k * 68 + p.val, by have := SepConv.tap_le k; have := p.isLt; omega⟩))
        + bc (ix2 oc 0)) := by
  have hp := p.isLt
  rw [pay2_apply, pay6_apply]
  refine congrArg SepConv.leaky (congrArg (· + bc (ix2 oc 0)) (congrArg₂ (· + ·) ?_ ?_))
  · refine Finset.sum_congr rfl fun k _ => congrArg _ ?_
    rw [readL_apply v P4 0 (by omega), readL_apply v P4 1 (by omega), readL_apply v P4 2 (by omega),
      readL_apply v P4 3 (by omega), readL_apply v P4 4 (by omega)]
    exact sel5_fin (padL P4 (SepConv.chan k)) 0 1 2 3 4 p.val (SepConv.tap k) (SepConv.tap k) (SepConv.tap_le k)
      (fun e => e.symm) (fun e => e.symm) (fun e => e.symm) (fun e => e.symm) (fun e => e.symm) _ _ _ _ _ _
  · refine Finset.sum_congr rfl fun k _ => congrArg _ ?_
    have ht := SepConv.tap_le k
    rw [readR_apply v _ _ 0 _ _ p (by omega), readR_apply v _ _ 68 _ _ p (by omega), readR_apply v _ _ 136 _ _ p (by omega),
      readR_apply v _ _ 204 _ _ p (by omega), readR_apply v _ _ 272 _ _ p (by omega)]
    unfold k0_pay1
    rw [shapeCast_self]
    exact sel5_fin (fun j => P7 (ix2 (SepConv.chan k) j)) 0 68 136 204 272 p.val (SepConv.tap k) (SepConv.tap k * 68) ht
      (fun e => by omega) (fun e => by omega) (fun e => by omega) (fun e => by omega) (fun e => by omega) _ _ _ _ _ _

/-- The first convolution of branch L over the five shifted loads of the image block is the specification's. -/
theorem yL_eq (x0 : Vec Ideal S1x64x4628 .f32) (x1 : Vec Ideal S64x320 .f32) (x5 : Vec Ideal S64x4352 .f32) (r : Fin 64) (q : Fin 4352) :
    k0_pay4 (F := Ideal) (View.ld (Val := Elt Ideal) x0 (Rect.unit (s := S1x64x4628) ![0, 0, 2] S1x64x4352.size inb_S1x64x4628_S1x64x4352_0_0_2)) (View.ld (Val := Elt Ideal) x0 (Rect.unit (s := S1x64x4628) ![0, 0, 70] S1x64x4352.size inb_S1x64x4628_S1x64x4352_0_0_70))
      (View.ld (Val := Elt Ideal) x0 (Rect.unit (s := S1x64x4628) ![0, 0, 138] S1x64x4352.size inb_S1x64x4628_S1x64x4352_0_0_138)) (View.ld (Val := Elt Ideal) x0 (Rect.unit (s := S1x64x4628) ![0, 0, 206] S1x64x4352.size inb_S1x64x4628_S1x64x4352_0_0_206))
      (View.ld (Val := Elt Ideal) x0 (Rect.unit (s := S1x64x4628) ![0, 0, 274] S1x64x4352.size inb_S1x64x4628_S1x64x4352_0_0_274)) x1 x5 (ix2 r q)
    = SepConv.yL (fun ch j => x0 (ix3 0 ch j)) (fun r k => x1 (ix2 r k)) (fun r q => x5 (ix2 r q)) r q := by
  have hq := q.isLt
  rw [pay4_apply]
  unfold SepConv.yL
  refine congrArg (· + x5 (ix2 r q)) (Finset.sum_congr rfl fun k _ => congrArg _ ?_)
  have ht := SepConv.tap_le k
  rw [ld3_apply x0 2 _ _ q (by omega), ld3_apply x0 70 _ _ q (by omega), ld3_apply x0 138 _ _ q (by omega),
    ld3_apply x0 206 _ _ q (by omega), ld3_apply x0 274 _ _ q (by omega)]
  exact sel5_fin (fun j => x0 (ix3 0 (SepConv.chan k) j)) 2 70 138 206 274 q.val (SepConv.tap k) (2 + SepConv.tap k * 68) ht
    (fun e => by omega) (fun e => by omega) (fun e => by omega) (fun e => by omega) (fun e => by omega) _ _ _ _ _ _

/-- The first convolution of branch R over the five shifted loads of the image block is the specification's. -/
theorem yR_eq (x0 : Vec Ideal S1x64x4628 .f32) (x3 : Vec Ideal S64x320 .f32) (x6 : Vec Ideal S64x4624 .f32) (r : Fin 64) (q : Fin 4624) :
    k0_pay7 (F := Ideal) (View.ld (Val := Elt Ideal) x0 (Rect.unit (s := S1x64x4628) ![0, 0, 0] S1x64x4624.size inb_S1x64x4628_S1x64x4624_0_0_0)) (View.ld (Val := Elt Ideal) x0 (Rect.unit (s := S1x64x4628) ![0, 0, 1] S1x64x4624.size inb_S1x64x4628_S1x64x4624_0_0_1))
      (View.ld (Val := Elt Ideal) x0 (Rect.unit (s := S1x64x4628) ![0, 0, 2] S1x64x4624.size inb_S1x64x4628_S1x64x4624_0_0_2)) (View.ld (Val := Elt Ideal) x0 (Rect.unit (s := S1x64x4628) ![0, 0, 3] S1x64x4624.size inb_S1x64x4628_S1x64x4624_0_0_3))
      (View.ld (Val := Elt Ideal) x0 (Rect.unit (s := S1x64x4628) ![0, 0, 4] S1x64x4624.size inb_S1x64x4628_S1x64x4624_0_0_4)) x3 x6 (ix2 r q)
    = SepConv.yR (fun ch j => x0 (ix3 0 ch j)) (fun r k => x3 (ix2 r k)) (fun r q => x6 (ix2 r q)) r q := by
  have hq := q.isLt
  rw [pay7_apply]
  unfold SepConv.yR
  refine congrArg (· + x6 (ix2 r q)) (Finset.sum_congr rfl fun k _ => congrArg _ ?_)
  have ht := SepConv.tap_le k
  rw [ld3_apply x0 0 _ _ q (by omega), ld3_apply x0 1 _ _ q (by omega), ld3_apply x0 2 _ _ q (by omega),
    ld3_apply x0 3 _ _ q (by omega), ld3_apply x0 4 _ _ q (by omega)]
  exact sel5_fin (fun j => x0 (ix3 0 (SepConv.chan k) j)) 0 1 2 3 4 q.val (SepConv.tap k) (SepConv.tap k) ht
    (fun e => e.symm) (fun e => e.symm) (fun e => e.symm) (fun e => e.symm) (fun e => e.symm) _ _ _ _ _ _

/-- What the body leaves in its output block, at `(0, oc, p)`: the two-branch separable convolution of the staged
    blocks, the two second products separate and the bias planes staged whole. Window order: the image, then the
    weights of branch L's first and second convolutions, then branch R's first and second, then the two bias planes,
    then the bias column. -/
theorem out_apply (c : Dev nD) (i : grid0.Coords) (arg1 : Memref sig .tc .vmem S1x64x4628 .f32) (harg1 : arg1.IsWhole) (arg2 : Memref sig .tc .vmem S64x320 .f32) (harg2 : arg2.IsWhole) (arg3 : Memref sig .tc .vmem S64x320 .f32) (harg3 : arg3.IsWhole) (arg4 : Memref sig .tc .vmem S64x320 .f32) (harg4 : arg4.IsWhole) (arg5 : Memref sig .tc .vmem S64x320 .f32) (harg5 : arg5.IsWhole) (arg6 : Memref sig .tc .vmem S64x4352 .f32) (harg6 : arg6.IsWhole) (arg7 : Memref sig .tc .vmem S64x4624 .f32) (harg7 : arg7.IsWhole) (arg8 : Memref sig .tc .vmem S64x1 .f32) (harg8 : arg8.IsWhole) (arg9 : Memref sig .tc .vmem S1x64x4352 .f32) (harg9 : arg9.IsWhole) (arg10 : Memref sig .tc .vmem S64x4624 .f32) (harg10 : arg10.IsWhole)
    (x0 : Vec Ideal S1x64x4628 .f32) (x1 : Vec Ideal S64x320 .f32) (x2 : Vec Ideal S64x320 .f32) (x3 : Vec Ideal S64x320 .f32) (x4 : Vec Ideal S64x320 .f32) (x5 : Vec Ideal S64x4352 .f32) (x6 : Vec Ideal S64x4624 .f32) (x7 : Vec Ideal S64x1 .f32)
    (oc : Fin 64) (p : Fin 4352) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix3 0 oc p)
      = SepConv.out (fun ch j => x0 (ix3 0 ch j)) (fun r k => x1 (ix2 r k)) (fun r k => x3 (ix2 r k))
          (fun r k => x2 (ix2 r k)) (fun r k => x4 (ix2 r k))
          (fun r q => x5 (ix2 r q)) (fun r q => x6 (ix2 r q)) (fun r => x7 (ix2 r 0)) oc p := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S64x320) hz2, View.ld_unit_zero (S := S64x4352) hz2, View.ld_unit_zero (S := S64x4624) hz2,
    View.ld_unit_zero (S := S64x1) hz2]
  refine (core arg10.view _ _ x2 x4 x7 oc p).trans ?_
  unfold SepConv.out SepConv.acc
  beta_reduce
  refine congrArg SepConv.leaky (congrArg (· + x7 (ix2 oc 0)) (congrArg₂ (· + ·) ?_ ?_))
  · exact Finset.sum_congr rfl fun k _ => congrArg _ (padL_eq _ _ _ _ (fun r q => yL_eq x0 x1 x5 r q) _ _)
  · exact Finset.sum_congr rfl fun k _ => congrArg _ (yR_eq x0 x3 x6 _ _)

end Cert.ReferenceIdeal.BodyValue

end
-- ==== Proof.ArrayR.lean ====
/-
  From grid points to the whole result of the reference's program.

  The reference's pallas call runs once per image n < 64. Its image window stages rows (n, *, *) of the flat padded
  input; the four weight matrices, the two bias planes and the bias column are staged whole at every point; its output
  window writes back rows (n, *, *) of a 64 x 64 x 4352 array. So that array ends holding, at (n, oc, p), the two-branch
  convolution `SepConv.out` of image n, and the program's result is that array reshaped to 64 x 64 x 64 x 68 with the
  two padding columns at either end of each row of 68 cut off.
-/
import proofs.«172729_g2000302748725897_pallasbulk_1061_2_alg».proof.Proof.Gen.ReferenceIdeal.Frame
import proofs.«172729_g2000302748725897_pallasbulk_1061_2_alg».proof.Proof.Spec
import proofs.«172729_g2000302748725897_pallasbulk_1061_2_alg».proof.Proof.BodyR
import Idealize.ShloMosaic.Lib.Pipeline.Value
import Idealize.ShloMosaic.Lib.StableHlo.Run
import Idealize.ShloMosaic.Lib.ValueIdx

set_option maxRecDepth 16384

noncomputable section

namespace Cert.ReferenceIdeal.ArrayValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, at their literal types -/

abbrev aX (c : Dev nD) : S64x64x4628.Idx → EReal := V m c main_call0_v34
abbrev aWL1 (c : Dev nD) : S64x320.Idx → EReal := V m c main_call0_v2
abbrev aWL2 (c : Dev nD) : S64x320.Idx → EReal := V m c main_call0_v5
abbrev aWR1 (c : Dev nD) : S64x320.Idx → EReal := V m c main_call0_v8
abbrev aWR2 (c : Dev nD) : S64x320.Idx → EReal := V m c main_call0_v11
abbrev aPL (c : Dev nD) : S64x4352.Idx → EReal := V m c main_call0_v25
abbrev aPR (c : Dev nD) : S64x4624.Idx → EReal := V m c main_call0_v29
abbrev aB2 (c : Dev nD) : S64x1.Idx → EReal := V m c main_call0_v31

/-- The pallas call's output array at image n, channel oc, flat position p: the convolution of image n. -/
def Gat (c : Dev nD) (n oc : Fin 64) (p : Fin 4352) : EReal :=
  SepConv.out (fun ch j => aX m c (ix3 n ch j)) (fun r k => aWL1 m c (ix2 r k)) (fun r k => aWR1 m c (ix2 r k))
    (fun r k => aWL2 m c (ix2 r k)) (fun r k => aWR2 m c (ix2 r k))
    (fun r q => aPL m c (ix2 r q)) (fun r q => aPR m c (ix2 r q)) (fun r => aB2 m c (ix2 r 0)) oc p

/-- The pallas call's output array as ONE function of the arrays the region finds. -/
def G (c : Dev nD) : S64x64x4352.Idx → EReal := fun i => Gat m c (i 0) (i 1) (i 2)

/-! ## The index maps, decided over the 64 points -/

/-- The image window and the output window move with the point along axis 0; every other window stays at block 0. -/
theorem idx_facts : ∀ t : Fin cfg0.N,
    (win0_0.index t (0 : Fin 3) = t.val ∧ win0_0.index t (1 : Fin 3) = 0 ∧ win0_0.index t (2 : Fin 3) = 0)
    ∧ (win0_8.index t (0 : Fin 3) = t.val ∧ win0_8.index t (1 : Fin 3) = 0 ∧ win0_8.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- A point is an image number. -/
abbrev img (t : Fin cfg0.N) : Fin 64 := ⟨t.val, by have h : cfg0.N = 64 := N_0; have := t.isLt; omega⟩

/-! ## What each input window's block is -/

/-- The image window's block at point t is image t of the flat padded input. -/
theorem blk0 (c : Dev nD) (t : Fin cfg0.N) (ch : Fin 64) (j : Fin 4628) :
    (iblk m c 0 t : S1x64x4628.Idx → EReal) (ix3 0 ch j) = aX m c (ix3 (img t) ch j) := by
  show aX m c (((cfg0.win 0).blk t).view.emb (ix3 0 ch j)) = _
  have e : ((cfg0.win 0).blk t).view.emb (ix3 0 ch j) = ix3 (img t) ch j := by
    obtain ⟨⟨e0, e1, e2⟩, -⟩ := idx_facts t
    funext a; apply Fin.ext
    match a with
    | ⟨0, _⟩ => show win0_0.index t (0 : Fin 3) * 1 + 1 * 0 = t.val; omega
    | ⟨1, _⟩ => show win0_0.index t (1 : Fin 3) * 64 + 1 * ch.val = ch.val; omega
    | ⟨2, _⟩ => show win0_0.index t (2 : Fin 3) * 4628 + 1 * j.val = j.val; omega
  rw [e]

theorem blk1 (c : Dev nD) (t : Fin cfg0.N) : (iblk m c 1 t : S64x320.Idx → EReal) = aWL1 m c := by
  funext y
  show aWL1 m c (((cfg0.win 1).blk t).view.emb y) = _
  have e : ((cfg0.win 1).blk t).view.emb y = y := by
    obtain ⟨-, -, ⟨e0, e1⟩, -⟩ := idx_facts t
    funext a; apply Fin.ext
    match a with
    | ⟨0, _⟩ => show win0_1.index t (0 : Fin 2) * 64 + 1 * (y 0).val = (y 0).val; omega
    | ⟨1, _⟩ => show win0_1.index t (1 : Fin 2) * 320 + 1 * (y 1).val = (y 1).val; omega
  rw [e]

theorem blk2 (c : Dev nD) (t : Fin cfg0.N) : (iblk m c 2 t : S64x320.Idx → EReal) = aWL2 m c := by
  funext y
  show aWL2 m c (((cfg0.win 2).blk t).view.emb y) = _
  have e : ((cfg0.win 2).blk t).view.emb y = y := by
    obtain ⟨-, -, -, ⟨e0, e1⟩, -⟩ := idx_facts t
    funext a; apply Fin.ext
    match a with
    | ⟨0, _⟩ => show win0_2.index t (0 : Fin 2) * 64 + 1 * (y 0).val = (y 0).val; omega
    | ⟨1, _⟩ => show win0_2.index t (1 : Fin 2) * 320 + 1 * (y 1).val = (y 1).val; omega
  rw [e]

theorem blk3 (c : Dev nD) (t : Fin cfg0.N) : (iblk m c 3 t : S64x320.Idx → EReal) = aWR1 m c := by
  funext y
  show aWR1 m c (((cfg0.win 3).blk t).view.emb y) = _
  have e : ((cfg0.win 3).blk t).view.emb y = y := by
    obtain ⟨-, -, -, -, ⟨e0, e1⟩, -⟩ := idx_facts t
    funext a; apply Fin.ext
    match a with
    | ⟨0, _⟩ => show win0_3.index t (0 : Fin 2) * 64 + 1 * (y 0).val = (y 0).val; omega
    | ⟨1, _⟩ => show win0_3.index t (1 : Fin 2) * 320 + 1 * (y 1).val = (y 1).val; omega
  rw [e]

theorem blk4 (c : Dev nD) (t : Fin cfg0.N) : (iblk m c 4 t : S64x320.Idx → EReal) = aWR2 m c := by
  funext y
  show aWR2 m c (((cfg0.win 4).blk t).view.emb y) = _
  have e : ((cfg0.win 4).blk t).view.emb y = y := by
    obtain ⟨-, -, -, -, -, ⟨e0, e1⟩, -⟩ := idx_facts t
    funext a; apply Fin.ext
    match a with
    | ⟨0, _⟩ => show win0_4.index t (0 : Fin 2) * 64 + 1 * (y 0).val = (y 0).val; omega
    | ⟨1, _⟩ => show win0_4.index t (1 : Fin 2) * 320 + 1 * (y 1).val = (y 1).val; omega
  rw [e]

theorem blk5 (c : Dev nD) (t : Fin cfg0.N) : (iblk m c 5 t : S64x4352.Idx → EReal) = aPL m c := by
  funext y
  show aPL m c (((cfg0.win 5).blk t).view.emb y) = _
  have e : ((cfg0.win 5).blk t).view.emb y = y := by
    obtain ⟨-, -, -, -, -, -, ⟨e0, e1⟩, -⟩ := idx_facts t
    funext a; apply Fin.ext
    match a with
    | ⟨0, _⟩ => show win0_5.index t (0 : Fin 2) * 64 + 1 * (y 0).val = (y 0).val; omega
    | ⟨1, _⟩ => show win0_5.index t (1 : Fin 2) * 4352 + 1 * (y 1).val = (y 1).val; omega
  rw [e]

theorem blk6 (c : Dev nD) (t : Fin cfg0.N) : (iblk m c 6 t : S64x4624.Idx → EReal) = aPR m c := by
  funext y
  show aPR m c (((cfg0.win 6).blk t).view.emb y) = _
  have e : ((cfg0.win 6).blk t).view.emb y = y := by
    obtain ⟨-, -, -, -, -, -, -, ⟨e0, e1⟩, -⟩ := idx_facts t
    funext a; apply Fin.ext
    match a with
    | ⟨0, _⟩ => show win0_6.index t (0 : Fin 2) * 64 + 1 * (y 0).val = (y 0).val; omega
    | ⟨1, _⟩ => show win0_6.index t (1 : Fin 2) * 4624 + 1 * (y 1).val = (y 1).val; omega
  rw [e]

theorem blk7 (c : Dev nD) (t : Fin cfg0.N) : (iblk m c 7 t : S64x1.Idx → EReal) = aB2 m c := by
  funext y
  show aB2 m c (((cfg0.win 7).blk t).view.emb y) = _
  have e : ((cfg0.win 7).blk t).view.emb y = y := by
    obtain ⟨-, -, -, -, -, -, -, -, e0, e1⟩ := idx_facts t
    funext a; apply Fin.ext
    match a with
    | ⟨0, _⟩ => show win0_7.index t (0 : Fin 2) * 64 + 1 * (y 0).val = (y 0).val; omega
    | ⟨1, _⟩ => show win0_7.index t (1 : Fin 2) * 1 + 1 * (y 1).val = (y 1).val; omega
  rw [e]

/-! ## What each point writes back, and the array after the region -/

/-- Where the output window's block at point t sits in the array: rows (t, *, *). -/
theorem emb8 (t : Fin cfg0.N) (oc : Fin 64) (p : Fin 4352) :
    ((cfg0.win 8).blk t).view.emb (ix3 0 oc p) = ix3 (img t) oc p := by
  obtain ⟨-, ⟨e0, e1, e2⟩, -⟩ := idx_facts t
  funext a; apply Fin.ext
  match a with
  | ⟨0, _⟩ => show win0_8.index t (0 : Fin 3) * 1 + 1 * 0 = t.val; omega
  | ⟨1, _⟩ => show win0_8.index t (1 : Fin 3) * 64 + 1 * oc.val = oc.val; omega
  | ⟨2, _⟩ => show win0_8.index t (2 : Fin 3) * 4352 + 1 * p.val = p.val; omega

/-- What the body leaves at point t, at (0, oc, p), is the array function at image t. -/
theorem outs_apply (c : Dev nD) (t : Fin cfg0.N) (oc : Fin 64) (p : Fin 4352) :
    (outsAt0 m c t : S1x64x4352.Idx → EReal) (ix3 0 oc p) = Gat m c (img t) oc p := by
  unfold outsAt0
  exact (BodyValue.out_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) (iblk m c 0 t) (iblk m c 1 t) (iblk m c 2 t) (iblk m c 3 t)
    (iblk m c 4 t) (iblk m c 5 t) (iblk m c 6 t) (iblk m c 7 t) oc p).trans
    (SepConv.out_congr (fun ch j => blk0 m c t ch j) (fun r k => congrFun (blk1 m c t) (ix2 r k))
      (fun r k => congrFun (blk3 m c t) (ix2 r k)) (fun r k => congrFun (blk2 m c t) (ix2 r k))
      (fun r k => congrFun (blk4 m c t) (ix2 r k))
      (fun r q => congrFun (blk5 m c t) (ix2 r q)) (fun r q => congrFun (blk6 m c t) (ix2 r q))
      (fun r => congrFun (blk7 m c t) (ix2 r 0)) oc p)

/-- What the body leaves at point t, as a function on the block. -/
theorem outs_eq (c : Dev nD) (t : Fin cfg0.N) :
    (outsAt0 m c t : S1x64x4352.Idx → EReal) = fun y => Gat m c (img t) (y 1) (y 2) := by
  funext y
  obtain ⟨a, oc, p, rfl⟩ : ∃ (a : Fin 1) (oc : Fin 64) (p : Fin 4352), y = ix3 a oc p := ⟨y 0, y 1, y 2, eq_ix3 y⟩
  obtain rfl : a = 0 := Subsingleton.elim _ _
  exact outs_apply m c t oc p

/-- The array function at an index given by its coordinates. -/
theorem G_ix3 (c : Dev nD) (n oc : Fin 64) (p : Fin 4352) : G m c (ix3 n oc p) = Gat m c n oc p := rfl

omit m in
/-- Block t of ANY function on the array, at (0, oc, p), is that function at (t, oc, p). -/
theorem read_blk8_apply (t : Fin cfg0.N) (f : S64x64x4352.Idx → EReal) (oc : Fin 64) (p : Fin 4352) :
    (((cfg0.win 8).blk t).view.read (Elt Ideal) f : S1x64x4352.Idx → EReal) (ix3 0 oc p) = f (ix3 (img t) oc p) := by
  show f (((cfg0.win 8).blk t).view.emb (ix3 0 oc p)) = _
  rw [emb8]

/-- Block t of `G`, as a function on the block. -/
theorem read_blk_G (c : Dev nD) (t : Fin cfg0.N) :
    (((cfg0.win 8).blk t).view.read (Elt Ideal) (G m c) : S1x64x4352.Idx → EReal) = fun y => Gat m c (img t) (y 1) (y 2) := by
  funext y
  obtain ⟨a, oc, p, rfl⟩ : ∃ (a : Fin 1) (oc : Fin 64) (p : Fin 4352), y = ix3 a oc p := ⟨y 0, y 1, y 2, eq_ix3 y⟩
  obtain rfl : a = 0 := Subsingleton.elim _ _
  exact (read_blk8_apply t (G m c) oc p).trans (G_ix3 m c (img t) oc p)

/-- WHAT POINT t WRITES BACK is block t of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  exact (outs_eq m c t).trans (read_blk_G m c t).symm

/-- An index of the array is in point t's block iff each coordinate is in the block's range on its axis. -/
theorem mem_blk8 (t : Fin cfg0.N) (i : S64x64x4352.Idx) :
    i ∈ ((cfg0.win 8).blk t).view.set ↔ ∀ a : Fin 3, win0_8.index t a * S1x64x4352.size a ≤ (i a).val ∧ (i a).val < win0_8.index t a * S1x64x4352.size a + S1x64x4352.size a := by
  show i ∈ ((View.whole main_call0_v35).slice (win0_8.rect t)).set ↔ _
  rw [View.set_slice_whole, Rect.mem_set_unit]
  exact Iff.rfl

/-- The blocks tile the array: index (n, oc, p) is in point n's block. -/
theorem cover8 (i : S64x64x4352.Idx) : ∃ t : Fin cfg0.N, (cfg0.win 8).flush t = true ∧ i ∈ ((cfg0.win 8).blk t).view.set := by
  have h0 : (i 0).val < 64 := (i 0).isLt
  have h1 : (i 1).val < 64 := (i 1).isLt
  have h2 : (i 2).val < 4352 := (i 2).isLt
  have hN : cfg0.N = 64 := N_0
  refine ⟨⟨(i 0).val, by omega⟩, flush0_8 _, ?_⟩
  rw [mem_blk8]
  obtain ⟨-, ⟨e0, e1, e2⟩, -⟩ := idx_facts ⟨(i 0).val, by omega⟩
  intro a
  match a with
  | ⟨0, _⟩ => exact ⟨by show win0_8.index _ (0 : Fin 3) * 1 ≤ (i 0).val; rw [e0]; exact Nat.le_of_eq (Nat.mul_one _), by show (i 0).val < win0_8.index _ (0 : Fin 3) * 1 + 1; rw [e0]; exact Nat.lt_succ_of_le (Nat.le_of_eq (Nat.mul_one _).symm)⟩
  | ⟨1, _⟩ => exact ⟨by show win0_8.index _ (1 : Fin 3) * 64 ≤ (i 1).val; rw [e1]; exact Nat.zero_le _, by show (i 1).val < win0_8.index _ (1 : Fin 3) * 64 + 64; rw [e1]; exact h1⟩
  | ⟨2, _⟩ => exact ⟨by show win0_8.index _ (2 : Fin 3) * 4352 ≤ (i 2).val; rw [e2]; exact Nat.zero_le _, by show (i 2).val < win0_8.index _ (2 : Fin 3) * 4352 + 4352; rw [e2]; exact h2⟩

/-- THE ARRAY after the region is `G`. -/
theorem final (c : Dev nD) : (dats m 0 c).arrAt 8 cfg0.N = G m c :=
  (dats m 0 c).arrAt_eq_of_cover 8 (G m c) (fun t _ => flushed_eq m c t) cover8

/-! ## The program's result -/

/-- The lines after the region: the array seen as 64 x 64 x 64 rows of 68, each row's 64 inner entries kept. -/
def tail (A : S64x64x4352.Idx → EReal) : S64x64x64x64.Idx → EReal :=
  extractStridedSlice S64x64x64x64 ![0, 0, 0, 2] (shapeCast S64x64x64x68 A shapeCasts_S64x64x4352_S64x64x64x68) slices_S64x64x64x68_S64x64x64x64_0_0_0_2

/-- The lines after the region, from ANY contents: the result buffer is the crop of what the output array's buffer
    holds (the contents are a variable, so nothing of what came before the region is looked at). -/
theorem tail_of (W : Valuation τ sig (Elt Ideal)) :
    StableHlo.after hostOps1 W (Proc.devRef .tc main_v0) = tail (W (Proc.devRef .tc main_call0_v35)) := by
  after_results
  rfl

/-- The result buffer after the lines that follow the region. -/
theorem result_eq (c : Dev nD) :
    Pipeline.afterTail₀ cfgs (dats m) 0 (V0 m) [hostOps1] c main_v0 = tail (G m c) := by
  unfold Pipeline.afterTail₀
  show StableHlo.after hostOps1 _ (Proc.devRef .tc main_v0) = _
  rw [tail_of]
  exact congrArg tail ((Pipeline.withArrays_arr spec0 launch0.win.arr_inj c _ _ 8).trans (final m c))

/-- The run, read: the result buffer at `tail (G m c)`, the arguments unchanged. -/
theorem run : θ_run defs (onTc (τ := τ) (main (F := Ideal))) ⟨m, fun _ => 0, ρ⟩ fun r => ∀ c : Dev nD,
      r.2.mem ((c.tc : Thread nD τ).loc main_v0) = tail (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.ReferenceIdeal.ArrayValue

end
-- ==== Proof.Agree.lean ====
/-
  The two programs are run from memories that hold the same nine argument arrays.
-/
import proofs.«172729_g2000302748725897_pallasbulk_1061_2_alg».proof.Proof.ArrayK
import proofs.«172729_g2000302748725897_pallasbulk_1061_2_alg».proof.Proof.ArrayR

noncomputable section

namespace Cert.Bridge

open Idealize.ShloMosaic Idealize.ShloMosaic.TcCoe Idealize.SL.Sem

/-- The reference's memory holds, at each argument, what the kernel's memory holds there. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

end Cert.Bridge

end
-- ==== Proof.MaskK.lean ====
/-
  The two bias masks the fused kernel's wrapper computes from an iota (a remainder, a floored quotient, two compares),
  read at an index.

  Both masks are built on the host from a position vector 0, 1, 2, … : the first takes each position's remainder by 68
  (the column inside a padded row of 68), the second its floored quotient by 68 (the padded row), each as it is spelled
  over signed 32-bit words: the truncating remainder / quotient followed by a correction that fires only where the
  operands' signs differ and the remainder is not zero. Every position is a small non-negative word and 68 is positive,
  so the truncating operations are the natural-number ones and the correction never fires. The mask is then the
  conjunction of "at least 2" and "below 66" converted to a number (the bit read unsigned: 0 or 1), laid as one row.
-/
import proofs.«172729_g2000302748725897_pallasbulk_1061_2_alg».proof.Proof.Gen.KernelIdeal.Frame
import proofs.«172729_g2000302748725897_pallasbulk_1061_2_alg».proof.Proof.Spec
import Idealize.ShloMosaic.Lib.ValueIdx
import Idealize.ShloMosaic.Lib.ValueLayout
import Idealize.ShloMosaic.Lib.StableHlo.Predicate

set_option maxRecDepth 16384

noncomputable section

namespace Cert.KernelIdeal.MaskValue

open Idealize.ShloMosaic Idealize.ShloMosaic.TcCoe Idealize.ShloMosaic.ValueIdx Cert.KernelIdeal Cert.KernelIdeal.Gen

variable (m : (ℓ : Loc nD τ sig) → Buf (Elt Ideal) ℓ)

/-! ## Words: a small non-negative word against the positive word 68 -/

/-- Dividing by 68 meets no corner: 68 is neither zero nor minus one. -/
theorem not_corner (w : BitVec 32) : ¬ IntOp.SDivCorner w 68#32 := by
  intro h; rcases h with h | ⟨_, h⟩ <;> exact absurd h (by decide)

/-- A word below 2³¹ has its sign bit clear. -/
theorem msb_small (n : ℕ) (hn : n < 2 ^ 31) : (BitVec.ofNat 32 n).msb = false :=
  BitVec.msb_eq_false_iff_two_mul_lt.mpr (by simp only [BitVec.toNat_ofNat]; omega)

/-- The truncating remainder of a small non-negative word by 68 is the natural-number remainder. -/
theorem remsi_68 (n : ℕ) (hn : n < 2 ^ 31) :
    IntOp.remsi .host (BitVec.ofNat 32 n) 68#32 = BitVec.ofNat 32 (n % 68) := by
  apply BitVec.eq_of_toNat_eq
  simp only [IntOp.remsi, if_neg (not_corner _), BitVec.srem_eq, msb_small n hn,
    show (68#32 : BitVec 32).msb = false from by decide, BitVec.umod_eq, BitVec.toNat_umod, BitVec.toNat_ofNat, Nat.reducePow, Nat.reduceMod]
  omega

/-- The truncating quotient of a small non-negative word by 68 is the natural-number quotient. -/
theorem divsi_68 (n : ℕ) (hn : n < 2 ^ 31) :
    IntOp.divsi .host (BitVec.ofNat 32 n) 68#32 = BitVec.ofNat 32 (n / 68) := by
  apply BitVec.eq_of_toNat_eq
  simp only [IntOp.divsi, if_neg (not_corner _), BitVec.sdiv_eq, msb_small n hn,
    show (68#32 : BitVec 32).msb = false from by decide, BitVec.udiv_eq, BitVec.toNat_udiv, BitVec.toNat_ofNat, Nat.reducePow, Nat.reduceMod]
  omega

/-- A bit that is not one is zero. -/
theorem bit_eq_zero {b : BitVec 1} (h : ¬ b = 1#1) : b = 0#1 := by
  rcases BitVec.eq_zero_or_eq_one b with h0 | h1
  · exact h0
  · exact absurd h1 h

/-- Two bits' conjunction is one exactly when both are. -/
theorem and_bits {a b : BitVec 1} : IntOp.andi a b = 1#1 ↔ a = 1#1 ∧ b = 1#1 := by revert a b; decide

/-- The value of a small word. -/
theorem toNat_small (n : ℕ) (hn : n < 2 ^ 31) : (BitVec.ofNat 32 n).toNat = n := by
  simp only [BitVec.toNat_ofNat, Nat.reducePow]; omega

/-- A small non-negative word is not below zero. -/
theorem slt_zero_small (n : ℕ) (hn : n < 2 ^ 31) : IntOp.cmpi .slt (BitVec.ofNat 32 n) 0#32 = 0#1 :=
  bit_eq_zero fun h => by
    have h' := (StableHlo.Predicate.slt_iff_toNat (a := BitVec.ofNat 32 n) (b := 0#32)
      (by rw [toNat_small n hn]; exact hn) (by decide)).mp h
    exact Nat.not_lt_zero _ h'

/-- The floored remainder by 68 of a small non-negative word, spelled over signed words: the truncating remainder is already in [0, 68), its sign is the
    divisor's, and the correction (adding 68 where the signs differ and the remainder is not zero) does not fire. -/
theorem remFix (n : ℕ) (hn : n < 2 ^ 31) :
    Scalar.select
        (IntOp.andi
          (IntOp.cmpi .ne (IntOp.cmpi .slt (IntOp.remsi .host (BitVec.ofNat 32 n) 68#32) 0#32)
            (IntOp.cmpi .slt (68#32 : BitVec 32) 0#32))
          (IntOp.cmpi .ne (IntOp.remsi .host (BitVec.ofNat 32 n) 68#32) 0#32))
        (IntOp.addi (IntOp.remsi .host (BitVec.ofNat 32 n) 68#32) 68#32)
        (IntOp.remsi .host (BitVec.ofNat 32 n) 68#32)
      = BitVec.ofNat 32 (n % 68) := by
  rw [remsi_68 n hn, slt_zero_small (n % 68) (by omega)]
  have h0 : IntOp.cmpi .ne (0#1 : BitVec 1) (IntOp.cmpi .slt (68#32 : BitVec 32) 0#32) = 0#1 := by decide
  rw [h0]
  unfold Scalar.select IntOp.andi
  rw [BitVec.zero_and, if_neg (by decide)]

/-- The sign of a word as a word: 0, -1 or 1. -/
def sgn (w : BitVec 32) : BitVec 32 := if w = 0 then 0 else if w.msb then -1 else 1

/-- The floored quotient by 68 of a small non-negative word, spelled over signed words: the truncating quotient; the correction (subtracting one
    where the signs differ and the remainder is not zero) does not fire: a positive position has the divisor's sign, and
    position zero, whose sign differs, has remainder zero. -/
theorem divFix (n : ℕ) (hn : n < 2 ^ 31) :
    Scalar.select
        (IntOp.andi
          (IntOp.cmpi .ne (sgn (BitVec.ofNat 32 n)) (sgn 68#32))
          (IntOp.cmpi .ne (IntOp.remsi .host (BitVec.ofNat 32 n) 68#32) 0#32))
        (IntOp.subi (IntOp.divsi .host (BitVec.ofNat 32 n) 68#32) 1#32)
        (IntOp.divsi .host (BitVec.ofNat 32 n) 68#32)
      = BitVec.ofNat 32 (n / 68) := by
  rw [remsi_68 n hn, divsi_68 n hn]
  have hc : IntOp.andi (IntOp.cmpi .ne (sgn (BitVec.ofNat 32 n)) (sgn 68#32))
      (IntOp.cmpi .ne (BitVec.ofNat 32 (n % 68)) 0#32) = 0#1 := by
    rcases Nat.eq_zero_or_pos n with rfl | hpos
    · decide
    · have hne : ¬ BitVec.ofNat 32 n = 0 := fun h => by
        have := congrArg BitVec.toNat h
        rw [toNat_small n hn] at this
        change n = 0 at this
        omega
      have hs : sgn (BitVec.ofNat 32 n) = 1#32 := by
        unfold sgn
        rw [if_neg hne, msb_small n hn]
        rfl
      rw [hs]
      have h1 : IntOp.cmpi .ne (1#32 : BitVec 32) (sgn 68#32) = 0#1 := by decide
      rw [h1]
      unfold IntOp.andi
      exact BitVec.zero_and
  rw [hc]
  unfold Scalar.select
  rw [if_neg (by decide)]

/-- The inner-range test of a small word, converted to a number: one where the value is in [2, 66), zero elsewhere
    (the one-bit conjunction read unsigned). -/
theorem inner_word (k : ℕ) (hk : k < 2 ^ 31) :
    (FloatOps.uitofp (F := Ideal) .f32
        (IntOp.andi (IntOp.cmpi .sge (BitVec.ofNat 32 k) 2#32) (IntOp.cmpi .slt (BitVec.ofNat 32 k) 66#32)) : EReal)
      = if 2 ≤ k ∧ k < 66 then 1 else 0 := by
  have hkk := toNat_small k hk
  have hge := StableHlo.Predicate.sge_iff_toNat (a := BitVec.ofNat 32 k) (b := 2#32) (by rw [hkk]; exact hk) (by decide)
  have hlt := StableHlo.Predicate.slt_iff_toNat (a := BitVec.ofNat 32 k) (b := 66#32) (by rw [hkk]; exact hk) (by decide)
  rw [hkk] at hge hlt
  by_cases h : 2 ≤ k ∧ k < 66
  · rw [if_pos h, hge.mpr h.1, hlt.mpr h.2]
    show (((IntOp.andi (1#1 : BitVec 1) 1#1).toNat : ℝ) : EReal) = 1
    have e : (IntOp.andi (1#1 : BitVec 1) 1#1).toNat = 1 := by decide
    rw [e]; simp
  · rw [if_neg h]
    have e : IntOp.andi (IntOp.cmpi .sge (BitVec.ofNat 32 k) 2#32) (IntOp.cmpi .slt (BitVec.ofNat 32 k) 66#32) = 0#1 :=
      bit_eq_zero fun hh => h ⟨hge.mp (and_bits.mp hh).1, hlt.mp (and_bits.mp hh).2⟩
    rw [e]
    show ((((0#1 : BitVec 1)).toNat : ℝ) : EReal) = 0
    simp

/-! ## The host's terms, as vectors -/

/-- The divisor as the remainder routine takes it: 68 behind a guard against a zero divisor (which leaves 68 alone). -/
def dW : IVec S_ 32 :=
  select (cmpi .eq (id (constantI S_ 32 68#32)) (constantI S_ 32 0#32)) (constantI S_ 32 1#32) (id (constantI S_ 32 68#32))

/-- The truncating remainders of the positions 0 … 4351. -/
def rW : IVec S4352 32 := Host.remsi (iotaInDim S4352 32 0) (broadcastInDim S4352 ![] bcast_S_S4352 dW)

/-- Their floored remainders: the divisor is added where the remainder's sign differs from the divisor's and the
    remainder is not zero. -/
def remW : IVec S4352 32 :=
  select
    (andi
      (cmpi .ne (cmpi .slt rW (broadcastInDim S4352 ![] bcast_S_S4352 (constantI S_ 32 0#32)))
        (broadcastInDim S4352 ![] bcast_S_S4352 (cmpi .slt dW (constantI S_ 32 0#32))))
      (cmpi .ne rW (broadcastInDim S4352 ![] bcast_S_S4352 (constantI S_ 32 0#32))))
    (addi rW (broadcastInDim S4352 ![] bcast_S_S4352 dW)) rW

/-- The column mask as the host builds it: the test "at least 2 and below 66" of the floored remainders, as numbers,
    laid as one row. -/
def maskWvec : S1x4352.Idx → EReal :=
  broadcastInDim S1x4352 ![1] bcast_S4352_S1x4352_1
    (uitofp (F := Ideal) .f32
      (andi (cmpi .sge remW (broadcastInDim S4352 ![] bcast_S_S4352 (constantI S_ 32 2#32)))
        (cmpi .slt remW (broadcastInDim S4352 ![] bcast_S_S4352 (constantI S_ 32 66#32)))))

/-- The divisor as the quotient routine takes it. -/
def dH : IVec S_ 32 := id (constantI S_ 32 68#32)

/-- The truncating quotients and remainders of the positions 0 … 4623. -/
def qH : IVec S4624 32 := Host.divsi (iotaInDim S4624 32 0) (broadcastInDim S4624 ![] bcast_S_S4624 dH)
def rH : IVec S4624 32 := Host.remsi (iotaInDim S4624 32 0) (broadcastInDim S4624 ![] bcast_S_S4624 dH)

/-- Their floored quotients: one is subtracted where the operands' signs differ and the remainder is not zero. -/
def quoH : IVec S4624 32 :=
  select
    (andi
      (cmpi .ne (signi (iotaInDim S4624 32 0)) (broadcastInDim S4624 ![] bcast_S_S4624 (signi dH)))
      (cmpi .ne rH (broadcastInDim S4624 ![] bcast_S_S4624 (constantI S_ 32 0#32))))
    (subi qH (broadcastInDim S4624 ![] bcast_S_S4624 (constantI S_ 32 1#32))) qH

/-- The row mask as the host builds it: the same test of the floored quotients. -/
def maskHvec : S1x4624.Idx → EReal :=
  broadcastInDim S1x4624 ![1] bcast_S4624_S1x4624_1
    (uitofp (F := Ideal) .f32
      (andi (cmpi .sge quoH (broadcastInDim S4624 ![] bcast_S_S4624 (constantI S_ 32 2#32)))
        (cmpi .slt quoH (broadcastInDim S4624 ![] bcast_S_S4624 (constantI S_ 32 66#32)))))

/-! ## The vectors at an index -/

theorem dW_apply (j : S_.Idx) : dW j = 68#32 := by
  show Scalar.select (IntOp.cmpi .eq (68#32 : BitVec 32) 0#32) (1#32 : BitVec 32) 68#32 = 68#32
  decide

theorem pos_small_W (i : S4352.Idx) : (i 0).val < 2 ^ 31 := by
  have h : (i 0).val < 4352 := (i 0).isLt
  omega

theorem pos_small_H (i : S4624.Idx) : (i 0).val < 2 ^ 31 := by
  have h : (i 0).val < 4624 := (i 0).isLt
  omega

/-- The floored remainder at a position is the position's remainder by 68. -/
theorem remW_apply (i : S4352.Idx) : remW i = BitVec.ofNat 32 ((i 0).val % 68) := by
  show Scalar.select
        (IntOp.andi
          (IntOp.cmpi .ne (IntOp.cmpi .slt (IntOp.remsi .host (BitVec.ofNat 32 (i 0).val) (dW ix0)) 0#32)
            (IntOp.cmpi .slt (dW ix0) 0#32))
          (IntOp.cmpi .ne (IntOp.remsi .host (BitVec.ofNat 32 (i 0).val) (dW ix0)) 0#32))
        (IntOp.addi (IntOp.remsi .host (BitVec.ofNat 32 (i 0).val) (dW ix0)) (dW ix0))
        (IntOp.remsi .host (BitVec.ofNat 32 (i 0).val) (dW ix0)) = _
  simp only [dW_apply]
  exact remFix _ (pos_small_W i)

/-- The floored quotient at a position is the position's quotient by 68. -/
theorem quoH_apply (i : S4624.Idx) : quoH i = BitVec.ofNat 32 ((i 0).val / 68) := by
  show Scalar.select
        (IntOp.andi
          (IntOp.cmpi .ne (sgn (BitVec.ofNat 32 (i 0).val)) (sgn 68#32))
          (IntOp.cmpi .ne (IntOp.remsi .host (BitVec.ofNat 32 (i 0).val) 68#32) 0#32))
        (IntOp.subi (IntOp.divsi .host (BitVec.ofNat 32 (i 0).val) 68#32) 1#32)
        (IntOp.divsi .host (BitVec.ofNat 32 (i 0).val) 68#32) = _
  exact divFix _ (pos_small_H i)

/-- The column mask at a position of its one row. -/
theorem maskWvec_apply (p : Fin 4352) : maskWvec (ix2 0 p) = SepConv.maskW p := by
  unfold maskWvec
  rw [broadcastInDim_apply (k := ix1 p) (hk := fun a => by fin_cases a; rfl)]
  show (FloatOps.uitofp (F := Ideal) .f32
      (IntOp.andi (IntOp.cmpi .sge (remW (ix1 p)) 2#32) (IntOp.cmpi .slt (remW (ix1 p)) 66#32)) : EReal) = _
  rw [remW_apply, inner_word _ (by have := p.isLt; show p.val % 68 < 2 ^ 31; omega)]
  rfl

/-- The row mask at a position of its one row. -/
theorem maskHvec_apply (q : Fin 4624) : maskHvec (ix2 0 q) = SepConv.maskH q := by
  unfold maskHvec
  rw [broadcastInDim_apply (k := ix1 q) (hk := fun a => by fin_cases a; rfl)]
  show (FloatOps.uitofp (F := Ideal) .f32
      (IntOp.andi (IntOp.cmpi .sge (quoH (ix1 q)) 2#32) (IntOp.cmpi .slt (quoH (ix1 q)) 66#32)) : EReal) = _
  rw [quoH_apply, inner_word _ (by have := q.isLt; show q.val / 68 < 2 ^ 31; omega)]
  rfl

/-! ## What the region finds -/

set_option maxHeartbeats 4000000 in
/-- The column mask's buffer after the host operations is the vector above: the operations that write it, composed;
    it does not depend on the launch contents. -/
theorem V_maskW (c : Dev nD) : (V (F := Ideal) m c main_call0_v29 : S1x4352.Idx → EReal) = maskWvec := by
  show StableHlo.after hostOps0 (fun b => m (c, b)) (Proc.devRef .tc main_call0_v29) = _
  open StableHlo in after_results_simp
  rfl

set_option maxHeartbeats 4000000 in
/-- Likewise the row mask's buffer. -/
theorem V_maskH (c : Dev nD) : (V (F := Ideal) m c main_call0_v38 : S1x4624.Idx → EReal) = maskHvec := by
  show StableHlo.after hostOps0 (fun b => m (c, b)) (Proc.devRef .tc main_call0_v38) = _
  open StableHlo in after_results_simp
  rfl

/-- The column mask as the region finds it: one where the flat position's column (its remainder by 68) is an inner one. -/
theorem maskW_apply (c : Dev nD) (p : Fin 4352) :
    (V (F := Ideal) m c main_call0_v29 : S1x4352.Idx → EReal) (ix2 0 p) = SepConv.maskW p := by
  rw [V_maskW m c]
  exact maskWvec_apply p

/-- The row mask as the region finds it: one where the flat position's row (its quotient by 68) is an inner one. -/
theorem maskH_apply (c : Dev nD) (q : Fin 4624) :
    (V (F := Ideal) m c main_call0_v38 : S1x4624.Idx → EReal) (ix2 0 q) = SepConv.maskH q := by
  rw [V_maskH m c]
  exact maskHvec_apply q

end Cert.KernelIdeal.MaskValue

end
-- ==== Proof.LibScatterSet.lean ====
/-
  A scatter whose body returns the update (a SET), read at an index.

  The scatter is the left fold, over the update's flat positions in row-major order, of the step that replaces the
  result's element at the position's result index (when that index is inside the operand) by the update's element
  there. Read at an index `i'`, it is therefore the update's element at the LAST position, in that order, whose result
  index is `i'`, and the operand's element at `i'` when no position lands on `i'`. Three corollaries: nothing lands
  there (the operand's element stays); exactly one update index lands there (its element is read); the update is a
  constant (the constant where some update index lands, the operand's element elsewhere).
-/
import Idealize.ShloMosaic.PureOps.ShapeOps

noncomputable section

namespace Idealize.ShloMosaic.ScatterSet

section ScatterRead

variable {α : Type} {s si u : Shape} {w : Nat}

/-- Reading a scatter whose body returns the update (a SET) at an index: the left fold over the update's flat
    positions in row-major order leaves at `i'` the update's element at the LAST position whose result index is `i'`,
    and the operand's element when no position lands there. -/
theorem scatter_set_apply (d : ScatterDims s si u) (x : s.Idx → α) (idx : IVec si w) (upd : u.Idx → α) (i' : s.Idx) :
    Host.scatter d (fun _ b => b) x idx upd i'
      = (((List.finRange u.numel).reverse.find? fun n => decide (d.resultIdx? (u.rowMajor.symm n) idx = some i')).elim
          (x i') fun n => upd (u.rowMajor.symm n)) := by
  unfold Host.scatter
  generalize List.finRange u.numel = l
  induction l generalizing x with
  | nil => rfl
  | cons n l ih =>
    rw [List.foldl_cons, ih, List.reverse_cons, List.find?_append]
    cases hl : l.reverse.find? fun n => decide (d.resultIdx? (u.rowMajor.symm n) idx = some i') with
    | some k => rfl
    | none =>
      rw [Option.none_or]
      by_cases hn : d.resultIdx? (u.rowMajor.symm n) idx = some i'
      · rw [List.find?_cons_of_pos (by simpa using hn)]
        simp only [Option.elim]
        generalize d.resultIdx? (u.rowMajor.symm n) idx = o at hn
        subst hn
        exact if_pos rfl
      · rw [List.find?_cons_of_neg (by simpa using hn), List.find?_nil]
        simp only [Option.elim]
        generalize d.resultIdx? (u.rowMajor.symm n) idx = o at hn
        cases o with
        | none => rfl
        | some i =>
          have hne : i' ≠ i := fun h => hn (by rw [h])
          exact if_neg hne

/-- No update index lands on `i'`: the operand's element stays. -/
theorem scatter_set_apply_of_forall_ne (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_set_apply, List.find?_eq_none.2 (fun n _ => by simpa using h (u.rowMajor.symm n))]
  rfl

/-- Exactly one update index `j` lands on `i'`: its element is there. -/
theorem scatter_set_apply_of_unique (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_set_apply]
  cases hf : (List.finRange u.numel).reverse.find? fun n => decide (d.resultIdx? (u.rowMajor.symm n) idx = some i') with
  | none =>
    have := List.find?_eq_none.1 hf (u.rowMajor j) (List.mem_reverse.2 (List.mem_finRange _))
    simp [hj] at this
  | some k =>
    have hk := List.find?_some hf
    simp only [decide_eq_true_eq] at hk
    simp only [Option.elim, huniq _ hk]

/-- A CONSTANT update: the constant where some update index lands, the operand's element elsewhere. -/
theorem scatter_set_const_apply (d : ScatterDims s si u) (x : s.Idx → α) (idx : IVec si w) (v : α) (i' : s.Idx) :
    Host.scatter d (fun _ b => b) x idx (fun _ => v) i'
      = if ∃ j : u.Idx, d.resultIdx? j idx = some i' then v else x i' := by
  by_cases h : ∃ j : u.Idx, d.resultIdx? j idx = some i'
  · rw [if_pos h, scatter_set_apply]
    obtain ⟨j, hj⟩ := h
    cases hf : (List.finRange u.numel).reverse.find? fun n => decide (d.resultIdx? (u.rowMajor.symm n) idx = some i') with
    | none =>
      have := List.find?_eq_none.1 hf (u.rowMajor j) (List.mem_reverse.2 (List.mem_finRange _))
      simp [hj] at this
    | some k => rfl
  · rw [if_neg h]
    exact scatter_set_apply_of_forall_ne d x idx _ i' (fun j hj => h ⟨j, hj⟩)

end ScatterRead

end Idealize.ShloMosaic.ScatterSet

end
-- ==== Proof.MaskR.lean ====
/-
  The two bias masks the reference's wrapper builds by writing a block of ones into a plane of zeros (a scatter at one
  literal start) and flattening, read at an index.

  The general fact used: a scatter whose body returns the update, read at an index, is the update's element at the last
  update position (in row-major order) landing there, and the operand's element where none lands. The two literal
  dimension records: update index (a, b) lands on (a, b + 2), respectively (a + 2, b), always inside the operand; so the
  plane is one exactly on columns 2 to 65, respectively rows 2 to 65. The flattening reads the plane at (p / 68, p % 68).
-/
import proofs.«172729_g2000302748725897_pallasbulk_1061_2_alg».proof.Proof.Gen.ReferenceIdeal.Frame
import proofs.«172729_g2000302748725897_pallasbulk_1061_2_alg».proof.Proof.Spec
import Idealize.ShloMosaic.Lib.ValueIdx
import Idealize.ShloMosaic.Lib.IdealHost
import Idealize.ShloMosaic.Lib.Pipeline.Value
import proofs.«172729_g2000302748725897_pallasbulk_1061_2_alg».proof.Proof.LibScatterSet

set_option maxRecDepth 16384

noncomputable section

namespace Cert.ReferenceIdeal.MaskValue

open Idealize.ShloMosaic Idealize.ShloMosaic.TcCoe Idealize.ShloMosaic.ValueIdx Cert.ReferenceIdeal Cert.ReferenceIdeal.Gen
open Idealize.ShloMosaic.ScatterSet

variable (m : (ℓ : Loc nD τ sig) → Buf (Elt Ideal) ℓ)

/-! ## The two literal dimension records: where an update index lands -/

/-- Writing at column start 2: update index `(a, b)` lands on `(a, b + 2)`, always inside the 64 x 68 plane. -/
theorem resultIdxW (j : S64x64.Idx) (idx : IVec S1 32) (hidx : ∀ k, idx k = 2#32) :
    scatter_S64x68_S1_S64x64_01_n_1_0.resultIdx? j idx
      = some (ix2 (n0 := 64) (n1 := 68) (j 0) ⟨(j 1).val + 2, by have := idx2_lt1 j; omega⟩) := by
  have hs0 : scatter_S64x68_S1_S64x64_01_n_1_0.start j idx 0 = 0 := by
    unfold ScatterDims.start; exact dif_neg (by decide)
  have hs1 : scatter_S64x68_S1_S64x64_01_n_1_0.start j idx 1 = 2 := by
    unfold ScatterDims.start; rw [dif_pos (by decide), hidx]; rfl
  have hw0 : scatter_S64x68_S1_S64x64_01_n_1_0.window j 0 = (j 0).val := by
    unfold ScatterDims.window; rw [dif_pos (by decide)]; rfl
  have hw1 : scatter_S64x68_S1_S64x64_01_n_1_0.window j 1 = (j 1).val := by
    unfold ScatterDims.window; rw [dif_pos (by decide)]; rfl
  have h0 := idx2_lt0 j
  have h1 := idx2_lt1 j
  have hall : ∀ a, 0 ≤ scatter_S64x68_S1_S64x64_01_n_1_0.start j idx a + scatter_S64x68_S1_S64x64_01_n_1_0.window j a
      ∧ scatter_S64x68_S1_S64x64_01_n_1_0.start j idx a + scatter_S64x68_S1_S64x64_01_n_1_0.window j a < S64x68.size a := by
    refine Fin.forall_fin_two.2 ⟨?_, ?_⟩
    · rw [hs0, hw0]; show (0 : Int) ≤ 0 + ((j 0).val : Int) ∧ 0 + ((j 0).val : Int) < ((64 : Nat) : Int); omega
    · rw [hs1, hw1]; show (0 : Int) ≤ 2 + ((j 1).val : Int) ∧ 2 + ((j 1).val : Int) < ((68 : Nat) : Int); omega
  unfold ScatterDims.resultIdx?
  rw [dif_pos hall]
  refine congrArg some (funext ?_)
  refine Fin.forall_fin_two.2 ⟨?_, ?_⟩
  · refine Fin.ext ?_
    show (scatter_S64x68_S1_S64x64_01_n_1_0.start j idx 0 + scatter_S64x68_S1_S64x64_01_n_1_0.window j 0).toNat = (j 0).val
    rw [hs0, hw0]; omega
  · refine Fin.ext ?_
    show (scatter_S64x68_S1_S64x64_01_n_1_0.start j idx 1 + scatter_S64x68_S1_S64x64_01_n_1_0.window j 1).toNat = (j 1).val + 2
    rw [hs1, hw1]; omega

/-- Writing at row start 2: update index `(a, b)` lands on `(a + 2, b)`, always inside the 68 x 68 plane. -/
theorem resultIdxH (j : S64x68.Idx) (idx : IVec S1 32) (hidx : ∀ k, idx k = 2#32) :
    scatter_S68x68_S1_S64x68_01_n_0_0.resultIdx? j idx
      = some (ix2 (n0 := 68) (n1 := 68) ⟨(j 0).val + 2, by have := idx2_lt0 j; omega⟩ (j 1)) := by
  have hs0 : scatter_S68x68_S1_S64x68_01_n_0_0.start j idx 0 = 2 := by
    unfold ScatterDims.start; rw [dif_pos (by decide), hidx]; rfl
  have hs1 : scatter_S68x68_S1_S64x68_01_n_0_0.start j idx 1 = 0 := by
    unfold ScatterDims.start; exact dif_neg (by decide)
  have hw0 : scatter_S68x68_S1_S64x68_01_n_0_0.window j 0 = (j 0).val := by
    unfold ScatterDims.window; rw [dif_pos (by decide)]; rfl
  have hw1 : scatter_S68x68_S1_S64x68_01_n_0_0.window j 1 = (j 1).val := by
    unfold ScatterDims.window; rw [dif_pos (by decide)]; rfl
  have h0 := idx2_lt0 j
  have h1 := idx2_lt1 j
  have hall : ∀ a, 0 ≤ scatter_S68x68_S1_S64x68_01_n_0_0.start j idx a + scatter_S68x68_S1_S64x68_01_n_0_0.window j a
      ∧ scatter_S68x68_S1_S64x68_01_n_0_0.start j idx a + scatter_S68x68_S1_S64x68_01_n_0_0.window j a < S68x68.size a := by
    refine Fin.forall_fin_two.2 ⟨?_, ?_⟩
    · rw [hs0, hw0]; show (0 : Int) ≤ 2 + ((j 0).val : Int) ∧ 2 + ((j 0).val : Int) < ((68 : Nat) : Int); omega
    · rw [hs1, hw1]; show (0 : Int) ≤ 0 + ((j 1).val : Int) ∧ 0 + ((j 1).val : Int) < ((68 : Nat) : Int); omega
  unfold ScatterDims.resultIdx?
  rw [dif_pos hall]
  refine congrArg some (funext ?_)
  refine Fin.forall_fin_two.2 ⟨?_, ?_⟩
  · refine Fin.ext ?_
    show (scatter_S68x68_S1_S64x68_01_n_0_0.start j idx 0 + scatter_S68x68_S1_S64x68_01_n_0_0.window j 0).toNat = (j 0).val + 2
    rw [hs0, hw0]; omega
  · refine Fin.ext ?_
    show (scatter_S68x68_S1_S64x68_01_n_0_0.start j idx 1 + scatter_S68x68_S1_S64x68_01_n_0_0.window j 1).toNat = (j 1).val
    rw [hs1, hw1]; omega

/-! ## The two planes read at an index -/

/-- The 64 x 68 plane of zeros with the 64 x 64 block of ones written at column start 2: one exactly on columns 2 to 65. -/
theorem planeW_apply (i' : S64x68.Idx) :
    Host.scatter scatter_S64x68_S1_S64x64_01_n_1_0 (fun _ b => b)
        (broadcastInDim S64x68 ![] bcast_S_S64x68 (constant (F := Ideal) S_ .f32 0x00000000#32))
        (broadcastInDim S1 ![] bcast_S_S1 (constantI S_ 32 2#32))
        (broadcastInDim S64x64 ![] bcast_S_S64x64 (constant (F := Ideal) S_ .f32 0x3F800000#32)) i'
      = if 2 ≤ (i' 1).val ∧ (i' 1).val < 66 then (1 : EReal) else 0 := by
  have hidx : ∀ k, (broadcastInDim S1 ![] bcast_S_S1 (constantI S_ 32 2#32) : IVec S1 32) k = 2#32 := fun _ => rfl
  have e := scatter_set_const_apply scatter_S64x68_S1_S64x64_01_n_1_0
    (broadcastInDim S64x68 ![] bcast_S_S64x68 (constant (F := Ideal) S_ .f32 0x00000000#32))
    (broadcastInDim S1 ![] bcast_S_S1 (constantI S_ 32 2#32)) (Ideal.ofBits .f32 0x3F800000#32) i'
  refine e.trans ?_
  have hx : (broadcastInDim S64x68 ![] bcast_S_S64x68 (constant (F := Ideal) S_ .f32 0x00000000#32)) i' = (0 : EReal) :=
    Ideal.ofBits_zero_f32
  rw [hx, Ideal.ofBits_one_f32]
  refine if_congr ?_ rfl rfl
  have h0 := idx2_lt0 i'
  have h1 := idx2_lt1 i'
  constructor
  · rintro ⟨j, hj⟩
    rw [resultIdxW j _ hidx] at hj
    have hj1 := idx2_lt1 j
    have : (j 1).val + 2 = (i' 1).val := congrArg (fun f : S64x68.Idx => (f 1).val) (Option.some.inj hj)
    omega
  · rintro ⟨hlo, hhi⟩
    refine ⟨ix2 (n0 := 64) (n1 := 64) ⟨(i' 0).val, h0⟩ ⟨(i' 1).val - 2, by omega⟩, ?_⟩
    rw [resultIdxW _ _ hidx]
    refine congrArg some (funext ?_)
    refine Fin.forall_fin_two.2 ⟨?_, ?_⟩
    · exact Fin.ext rfl
    · refine Fin.ext ?_
      show (i' 1).val - 2 + 2 = (i' 1).val
      omega

/-- The 68 x 68 plane of zeros with the 64 x 68 block of ones written at row start 2: one exactly on rows 2 to 65. -/
theorem planeH_apply (i' : S68x68.Idx) :
    Host.scatter scatter_S68x68_S1_S64x68_01_n_0_0 (fun _ b => b)
        (broadcastInDim S68x68 ![] bcast_S_S68x68 (constant (F := Ideal) S_ .f32 0x00000000#32))
        (broadcastInDim S1 ![] bcast_S_S1 (constantI S_ 32 2#32))
        (broadcastInDim S64x68 ![] bcast_S_S64x68 (constant (F := Ideal) S_ .f32 0x3F800000#32)) i'
      = if 2 ≤ (i' 0).val ∧ (i' 0).val < 66 then (1 : EReal) else 0 := by
  have hidx : ∀ k, (broadcastInDim S1 ![] bcast_S_S1 (constantI S_ 32 2#32) : IVec S1 32) k = 2#32 := fun _ => rfl
  have e := scatter_set_const_apply scatter_S68x68_S1_S64x68_01_n_0_0
    (broadcastInDim S68x68 ![] bcast_S_S68x68 (constant (F := Ideal) S_ .f32 0x00000000#32))
    (broadcastInDim S1 ![] bcast_S_S1 (constantI S_ 32 2#32)) (Ideal.ofBits .f32 0x3F800000#32) i'
  refine e.trans ?_
  have hx : (broadcastInDim S68x68 ![] bcast_S_S68x68 (constant (F := Ideal) S_ .f32 0x00000000#32)) i' = (0 : EReal) :=
    Ideal.ofBits_zero_f32
  rw [hx, Ideal.ofBits_one_f32]
  refine if_congr ?_ rfl rfl
  have h0 := idx2_lt0 i'
  have h1 := idx2_lt1 i'
  constructor
  · rintro ⟨j, hj⟩
    rw [resultIdxH j _ hidx] at hj
    have hj0 := idx2_lt0 j
    have : (j 0).val + 2 = (i' 0).val := congrArg (fun f : S68x68.Idx => (f 0).val) (Option.some.inj hj)
    omega
  · rintro ⟨hlo, hhi⟩
    refine ⟨ix2 (n0 := 64) (n1 := 68) ⟨(i' 0).val - 2, by omega⟩ ⟨(i' 1).val, h1⟩, ?_⟩
    rw [resultIdxH _ _ hidx]
    refine congrArg some (funext ?_)
    refine Fin.forall_fin_two.2 ⟨?_, ?_⟩
    · refine Fin.ext ?_
      show (i' 0).val - 2 + 2 = (i' 0).val
      omega
    · exact Fin.ext rfl

/-! ## The two arrays as the region finds them -/

/-- The column mask's array after the wrapper's operations: the composed term, whatever the launch contents. -/
theorem V16_eq (c : Dev nD) :
    (V (F := Ideal) m c main_call0_v16 : S1x4352.Idx → EReal)
      = shapeCast S1x4352 (Host.scatter scatter_S64x68_S1_S64x64_01_n_1_0 (fun _ b => b)
          (broadcastInDim S64x68 ![] bcast_S_S64x68 (constant (F := Ideal) S_ .f32 0x00000000#32))
          (broadcastInDim S1 ![] bcast_S_S1 (constantI S_ 32 2#32))
          (broadcastInDim S64x64 ![] bcast_S_S64x64 (constant (F := Ideal) S_ .f32 0x3F800000#32))) shapeCasts_S64x68_S1x4352 := by
  show StableHlo.after hostOps0 (fun b => m (c, b)) (Proc.devRef .tc main_call0_v16) = _
  after_results
  simp only [StableHlo.TRef.ofBuf, StableHlo.TRef.toBuf, cast_eq]
  rfl

/-- The row mask's array after the wrapper's operations. -/
theorem V21_eq (c : Dev nD) :
    (V (F := Ideal) m c main_call0_v21 : S1x4624.Idx → EReal)
      = shapeCast S1x4624 (Host.scatter scatter_S68x68_S1_S64x68_01_n_0_0 (fun _ b => b)
          (broadcastInDim S68x68 ![] bcast_S_S68x68 (constant (F := Ideal) S_ .f32 0x00000000#32))
          (broadcastInDim S1 ![] bcast_S_S1 (constantI S_ 32 2#32))
          (broadcastInDim S64x68 ![] bcast_S_S64x68 (constant (F := Ideal) S_ .f32 0x3F800000#32))) shapeCasts_S68x68_S1x4624 := by
  show StableHlo.after hostOps0 (fun b => m (c, b)) (Proc.devRef .tc main_call0_v21) = _
  after_results
  simp only [StableHlo.TRef.ofBuf, StableHlo.TRef.toBuf, cast_eq]
  rfl

/-- The column mask as the region finds it: the 64 x 68 plane of zeros with ones written on columns 2 to 65, flattened. -/
theorem maskW_apply (c : Dev nD) (p : Fin 4352) :
    (V (F := Ideal) m c main_call0_v16 : S1x4352.Idx → EReal) (ix2 0 p) = SepConv.maskW p := by
  have hp := p.isLt
  refine (congrFun (V16_eq m c) (ix2 0 p)).trans ?_
  rw [shapeCast_apply _ shapeCasts_S64x68_S1x4352 (ix2 0 p)
    (ix2 (n0 := 64) (n1 := 68) ⟨p.val / 68, by omega⟩ ⟨p.val % 68, Nat.mod_lt _ (by decide)⟩)
    (by rw [Shape.rowMajor_val_two, Shape.rowMajor_val_two]
        show p.val / 68 * 68 + p.val % 68 = 0 * 4352 + p.val
        omega)]
  rw [planeW_apply]
  rfl

/-- The row mask as the region finds it: the 68 x 68 plane of zeros with ones written on rows 2 to 65, flattened. -/
theorem maskH_apply (c : Dev nD) (q : Fin 4624) :
    (V (F := Ideal) m c main_call0_v21 : S1x4624.Idx → EReal) (ix2 0 q) = SepConv.maskH q := by
  have hq := q.isLt
  refine (congrFun (V21_eq m c) (ix2 0 q)).trans ?_
  rw [shapeCast_apply _ shapeCasts_S68x68_S1x4624 (ix2 0 q)
    (ix2 (n0 := 68) (n1 := 68) ⟨q.val / 68, by omega⟩ ⟨q.val % 68, Nat.mod_lt _ (by decide)⟩)
    (by rw [Shape.rowMajor_val_two, Shape.rowMajor_val_two]
        show q.val / 68 * 68 + q.val % 68 = 0 * 4624 + q.val
        omega)]
  rw [planeH_apply]
  rfl

end Cert.ReferenceIdeal.MaskValue

end
-- ==== Proof.BridgeW.lean ====
/-
  The arrays both wrappers compute the same way from the arguments — the flat padded image, the four weight matrices (each a reshape, a transpose and a reshape of one argument; the fused kernel's wrapper also narrows them to a shorter float format, which changes nothing over the extended reals, and lays the two second-convolution matrices side by side), and the bias column of the second convolutions — are equal, as the two regions find them.

  Each chain is written once as a function of the argument's contents; each program's array is that function of its
  own memory's argument (the host operations that write it, composed; the narrowing is the identity on extended
  reals), and the two memories hold the same arguments.
-/
import proofs.«172729_g2000302748725897_pallasbulk_1061_2_alg».proof.Proof.Agree
import proofs.«172729_g2000302748725897_pallasbulk_1061_2_alg».proof.Proof.MaskK
import proofs.«172729_g2000302748725897_pallasbulk_1061_2_alg».proof.Proof.MaskR
import Idealize.ShloMosaic.Lib.Pipeline.Value
import Idealize.ShloMosaic.Lib.ValueLayout
import Idealize.ShloMosaic.Lib.StableHlo.Run

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! ## The chains, as functions of an argument's contents -/

section Chains
open Cert.KernelIdeal Cert.KernelIdeal.Gen

/-- A 64 x 64 x 5 x 1 weight argument as a 64 x 320 matrix: the unit axis dropped, the tap axis moved before the
    input-channel axis, the two flattened (column 64 * tap + channel). -/
def wmatA (x : S64x64x5x1.Idx → EReal) : S64x320.Idx → EReal :=
  shapeCast S64x320
    (transpose S64x5x64 [0, 2, 1] (shapeCast S64x64x5 x shapeCasts_S64x64x5x1_S64x64x5) transposes_S64x64x5_S64x5x64_0_2_1)
    shapeCasts_S64x5x64_S64x320

/-- The same for a 64 x 64 x 1 x 5 weight argument. -/
def wmatB (x : S64x64x1x5.Idx → EReal) : S64x320.Idx → EReal :=
  shapeCast S64x320
    (transpose S64x5x64 [0, 2, 1] (shapeCast S64x64x5 x shapeCasts_S64x64x1x5_S64x64x5) transposes_S64x64x5_S64x5x64_0_2_1)
    shapeCasts_S64x5x64_S64x320

/-- The image argument, each 64 x 64 plane padded by two zeros on every side, its 68 x 68 planes flattened, and two
    more zeros put before and after each flat plane. -/
def ximg (x : S64x64x64x64.Idx → EReal) : S64x64x4628.Idx → EReal :=
  pad S64x64x4628 ![0, 0, 2] ![0, 0, 2] ![0, 0, 0]
    (shapeCast S64x64x4624
      (pad S64x64x68x68 ![0, 0, 2, 2] ![0, 0, 2, 2] ![0, 0, 0, 0] x (sitofp (F := Ideal) .f32 (constantI S_ 32 0#32))
        pads_S64x64x64x64_S64x64x68x68_000_000_220_220 h_S_)
      shapeCasts_S64x64x68x68_S64x64x4624)
    (sitofp (F := Ideal) .f32 (constantI S_ 32 0#32)) pads_S64x64x4624_S64x64x4628_000_000_220 h_S_

/-- Two bias arguments added, as a column. -/
def bcol (a b : S64.Idx → EReal) : S64x1.Idx → EReal :=
  broadcastInDim S64x1 ![0] bcast_S64_S64x1_0 (addf (F := Ideal) (φ := .f32) a b)

/-- Two 64 x 320 matrices side by side. -/
def sideBySide (a b : S64x320.Idx → EReal) : S64x640.Idx → EReal :=
  concatenate S64x640 1 [⟨S64x320, a⟩, ⟨S64x320, b⟩] concatenates_S64x320_S64x320_S64x640_d1

end Chains

/-! ## The fused kernel's program: each array is its chain of that program's argument -/

section KernelSide
open Cert.KernelIdeal Cert.KernelIdeal.Gen StableHlo

set_option maxHeartbeats 4000000 in
theorem K_X (c : Dev nD) :
    (V (F := Ideal) m c main_call0_v42 : S64x64x4628.Idx → EReal) = ximg (m ((c : Thread nD τ).loc main_arg0)) := by
  show StableHlo.after hostOps0 (fun b => m (c, b)) (Proc.devRef .tc main_call0_v42) = _
  after_results
  rfl

set_option maxHeartbeats 4000000 in
theorem K_W1L (c : Dev nD) :
    (V (F := Ideal) m c main_call0_v3 : S64x320.Idx → EReal) = wmatA (m ((c : Thread nD τ).loc main_arg1)) := by
  show StableHlo.after hostOps0 (fun b => m (c, b)) (Proc.devRef .tc main_call0_v3) = _
  after_results
  rfl

set_option maxHeartbeats 4000000 in
theorem K_W1R (c : Dev nD) :
    (V (F := Ideal) m c main_call0_v7 : S64x320.Idx → EReal) = wmatB (m ((c : Thread nD τ).loc main_arg5)) := by
  show StableHlo.after hostOps0 (fun b => m (c, b)) (Proc.devRef .tc main_call0_v7) = _
  after_results
  rfl

set_option maxHeartbeats 4000000 in
theorem K_W2 (c : Dev nD) :
    (V (F := Ideal) m c main_call0_v16 : S64x640.Idx → EReal) = sideBySide (wmatB (m ((c : Thread nD τ).loc main_arg3))) (wmatA (m ((c : Thread nD τ).loc main_arg7))) := by
  show StableHlo.after hostOps0 (fun b => m (c, b)) (Proc.devRef .tc main_call0_v16) = _
  after_results
  rfl

set_option maxHeartbeats 4000000 in
theorem K_B2 (c : Dev nD) :
    (V (F := Ideal) m c main_call0_v20 : S64x1.Idx → EReal) = bcol (m ((c : Thread nD τ).loc main_arg4)) (m ((c : Thread nD τ).loc main_arg8)) := by
  show StableHlo.after hostOps0 (fun b => m (c, b)) (Proc.devRef .tc main_call0_v20) = _
  after_results
  rfl

end KernelSide

/-! ## The reference's program: likewise -/

section ReferenceSide
open Cert.ReferenceIdeal Cert.ReferenceIdeal.Gen StableHlo

set_option maxHeartbeats 4000000 in
theorem R_X (c : Dev nD) :
    (V (F := Ideal) m' c main_call0_v34 : S64x64x4628.Idx → EReal) = ximg (m' ((c : Thread nD τ).loc main_arg0)) := by
  show StableHlo.after hostOps0 (fun b => m' (c, b)) (Proc.devRef .tc main_call0_v34) = _
  after_results
  rfl

set_option maxHeartbeats 4000000 in
theorem R_WL1 (c : Dev nD) :
    (V (F := Ideal) m' c main_call0_v2 : S64x320.Idx → EReal) = wmatA (m' ((c : Thread nD τ).loc main_arg1)) := by
  show StableHlo.after hostOps0 (fun b => m' (c, b)) (Proc.devRef .tc main_call0_v2) = _
  after_results
  rfl

set_option maxHeartbeats 4000000 in
theorem R_WL2 (c : Dev nD) :
    (V (F := Ideal) m' c main_call0_v5 : S64x320.Idx → EReal) = wmatB (m' ((c : Thread nD τ).loc main_arg3)) := by
  show StableHlo.after hostOps0 (fun b => m' (c, b)) (Proc.devRef .tc main_call0_v5) = _
  after_results
  rfl

set_option maxHeartbeats 4000000 in
theorem R_WR1 (c : Dev nD) :
    (V (F := Ideal) m' c main_call0_v8 : S64x320.Idx → EReal) = wmatB (m' ((c : Thread nD τ).loc main_arg5)) := by
  show StableHlo.after hostOps0 (fun b => m' (c, b)) (Proc.devRef .tc main_call0_v8) = _
  after_results
  rfl

set_option maxHeartbeats 4000000 in
theorem R_WR2 (c : Dev nD) :
    (V (F := Ideal) m' c main_call0_v11 : S64x320.Idx → EReal) = wmatA (m' ((c : Thread nD τ).loc main_arg7)) := by
  show StableHlo.after hostOps0 (fun b => m' (c, b)) (Proc.devRef .tc main_call0_v11) = _
  after_results
  rfl

set_option maxHeartbeats 4000000 in
theorem R_B2 (c : Dev nD) :
    (V (F := Ideal) m' c main_call0_v31 : S64x1.Idx → EReal) = bcol (m' ((c : Thread nD τ).loc main_arg4)) (m' ((c : Thread nD τ).loc main_arg8)) := by
  show StableHlo.after hostOps0 (fun b => m' (c, b)) (Proc.devRef .tc main_call0_v31) = _
  after_results
  rfl

end ReferenceSide

/-! ## The two programs' arrays are equal -/

/-- The flat padded image: the same two paddings and flattening of the first argument. -/
theorem aX_eq (h : Agree m m') (c : Dev Cert.KernelIdeal.nD) : Cert.ReferenceIdeal.ArrayValue.aX m' c = Cert.KernelIdeal.ArrayValue.aX m c := by
  exact (R_X m' c).trans ((congrArg ximg (h c).1).trans (K_X m c).symm)

/-- Branch L's first-convolution weights. -/
theorem aW1L_eq (h : Agree m m') (c : Dev Cert.KernelIdeal.nD) : Cert.ReferenceIdeal.ArrayValue.aWL1 m' c = Cert.KernelIdeal.ArrayValue.aW1L m c := by
  exact (R_WL1 m' c).trans ((congrArg wmatA (h c).2.1).trans (K_W1L m c).symm)

/-- Branch R's first-convolution weights. -/
theorem aW1R_eq (h : Agree m m') (c : Dev Cert.KernelIdeal.nD) : Cert.ReferenceIdeal.ArrayValue.aWR1 m' c = Cert.KernelIdeal.ArrayValue.aW1R m c := by
  exact (R_WR1 m' c).trans ((congrArg wmatB (h c).2.2.2.2.2.1).trans (K_W1R m c).symm)

/-- Branch L's second-convolution weights are the left half of the fused matrix. -/
theorem aW2L_eq (h : Agree m m') (c : Dev Cert.KernelIdeal.nD) (r : Fin 64) (k : Fin 320) :
    Cert.ReferenceIdeal.ArrayValue.aWL2 m' c (ix2 r k) = Cert.KernelIdeal.ArrayValue.aW2 m c (ix2 r ⟨k.val, by have := k.isLt; omega⟩) := by
  refine (congrFun (R_WL2 m' c) (ix2 r k)).trans (Eq.trans ?_ (congrFun (K_W2 m c) _).symm)
  refine Eq.trans (congrFun (congrArg wmatB (h c).2.2.2.1) (ix2 r k)) (Eq.symm ?_)
  -- a column below 320 of the side-by-side matrix is that column of its left piece
  unfold sideBySide
  exact concatenate_pair_apply_left (t := Cert.KernelIdeal.S64x640) (s₁ := Cert.KernelIdeal.S64x320) (s₂ := Cert.KernelIdeal.S64x320)
    (1 : Fin 2) _ _ _ (ix2 r ⟨k.val, by have := k.isLt; omega⟩) rfl (ix2 r k) (fun b => by fin_cases b <;> rfl)

/-- Branch R's second-convolution weights are its right half. -/
theorem aW2R_eq (h : Agree m m') (c : Dev Cert.KernelIdeal.nD) (r : Fin 64) (k : Fin 320) :
    Cert.ReferenceIdeal.ArrayValue.aWR2 m' c (ix2 r k) = Cert.KernelIdeal.ArrayValue.aW2 m c (ix2 r ⟨320 + k.val, by have := k.isLt; omega⟩) := by
  refine (congrFun (R_WR2 m' c) (ix2 r k)).trans (Eq.trans ?_ (congrFun (K_W2 m c) _).symm)
  refine Eq.trans (congrFun (congrArg wmatA (h c).2.2.2.2.2.2.2.1) (ix2 r k)) (Eq.symm ?_)
  -- column 320 + k of the side-by-side matrix is column k of its right piece
  unfold sideBySide
  exact concatenate_pair_apply_right (t := Cert.KernelIdeal.S64x640) (s₁ := Cert.KernelIdeal.S64x320) (s₂ := Cert.KernelIdeal.S64x320)
    (1 : Fin 2) _ _ _ (ix2 r ⟨320 + k.val, by have := k.isLt; omega⟩) rfl rfl (ix2 r k)
    (fun b hb => by fin_cases b <;> first | rfl | exact absurd rfl hb)
    (by show k.val + 320 = 320 + k.val; omega)

/-- The bias column of the second convolutions: the sum of the two bias arguments, as a column. -/
theorem aB2_eq (h : Agree m m') (c : Dev Cert.KernelIdeal.nD) : Cert.ReferenceIdeal.ArrayValue.aB2 m' c = Cert.KernelIdeal.ArrayValue.aB2 m c := by
  exact (R_B2 m' c).trans ((congrArg₂ bcol (h c).2.2.2.2.1 (h c).2.2.2.2.2.2.2.2).trans (K_B2 m c).symm)

end Cert.Bridge

end
-- ==== Proof.BridgeP.lean ====
/-
  The bias planes. The reference's wrapper multiplies, on the host, a bias argument spread along the rows by a mask spread down the columns; the fused kernel stages the bias as a column and the mask as a row and multiplies inside the kernel. Entry (r, q) of the plane is the bias r times the mask q on both sides, and the two wrappers' masks are the same zero-one function.
  Each side's plane is first written as its wrapper's operations applied to the bias argument and the mask, then read at (r, q): a vector spread to a column, a column spread along the rows, a row spread down the columns, and the product entry by entry. The two memories agree on the bias arguments, and both masks are the specification's.
-/
import proofs.«172729_g2000302748725897_pallasbulk_1061_2_alg».proof.Proof.Agree
import proofs.«172729_g2000302748725897_pallasbulk_1061_2_alg».proof.Proof.MaskK
import proofs.«172729_g2000302748725897_pallasbulk_1061_2_alg».proof.Proof.MaskR
import Idealize.ShloMosaic.Lib.Pipeline.Value
import Idealize.ShloMosaic.Lib.ValueLayout
import Idealize.ShloMosaic.Lib.StableHlo.Run

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

section Spread

variable {α : Type}

/-- A vector of n entries spread to a column of shape [n, 1] (its axis to axis 0), read at (r, z): entry r. -/
theorem col_apply {n : ℕ} (hn : n ≠ 1) (hb : (⟨1, ![n]⟩ : Shape).BroadcastsInDim ⟨2, ![n, 1]⟩ ![0])
    (x : (⟨1, ![n]⟩ : Shape).Idx → α) (r : Fin n) (z : Fin 1) :
    broadcastInDim ⟨2, ![n, 1]⟩ ![0] hb x (ix2 r z) = x (ix1 r) :=
  broadcastInDim_apply _ hb x _ _ (Fin.forall_fin_one.2 (if_neg hn).symm)

/-- A column of shape [n, 1] spread along the rows to [n, k], read at (r, q): the column's entry r. -/
theorem rows_apply {n k : ℕ} (hn : n ≠ 1) (hb : (⟨2, ![n, 1]⟩ : Shape).BroadcastsInDim ⟨2, ![n, k]⟩ ![0, 1])
    (x : (⟨2, ![n, 1]⟩ : Shape).Idx → α) (r : Fin n) (q : Fin k) :
    broadcastInDim ⟨2, ![n, k]⟩ ![0, 1] hb x (ix2 r q) = x (ix2 r 0) :=
  broadcastInDim_apply _ hb x _ _ (Fin.forall_fin_two.2 ⟨(if_neg hn).symm, (if_pos rfl).symm⟩)

/-- A row of shape [1, k] spread down the columns to [n, k], read at (r, q): the row's entry q. -/
theorem cols_apply {n k : ℕ} (hk : k ≠ 1) (hb : (⟨2, ![1, k]⟩ : Shape).BroadcastsInDim ⟨2, ![n, k]⟩ ![0, 1])
    (x : (⟨2, ![1, k]⟩ : Shape).Idx → α) (r : Fin n) (q : Fin k) :
    broadcastInDim ⟨2, ![n, k]⟩ ![0, 1] hb x (ix2 r q) = x (ix2 0 q) :=
  broadcastInDim_apply _ hb x _ _ (Fin.forall_fin_two.2 ⟨(if_pos rfl).symm, (if_neg hk).symm⟩)

end Spread

section R

open Cert.ReferenceIdeal Cert.ReferenceIdeal.Gen

/-- The two bias arguments in the reference's memory, as vectors, and the two masks its wrapper builds. -/
abbrev rBL (c : Dev nD) : S64.Idx → EReal := m' ((c.tc : Thread nD τ).loc main_arg2)
abbrev rBR (c : Dev nD) : S64.Idx → EReal := m' ((c.tc : Thread nD τ).loc main_arg6)
abbrev rMW (c : Dev nD) : S1x4352.Idx → EReal := V (F := Ideal) m' c main_call0_v16
abbrev rMH (c : Dev nD) : S1x4624.Idx → EReal := V (F := Ideal) m' c main_call0_v21

/-- Branch L's bias plane after the reference's wrapper: the bias argument spread to a column and then along the rows,
    times the column mask spread down the columns. -/
theorem V25_eq (c : Dev nD) :
    (V (F := Ideal) m' c main_call0_v25 : S64x4352.Idx → EReal)
      = mulf (F := Ideal) (φ := .f32)
          (broadcastInDim S64x4352 ![0, 1] bcast_S64x1_S64x4352_0_1 (broadcastInDim S64x1 ![0] bcast_S64_S64x1_0 (rBL m' c)))
          (broadcastInDim S64x4352 ![0, 1] bcast_S1x4352_S64x4352_0_1 (rMW m' c)) := by
  show StableHlo.after hostOps0 (fun b => m' (c, b)) (Proc.devRef .tc main_call0_v25)
      = mulf (F := Ideal) (φ := .f32)
          (broadcastInDim S64x4352 ![0, 1] bcast_S64x1_S64x4352_0_1
            (broadcastInDim S64x1 ![0] bcast_S64_S64x1_0 (m' ((c.tc : Thread nD τ).loc main_arg2))))
          (broadcastInDim S64x4352 ![0, 1] bcast_S1x4352_S64x4352_0_1
            (StableHlo.after hostOps0 (fun b => m' (c, b)) (Proc.devRef .tc main_call0_v16)))
  after_results
  simp only [StableHlo.TRef.ofBuf, StableHlo.TRef.toBuf, cast_eq]

/-- Branch R's bias plane after the reference's wrapper: the same over the other bias argument and the row mask. -/
theorem V29_eq (c : Dev nD) :
    (V (F := Ideal) m' c main_call0_v29 : S64x4624.Idx → EReal)
      = mulf (F := Ideal) (φ := .f32)
          (broadcastInDim S64x4624 ![0, 1] bcast_S64x1_S64x4624_0_1 (broadcastInDim S64x1 ![0] bcast_S64_S64x1_0 (rBR m' c)))
          (broadcastInDim S64x4624 ![0, 1] bcast_S1x4624_S64x4624_0_1 (rMH m' c)) := by
  show StableHlo.after hostOps0 (fun b => m' (c, b)) (Proc.devRef .tc main_call0_v29)
      = mulf (F := Ideal) (φ := .f32)
          (broadcastInDim S64x4624 ![0, 1] bcast_S64x1_S64x4624_0_1
            (broadcastInDim S64x1 ![0] bcast_S64_S64x1_0 (m' ((c.tc : Thread nD τ).loc main_arg6))))
          (broadcastInDim S64x4624 ![0, 1] bcast_S1x4624_S64x4624_0_1
            (StableHlo.after hostOps0 (fun b => m' (c, b)) (Proc.devRef .tc main_call0_v21)))
  after_results
  simp only [StableHlo.TRef.ofBuf, StableHlo.TRef.toBuf, cast_eq]

/-- Branch L's bias plane at (r, q): the bias argument's entry r times the wrapper's column mask at q. -/
theorem aPL_at (c : Dev nD) (r : Fin 64) (q : Fin 4352) :
    Cert.ReferenceIdeal.ArrayValue.aPL m' c (ix2 r q) = rBL m' c (ix1 r) * rMW m' c (ix2 0 q) := by
  refine (congrFun (V25_eq m' c) (ix2 r q)).trans ?_
  rw [mulf_apply, rows_apply (by decide), col_apply (by decide), cols_apply (by decide)]

/-- Branch R's bias plane at (r, q): the bias argument's entry r times the wrapper's row mask at q. -/
theorem aPR_at (c : Dev nD) (r : Fin 64) (q : Fin 4624) :
    Cert.ReferenceIdeal.ArrayValue.aPR m' c (ix2 r q) = rBR m' c (ix1 r) * rMH m' c (ix2 0 q) := by
  refine (congrFun (V29_eq m' c) (ix2 r q)).trans ?_
  rw [mulf_apply, rows_apply (by decide), col_apply (by decide), cols_apply (by decide)]

end R

section K

open Cert.KernelIdeal Cert.KernelIdeal.Gen

/-- The two bias arguments in the kernel's memory, as vectors. -/
abbrev kBL (c : Dev nD) : S64.Idx → EReal := m ((c.tc : Thread nD τ).loc main_arg2)
abbrev kBR (c : Dev nD) : S64.Idx → EReal := m ((c.tc : Thread nD τ).loc main_arg6)

/-- Branch L's staged bias column: the bias argument spread to a column. -/
theorem V17_eq (c : Dev nD) :
    (V (F := Ideal) m c main_call0_v17 : S64x1.Idx → EReal) = broadcastInDim S64x1 ![0] bcast_S64_S64x1_0 (kBL m c) := by
  show StableHlo.after hostOps0 (fun b => m (c, b)) (Proc.devRef .tc main_call0_v17) = _
  after_results
  simp only [StableHlo.TRef.ofBuf, StableHlo.TRef.toBuf, cast_eq]

/-- Branch R's staged bias column: the other bias argument spread to a column. -/
theorem V18_eq (c : Dev nD) :
    (V (F := Ideal) m c main_call0_v18 : S64x1.Idx → EReal) = broadcastInDim S64x1 ![0] bcast_S64_S64x1_0 (kBR m c) := by
  show StableHlo.after hostOps0 (fun b => m (c, b)) (Proc.devRef .tc main_call0_v18) = _
  after_results
  simp only [StableHlo.TRef.ofBuf, StableHlo.TRef.toBuf, cast_eq]

/-- Branch L's staged bias column at row r: the bias argument's entry r. -/
theorem aB1L_at (c : Dev nD) (r : Fin 64) :
    Cert.KernelIdeal.ArrayValue.aB1L m c (ix2 r 0) = kBL m c (ix1 r) :=
  (congrFun (V17_eq m c) (ix2 r 0)).trans (col_apply (by decide) _ _ r 0)

/-- Branch R's staged bias column at row r: the bias argument's entry r. -/
theorem aB1R_at (c : Dev nD) (r : Fin 64) :
    Cert.KernelIdeal.ArrayValue.aB1R m c (ix2 r 0) = kBR m c (ix1 r) :=
  (congrFun (V18_eq m c) (ix2 r 0)).trans (col_apply (by decide) _ _ r 0)

end K

/-- Branch L's bias plane at (r, q) is the staged bias column's entry r times the staged column mask's entry q. -/
theorem aPL_eq (h : Agree m m') (c : Dev Cert.KernelIdeal.nD) (r : Fin 64) (q : Fin 4352) :
    Cert.ReferenceIdeal.ArrayValue.aPL m' c (ix2 r q) = Cert.KernelIdeal.ArrayValue.aB1L m c (ix2 r 0) * Cert.KernelIdeal.ArrayValue.aMW m c (ix2 0 q) := by
  have hb : rBL m' c (ix1 r) = kBL m c (ix1 r) :=
    congrArg (fun f : Cert.KernelIdeal.S64.Idx → EReal => f (ix1 r)) (h c).2.2.1
  have hmask : rMW m' c (ix2 0 q) = Cert.KernelIdeal.ArrayValue.aMW m c (ix2 0 q) :=
    (Cert.ReferenceIdeal.MaskValue.maskW_apply m' c q).trans (Cert.KernelIdeal.MaskValue.maskW_apply m c q).symm
  rw [aPL_at m' c r q, hb, hmask, aB1L_at m c r]

/-- Branch R's bias plane at (r, q) is the staged bias column's entry r times the staged row mask's entry q. -/
theorem aPR_eq (h : Agree m m') (c : Dev Cert.KernelIdeal.nD) (r : Fin 64) (q : Fin 4624) :
    Cert.ReferenceIdeal.ArrayValue.aPR m' c (ix2 r q) = Cert.KernelIdeal.ArrayValue.aB1R m c (ix2 r 0) * Cert.KernelIdeal.ArrayValue.aMH m c (ix2 0 q) := by
  have hb : rBR m' c (ix1 r) = kBR m c (ix1 r) :=
    congrArg (fun f : Cert.KernelIdeal.S64.Idx → EReal => f (ix1 r)) (h c).2.2.2.2.2.2.1
  have hmask : rMH m' c (ix2 0 q) = Cert.KernelIdeal.ArrayValue.aMH m c (ix2 0 q) :=
    (Cert.ReferenceIdeal.MaskValue.maskH_apply m' c q).trans (Cert.KernelIdeal.MaskValue.maskH_apply m c q).symm
  rw [aPR_at m' c r q, hb, hmask, aB1R_at m c r]

end Cert.Bridge

end
-- ==== Proof.lean ====
/-
  The fused kernel and its reference compute the same gated separable convolution block.

  Both programs take a batch of 64 images of 64 channels on a 64 x 64 grid and the weights and biases of two
  branches of separable 5-tap convolutions (one branch convolves down the rows and then along them, the other along
  the rows and then down them), add the two branches and the summed second biases, and apply a leaky rectifier. Both
  lay every zero-padded plane out flat, so that a spatial shift is a shift of the flat index, run one grid point per
  image, and crop the padding columns at the end.

  They differ in three ways, none of which changes the value over the extended reals: the fused kernel narrows its
  matrix operands to a shorter float format (the identity on exact values); it multiplies each first-convolution bias
  by its zero-one padding mask inside the kernel, where the reference multiplies on the host (the same product, and
  the two wrappers' masks — one from remainders and quotients of an iota, one from a block of ones written into a
  plane of zeros — are the same function); and it computes the two second convolutions as ONE product over the 640
  stacked contraction positions, where the reference adds two products over 320 each (a finite sum split in two).
  No law that needs finiteness is used, so the precondition is never opened.

  The modules: Spec (the common function of one image, `SepConv.out`), LibMatmul (a matrix product read at an
  index), BodyK / BodyR (each kernel body's stored block is `SepConv.out` of its staged blocks), MaskK / MaskR (the
  two wrappers' masks), ArrayK / ArrayR (from the blocks to the whole result, through the lines after the region),
  BridgeW / BridgeP (the two wrappers' arrays agree), and here the claims.
-/
import proofs.«172729_g2000302748725897_pallasbulk_1061_2_alg».proof.Defs
import proofs.«172729_g2000302748725897_pallasbulk_1061_2_alg».proof.Proof.Gen.Kernel
import proofs.«172729_g2000302748725897_pallasbulk_1061_2_alg».proof.Proof.Gen.Kernel.Frame
import proofs.«172729_g2000302748725897_pallasbulk_1061_2_alg».proof.Proof.Gen.KernelIdeal
import proofs.«172729_g2000302748725897_pallasbulk_1061_2_alg».proof.Proof.Gen.KernelIdeal.Frame
import proofs.«172729_g2000302748725897_pallasbulk_1061_2_alg».proof.Proof.Gen.ReferenceIdeal
import proofs.«172729_g2000302748725897_pallasbulk_1061_2_alg».proof.Proof.Gen.ReferenceIdeal.Frame
import proofs.«172729_g2000302748725897_pallasbulk_1061_2_alg».proof.Proof.Gen.Pre_finite_inputs
import proofs.«172729_g2000302748725897_pallasbulk_1061_2_alg».proof.Proof.ArrayK
import proofs.«172729_g2000302748725897_pallasbulk_1061_2_alg».proof.Proof.ArrayR
import proofs.«172729_g2000302748725897_pallasbulk_1061_2_alg».proof.Proof.Agree
import proofs.«172729_g2000302748725897_pallasbulk_1061_2_alg».proof.Proof.BridgeW
import proofs.«172729_g2000302748725897_pallasbulk_1061_2_alg».proof.Proof.BridgeP
import Idealize.ShloMosaic.Adequacy
import Idealize.ShloMosaic.Init

noncomputable section

namespace Cert.Proof

open Idealize.ShloMosaic Idealize.ShloMosaic.TcCoe Idealize.SL.Sem

/-- From memories that agree on the arguments, the two pallas calls' output arrays are one function: image by image
    the same `SepConv.out`, its eight ingredients equal pairwise. -/
theorem G_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Bridge.Agree m m') (c : Dev Cert.KernelIdeal.nD) :
    Cert.ReferenceIdeal.ArrayValue.G m' c = Cert.KernelIdeal.ArrayValue.G m c := by
  funext i
  show Cert.ReferenceIdeal.ArrayValue.Gat m' c (i 0) (i 1) (i 2) = Cert.KernelIdeal.ArrayValue.Gat m c (i 0) (i 1) (i 2)
  unfold Cert.ReferenceIdeal.ArrayValue.Gat Cert.KernelIdeal.ArrayValue.Gat
  exact SepConv.out_congr
    (fun ch j => congrFun (Cert.Bridge.aX_eq m m' h c) _)
    (fun r k => congrFun (Cert.Bridge.aW1L_eq m m' h c) _)
    (fun r k => congrFun (Cert.Bridge.aW1R_eq m m' h c) _)
    (fun r k => Cert.Bridge.aW2L_eq m m' h c r k)
    (fun r k => Cert.Bridge.aW2R_eq m m' h c r k)
    (fun r q => Cert.Bridge.aPL_eq m m' h c r q)
    (fun r q => Cert.Bridge.aPR_eq m m' h c r q)
    (fun r => congrFun (Cert.Bridge.aB2_eq m m' h c) _) _ _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The ideal pass rewrote nothing: the idealized kernel is the kernel's own text read over the extended reals. -/
theorem preserves : Cert.preserves_Kernel_KernelIdeal := trivial

/-- Both idealized programs end with their result buffer at the cropped, reshaped output array of the pallas call;
    the two arrays are one function of the arguments (`G_eq`), and the crop is the same on both sides. -/
theorem algebraic : Cert.algebraic_KernelIdeal_ReferenceIdeal := by
  intro m ρ m' ρ' _ hagree
  refine ⟨fun c => Cert.KernelIdeal.ArrayValue.tail (Cert.KernelIdeal.ArrayValue.G m c), Cert.KernelIdeal.ArrayValue.run m ρ, ?_⟩
  refine (θ_run Cert.ReferenceIdeal.defs _ _).mono (fun r h c => ?_) (Cert.ReferenceIdeal.ArrayValue.run m' ρ')
  refine ⟨(h c).1.trans ?_, (h c).2⟩
  rw [G_eq m m' hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
